-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x512 : Shape := ⟨4, ![4, 128, 128, 512]⟩
abbrev S512x1536 : Shape := ⟨2, ![512, 1536]⟩
abbrev S512 : Shape := ⟨1, ![512]⟩
abbrev S16x1x1 : Shape := ⟨3, ![16, 1, 1]⟩
abbrev S2x512 : Shape := ⟨2, ![2, 512]⟩
abbrev S512x16 : Shape := ⟨2, ![512, 16]⟩
abbrev S512x512 : Shape := ⟨2, ![512, 512]⟩
abbrev S_ : Shape := ⟨0, ![]⟩

class Facts : Prop where
  bcast_S_S4x128x128x512 : S_.BroadcastsInDim S4x128x128x512 (![] : Fin 0 → Fin S4x128x128x512.rank)
  reducesTo_S4x128x128x512_S_d0_1_2_3 : S4x128x128x512.ReducesTo [0, 1, 2, 3] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S16x1x1 : S_.BroadcastsInDim S16x1x1 (![] : Fin 0 → Fin S16x1x1.rank)
  reducesTo_S16x1x1_S_d0_1_2 : S16x1x1.ReducesTo [0, 1, 2] S_
  bcast_S_S2x512 : S_.BroadcastsInDim S2x512 (![] : Fin 0 → Fin S2x512.rank)
  reducesTo_S2x512_S_d0_1 : S2x512.ReducesTo [0, 1] S_
  bcast_S_S512x16 : S_.BroadcastsInDim S512x16 (![] : Fin 0 → Fin S512x16.rank)
  reducesTo_S512x16_S_d0_1 : S512x16.ReducesTo [0, 1] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512x16 .f32) (main_arg8 : FVec F S512x512 .f32) (main_arg9 : FVec F S512 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S16x1x1 .f32) (main_arg5 : FVec F S2x512 .f32) (main_arg6 : FVec F S512 .f32) (main_arg7 : FVec F S512x16 .f32) (main_arg8 : FVec F S512x512 .f32) (main_arg9 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S16x1x1 .f32 := Host.absf main_arg4
  let main_cst_6 : FVec F S_ .f32 := constant S_ .f32 0x7F800000#32
  let main_v20 : FVec F S16x1x1 .f32 := broadcastInDim S16x1x1 ![] bcast_S_S16x1x1 main_cst_6
  let main_v21 : IVec S16x1x1 1 := cmpf .olt main_v19 main_v20
  let main_c_7 : IVec S_ 1 := constantI S_ 1 1#1
  let main_v22 : IVec S_ 1 := (fun x v => Host.reduce IntOp.andi x v reducesTo_S16x1x1_S_d0_1_2 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S4x128x128x512 .f32) (main_arg1 : FVec F S512x1536 .f32) (main_arg2 : FVec F S512 .f32) (main_arg3 : FVec F S512 .f32) (main_arg4 : FVec F S16x1x1 .f32) (main_arg5 : FVec F S2x512 .f32) (main_arg6 : FVec F S512 .f32) (main_arg7 : FVec F S512x16 .f32) (main_arg8 : FVec F S512x512 .f32) (main_arg9 : FVec F S512 .f32) : IVec S_ 1 :=
  let main_v0 : FVec F S4x128x128x512 .f32 := Host.absf main_arg0
  let main_cst : FVec F S_ .f32 := constant S_ .f32 0x7F800000#32
  let main_v1 : FVec F S4x128x128x512 .f32 := broadcastInDim S4x128x128x512 ![] bcast_S_S4x128x128x512 main_cst
  let main_v2 : IVec S4x128x128x512 1 := cmpf .olt main_v0 main_v1
  let main_c : IVec S_ 1 := constantI S_ 1 1#1
  let main_v3 : IVec S_ 1 := (fun x v => Host.reduce IntOp.andi x v reducesTo_S4x128x128x512_S_d0_1_2_3 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S4x128x128x512 : Shape := ⟨4, ![4, 128, 128, 512]⟩
abbrev S512x1536 : Shape := ⟨2, ![512, 1536]⟩
abbrev S512 : Shape := ⟨1, ![512]⟩
abbrev S16x1x1 : Shape := ⟨3, ![16, 1, 1]⟩
abbrev S2x512 : Shape := ⟨2, ![2, 512]⟩
abbrev S512x16 : Shape := ⟨2, ![512, 16]⟩
abbrev S512x512 : Shape := ⟨2, ![512, 512]⟩
abbrev S225x2 : Shape := ⟨2, ![225, 2]⟩
abbrev S4096 : Shape := ⟨1, ![4096]⟩
abbrev S65536x512 : Shape := ⟨2, ![65536, 512]⟩
abbrev S_ : Shape := ⟨0, ![]⟩
abbrev S1536 : Shape := ⟨1, ![1536]⟩
abbrev S65536x1536 : Shape := ⟨2, ![65536, 1536]⟩
abbrev S1024x512 : Shape := ⟨2, ![1024, 512]⟩
abbrev S1024x1536 : Shape := ⟨2, ![1024, 1536]⟩
abbrev S1x1536 : Shape := ⟨2, ![1, 1536]⟩
abbrev S4x128x128x1536 : Shape := ⟨4, ![4, 128, 128, 1536]⟩
abbrev S4x8x16x8x16x16x32 : Shape := ⟨7, ![4, 8, 16, 8, 16, 16, 32]⟩
abbrev S4x16x16x16x8x8x32 : Shape := ⟨7, ![4, 16, 16, 16, 8, 8, 32]⟩
abbrev S1024x16x64x32 : Shape := ⟨4, ![1024, 16, 64, 32]⟩
abbrev S225x512 : Shape := ⟨2, ![225, 512]⟩
abbrev S1x512 : Shape := ⟨2, ![1, 512]⟩
abbrev S225x16 : Shape := ⟨2, ![225, 16]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S4x16x64x32 : Shape := ⟨4, ![4, 16, 64, 32]⟩
abbrev S4x16x64 : Shape := ⟨3, ![4, 16, 64]⟩
abbrev S4x16x64x1 : Shape := ⟨4, ![4, 16, 64, 1]⟩
abbrev S64x64x32 : Shape := ⟨3, ![64, 64, 32]⟩
abbrev S64x64x64 : Shape := ⟨3, ![64, 64, 64]⟩
abbrev S4x16x64x64 : Shape := ⟨4, ![4, 16, 64, 64]⟩
abbrev S1x16x1x1 : Shape := ⟨4, ![1, 16, 1, 1]⟩
abbrev S1x16x64x64 : Shape := ⟨4, ![1, 16, 64, 64]⟩
abbrev S2048x512 : Shape := ⟨2, ![2048, 512]⟩

abbrev nBuf : Space → Nat
  | .hbm => 73
  | .vmem => 22
  | .smem => 0
  | _ => 0

abbrev bufTy : (tb : Table) → Fin (tcTables nBuf tb) → BufTy
  | .hbm, ⟨0, _⟩ => ⟨S4x128x128x512, .f32⟩
  | .hbm, ⟨1, _⟩ => ⟨S512x1536, .f32⟩
  | .hbm, ⟨2, _⟩ => ⟨S512, .f32⟩
  | .hbm, ⟨3, _⟩ => ⟨S512, .f32⟩
  | .hbm, ⟨4, _⟩ => ⟨S16x1x1, .f32⟩
  | .hbm, ⟨5, _⟩ => ⟨S2x512, .f32⟩
  | .hbm, ⟨6, _⟩ => ⟨S512, .f32⟩
  | .hbm, ⟨7, _⟩ => ⟨S512x16, .f32⟩
  | .hbm, ⟨8, _⟩ => ⟨S512x512, .f32⟩
  | .hbm, ⟨9, _⟩ => ⟨S512, .f32⟩
  | .hbm, ⟨10, _⟩ => ⟨S225x2, .f32⟩
  | .hbm, ⟨11, _⟩ => ⟨S4096, .i32⟩
  | .hbm, ⟨12, _⟩ => ⟨S65536x512, .f32⟩
  | .hbm, ⟨13, _⟩ => ⟨S_, .f32⟩
  | .hbm, ⟨14, _⟩ => ⟨S512, .f32⟩
  | .hbm, ⟨15, _⟩ => ⟨S1536, .f32⟩
  | .hbm, ⟨16, _⟩ => ⟨S512x1536, .bf16⟩
  | .hbm, ⟨17, _⟩ => ⟨S65536x1536, .bf16⟩
  | .hbm, ⟨18, _⟩ => ⟨S4x128x128x1536, .bf16⟩
  | .hbm, ⟨19, _⟩ => ⟨S4x128x128x512, .bf16⟩
  | .hbm, ⟨20, _⟩ => ⟨S4x128x128x512, .bf16⟩
  | .hbm, ⟨21, _⟩ => ⟨S4x128x128x512, .bf16⟩
  | .hbm, ⟨22, _⟩ => ⟨S4x8x16x8x16x16x32, .bf16⟩
  | .hbm, ⟨23, _⟩ => ⟨S4x16x16x16x8x8x32, .bf16⟩
  | .hbm, ⟨24, _⟩ => ⟨S1024x16x64x32, .bf16⟩
  | .hbm, ⟨25, _⟩ => ⟨S4x8x16x8x16x16x32, .bf16⟩
  | .hbm, ⟨26, _⟩ => ⟨S4x16x16x16x8x8x32, .bf16⟩
  | .hbm, ⟨27, _⟩ => ⟨S1024x16x64x32, .bf16⟩
  | .hbm, ⟨28, _⟩ => ⟨S4x8x16x8x16x16x32, .bf16⟩
  | .hbm, ⟨29, _⟩ => ⟨S4x16x16x16x8x8x32, .bf16⟩
  | .hbm, ⟨30, _⟩ => ⟨S1024x16x64x32, .bf16⟩
  | .hbm, ⟨31, _⟩ => ⟨S_, .f32⟩
  | .hbm, ⟨32, _⟩ => ⟨S16x1x1, .f32⟩
  | .hbm, ⟨33, _⟩ => ⟨S16x1x1, .f32⟩
  | .hbm, ⟨34, _⟩ => ⟨S16x1x1, .f32⟩
  | .hbm, ⟨35, _⟩ => ⟨S225x512, .f32⟩
  | .hbm, ⟨36, _⟩ => ⟨S1x512, .f32⟩
  | .hbm, ⟨37, _⟩ => ⟨S225x512, .f32⟩
  | .hbm, ⟨38, _⟩ => ⟨S225x512, .f32⟩
  | .hbm, ⟨39, _⟩ => ⟨S_, .f32⟩
  | .hbm, ⟨40, _⟩ => ⟨S225x512, .f32⟩
  | .hbm, ⟨41, _⟩ => ⟨S225x512, .f32⟩
  | .hbm, ⟨42, _⟩ => ⟨S225x16, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x16, .f32⟩
  | .hbm, ⟨52, _⟩ => ⟨S64x64x16, .f32⟩
  | .hbm, ⟨53, _⟩ => ⟨S16x64x64, .f32⟩
  | .hbm, ⟨54, _⟩ => ⟨S16x64x64, .f32⟩
  | .hbm, ⟨55, _⟩ => ⟨S16x64x64, .f32⟩
  | .hbm, ⟨56, _⟩ => ⟨S_, .f32⟩
  | .hbm, ⟨57, _⟩ => ⟨S16x64x64, .f32⟩
  | .hbm, ⟨58, _⟩ => ⟨S16x64x64, .f32⟩
  | .hbm, ⟨59, _⟩ => ⟨S_, .f32⟩
  | .hbm, ⟨60, _⟩ => ⟨S16x64x64, .f32⟩
  | .hbm, ⟨61, _⟩ => ⟨S16x64x64, .f32⟩
  | .hbm, ⟨62, _⟩ => ⟨S_, .f32⟩
  | .hbm, ⟨63, _⟩ => ⟨S16x64x64, .f32⟩
  | .hbm, ⟨64, _⟩ => ⟨S16x64x64, .f32⟩
  | .hbm, ⟨65, _⟩ => ⟨S1024x16x64x32, .bf16⟩
  | .hbm, ⟨66, _⟩ => ⟨S4x16x16x16x8x8x32, .bf16⟩
  | .hbm, ⟨67, _⟩ => ⟨S4x8x16x8x16x16x32, .bf16⟩
  | .hbm, ⟨68, _⟩ => ⟨S4x128x128x512, .bf16⟩
  | .hbm, ⟨69, _⟩ => ⟨S65536x512, .bf16⟩
  | .hbm, ⟨70, _⟩ => ⟨S512x512, .bf16⟩
  | .hbm, ⟨71, _⟩ => ⟨S65536x512, .f32⟩
  | .hbm, ⟨72, _⟩ => ⟨S4x128x128x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1536, .f32⟩
  | .local _ .vmem, ⟨4, _⟩ => ⟨S1024x1536, .bf16⟩
  | .local _ .vmem, ⟨5, _⟩ => ⟨S1024x1536, .bf16⟩
  | .local _ .vmem, ⟨6, _⟩ => ⟨S4x16x64x32, .bf16⟩
  | .local _ .vmem, ⟨7, _⟩ => ⟨S4x16x64x32, .bf16⟩
  | .local _ .vmem, ⟨8, _⟩ => ⟨S4x16x64x32, .bf16⟩
  | .local _ .vmem, ⟨9, _⟩ => ⟨S4x16x64x32, .bf16⟩
  | .local _ .vmem, ⟨10, _⟩ => ⟨S4x16x64x32, .bf16⟩
  | .local _ .vmem, ⟨11, _⟩ => ⟨S4x16x64x32, .bf16⟩
  | .local _ .vmem, ⟨12, _⟩ => ⟨S16x64x64, .f32⟩
  | .local _ .vmem, ⟨13, _⟩ => ⟨S16x1x1, .f32⟩
  | .local _ .vmem, ⟨14, _⟩ => ⟨S4x16x64x32, .bf16⟩
  | .local _ .vmem, ⟨15, _⟩ => ⟨S4x16x64x32, .bf16⟩
  | .local _ .vmem, ⟨16, _⟩ => ⟨S2048x512, .bf16⟩
  | .local _ .vmem, ⟨17, _⟩ => ⟨S2048x512, .bf16⟩
  | .local _ .vmem, ⟨18, _⟩ => ⟨S512x512, .bf16⟩
  | .local _ .vmem, ⟨19, _⟩ => ⟨S512, .f32⟩
  | .local _ .vmem, ⟨20, _⟩ => ⟨S2048x512, .f32⟩
  | .local _ .vmem, ⟨21, _⟩ => ⟨S2048x512, .f32⟩
  | _, _ => ⟨S4x128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x16x64x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x16x64x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x16x64x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4x16x64x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x128x128x512_S65536x512 : S4x128x128x512.ShapeCasts S65536x512
  bcast_S_S512 : S_.BroadcastsInDim S512 (![] : Fin 0 → Fin S512.rank)
  concatenates_S512_S512_S512_S1536_d0 : Shape.Concatenates [S512, S512, S512] S1536 0
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S65536x1536_S4x128x128x1536 : S65536x1536.ShapeCasts S4x128x128x1536
  slices_S4x128x128x1536_S4x128x128x512_0_0_0_0 : S4x128x128x1536.Slices ![0, 0, 0, 0] S4x128x128x512
  slices_S4x128x128x1536_S4x128x128x512_0_0_0_512 : S4x128x128x1536.Slices ![0, 0, 0, 512] S4x128x128x512
  slices_S4x128x128x1536_S4x128x128x512_0_0_0_1024 : S4x128x128x1536.Slices ![0, 0, 0, 1024] S4x128x128x512
  shapeCasts_S4x128x128x512_S4x8x16x8x16x16x32 : S4x128x128x512.ShapeCasts S4x8x16x8x16x16x32
  transposes_S4x8x16x8x16x16x32_S4x16x16x16x8x8x32_0_2_4_5_1_3_6 : S4x8x16x8x16x16x32.Transposes [0, 2, 4, 5, 1, 3, 6] S4x16x16x16x8x8x32
  shapeCasts_S4x16x16x16x8x8x32_S1024x16x64x32 : S4x16x16x16x8x8x32.ShapeCasts S1024x16x64x32
  bcast_S_S16x1x1 : S_.BroadcastsInDim S16x1x1 (![] : Fin 0 → Fin S16x1x1.rank)
  bcast_S512_S1x512_1 : S512.BroadcastsInDim S1x512 (![1] : Fin 1 → Fin S1x512.rank)
  bcast_S1x512_S225x512_0_1 : S1x512.BroadcastsInDim S225x512 (![0, 1] : Fin 2 → Fin S225x512.rank)
  bcast_S_S225x512 : S_.BroadcastsInDim S225x512 (![] : Fin 0 → Fin S225x512.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  bcast_S_S16x64x64 : S_.BroadcastsInDim S16x64x64 (![] : Fin 0 → Fin S16x64x64.rank)
  inb_S4x16x64x32_S4x16x64x32_0_0_0_0 : ∀ a, (![0, 0, 0, 0] : Fin 4 → Nat) a + S4x16x64x32.size a ≤ S4x16x64x32.size a
  h_S4x16x64x32 : 0 < S4x16x64x32.numel
  shapeCasts_S4x16x64x32_S4x16x64x32 : S4x16x64x32.ShapeCasts S4x16x64x32
  reduces_S4x16x64x32_S4x16x64 : S4x16x64x32.Reduces [3] S4x16x64
  shapeCasts_S4x16x64_S4x16x64x1 : S4x16x64.ShapeCasts S4x16x64x1
  broadcasts_S4x16x64x1_S4x16x64x32 : S4x16x64x1.Broadcasts S4x16x64x32
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  shapeCasts_S4x16x64x32_S64x64x32 : S4x16x64x32.ShapeCasts S64x64x32
  shapeCasts_S64x64x64_S4x16x64x64 : S64x64x64.ShapeCasts S4x16x64x64
  shapeCasts_S16x1x1_S1x16x1x1 : S16x1x1.ShapeCasts S1x16x1x1
  broadcasts_S1x16x1x1_S4x16x64x64 : S1x16x1x1.Broadcasts S4x16x64x64
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  shapeCasts_S16x64x64_S1x16x64x64 : S16x64x64.ShapeCasts S1x16x64x64
  broadcasts_S1x16x64x64_S4x16x64x64 : S1x16x64x64.Broadcasts S4x16x64x64
  reduces_S4x16x64x64_S4x16x64 : S4x16x64x64.Reduces [3] S4x16x64
  broadcasts_S4x16x64x1_S4x16x64x64 : S4x16x64x1.Broadcasts S4x16x64x64
  shapeCasts_S4x16x64x64_S64x64x64 : S4x16x64x64.ShapeCasts S64x64x64
  shapeCasts_S64x64x32_S4x16x64x32 : S64x64x32.ShapeCasts S4x16x64x32
  packedbf16_S4x16x64x32_S4x16x64x32_0_0_0_0 : (Rect.unit (s := S4x16x64x32) ![0, 0, 0, 0] S4x16x64x32.size inb_S4x16x64x32_S4x16x64x32_0_0_0_0).PackedRows (EltTy.packing .bf16)
  shapeCasts_S1024x16x64x32_S4x16x16x16x8x8x32 : S1024x16x64x32.ShapeCasts S4x16x16x16x8x8x32
  transposes_S4x16x16x16x8x8x32_S4x8x16x8x16x16x32_0_4_1_5_2_3_6 : S4x16x16x16x8x8x32.Transposes [0, 4, 1, 5, 2, 3, 6] S4x8x16x8x16x16x32
  shapeCasts_S4x8x16x8x16x16x32_S4x128x128x512 : S4x8x16x8x16x16x32.ShapeCasts S4x128x128x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S65536x512_S4x128x128x512 : S65536x512.ShapeCasts S4x128x128x512
  dot_S1024x512_S512x1536_S1024x1536_1_0_0_1_n_n_wf : DotDims.WF S1024x512 S512x1536 S1024x1536 [1] [0] [0] [1] [] []
  dot_S225x2_S2x512_S225x512_1_0_0_1_n_n_wf : DotDims.WF S225x2 S2x512 S225x512 [1] [0] [0] [1] [] []
  dot_S225x512_S512x16_S225x16_1_0_0_1_n_n_wf : DotDims.WF S225x512 S512x16 S225x16 [1] [0] [0] [1] [] []
  gather_S225x16_S4096x1_S4096x16_1_0_n_n_0_1_116_wf : GatherDims.WF S225x16 S4096x1 S4096x16 [1] [0] [] [0] [] 1 ![1, 16]
  dot_S64x64x32_S64x64x32_S64x64x64_2_2_1_1_0_0_wf : DotDims.WF S64x64x32 S64x64x32 S64x64x64 [2] [2] [1] [1] [0] [0]
  dot_S64x64x64_S64x64x32_S64x64x32_2_1_1_2_0_0_wf : DotDims.WF S64x64x64 S64x64x32 S64x64x32 [2] [1] [1] [2] [0] [0]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S65536x1536.size a
  hwx0_3 : ∀ i : grid0.Coords, EltTy.bits .bf16 = 32 ∨ (Rect.block (s := S65536x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x16x64x32.size a ≤ S1024x16x64x32.size a
  hwx1_0 : ∀ i : grid1.Coords, EltTy.bits .bf16 = 32 ∨ (Rect.block (s := S1024x16x64x32) S4x16x64x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x16x64x32.size a ≤ S1024x16x64x32.size a
  hwx1_1 : ∀ i : grid1.Coords, EltTy.bits .bf16 = 32 ∨ (Rect.block (s := S1024x16x64x32) S4x16x64x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x16x64x32.size a ≤ S1024x16x64x32.size a
  hwx1_2 : ∀ i : grid1.Coords, EltTy.bits .bf16 = 32 ∨ (Rect.block (s := S1024x16x64x32) S4x16x64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64x64.size a ≤ S16x64x64.size a
  hwx1_3 : ∀ i : grid1.Coords, EltTy.bits .f32 = 32 ∨ (Rect.block (s := S16x64x64) S16x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1x1.size a ≤ S16x1x1.size a
  hwx1_4 : ∀ i : grid1.Coords, EltTy.bits .f32 = 32 ∨ (Rect.block (s := S16x1x1) S16x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x16x64x32.size a ≤ S1024x16x64x32.size a
  hwx1_5 : ∀ i : grid1.Coords, EltTy.bits .bf16 = 32 ∨ (Rect.block (s := S1024x16x64x32) S4x16x64x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S65536x512.size a
  hwx2_0 : ∀ i : grid2.Coords, EltTy.bits .bf16 = 32 ∨ (Rect.block (s := S65536x512) S2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S65536x512.size a
  hwx2_3 : ∀ i : grid2.Coords, EltTy.bits .f32 = 32 ∨ (Rect.block (s := S65536x512) S2048x512.size (cc2_transform_3 i) (hinb2_3 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S225x2_S2x512_S225x512_1_0_0_1_n_n : DotDims S225x2 S2x512 S225x512 where
  lhsContracting := [1]
  rhsContracting := [0]
  lhsNonContracting := [0]
  rhsNonContracting := [1]
  lhsBatch := []
  rhsBatch := []
  wf := dot_S225x2_S2x512_S225x512_1_0_0_1_n_n_wf
def dot_S225x512_S512x16_S225x16_1_0_0_1_n_n : DotDims S225x512 S512x16 S225x16 where
  lhsContracting := [1]
  rhsContracting := [0]
  lhsNonContracting := [0]
  rhsNonContracting := [1]
  lhsBatch := []
  rhsBatch := []
  wf := dot_S225x512_S512x16_S225x16_1_0_0_1_n_n_wf
def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S64x64x32_S64x64x32_S64x64x64_2_2_1_1_0_0 : DotDims S64x64x32 S64x64x32 S64x64x64 where
  lhsContracting := [2]
  rhsContracting := [2]
  lhsNonContracting := [1]
  rhsNonContracting := [1]
  lhsBatch := [0]
  rhsBatch := [0]
  wf := dot_S64x64x32_S64x64x32_S64x64x64_2_2_1_1_0_0_wf
def dot_S64x64x64_S64x64x32_S64x64x32_2_1_1_2_0_0 : DotDims S64x64x64 S64x64x32 S64x64x32 where
  lhsContracting := [2]
  rhsContracting := [1]
  lhsNonContracting := [1]
  rhsNonContracting := [2]
  lhsBatch := [0]
  rhsBatch := [0]
  wf := dot_S64x64x64_S64x64x32_S64x64x32_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S4x16x64x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4x16x64x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4x16x64x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S16x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S16x1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S4x16x64x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x128x128x512 : Shape := ⟨4, ![4, 128, 128, 512]⟩
abbrev S512x1536 : Shape := ⟨2, ![512, 1536]⟩
abbrev S512 : Shape := ⟨1, ![512]⟩
abbrev S16x1x1 : Shape := ⟨3, ![16, 1, 1]⟩
abbrev S2x512 : Shape := ⟨2, ![2, 512]⟩
abbrev S512x16 : Shape := ⟨2, ![512, 16]⟩
abbrev S512x512 : Shape := ⟨2, ![512, 512]⟩
abbrev S225x2 : Shape := ⟨2, ![225, 2]⟩
abbrev S4096 : Shape := ⟨1, ![4096]⟩
abbrev S4x128x128x1536 : Shape := ⟨4, ![4, 128, 128, 1536]⟩
abbrev S_ : Shape := ⟨0, ![]⟩
abbrev S1536 : Shape := ⟨1, ![1536]⟩
abbrev S1x1x1x1536 : Shape := ⟨4, ![1, 1, 1, 1536]⟩
abbrev S4x8x16x8x16x16x32 : Shape := ⟨7, ![4, 8, 16, 8, 16, 16, 32]⟩
abbrev S4x16x16x16x8x8x32 : Shape := ⟨7, ![4, 16, 16, 16, 8, 8, 32]⟩
abbrev S1024x16x64x32 : Shape := ⟨4, ![1024, 16, 64, 32]⟩
abbrev S1024x16x64 : Shape := ⟨3, ![1024, 16, 64]⟩
abbrev S1024x16x64x1 : Shape := ⟨4, ![1024, 16, 64, 1]⟩
abbrev S1x16x1x1 : Shape := ⟨4, ![1, 16, 1, 1]⟩
abbrev S1024x16x64x64 : Shape := ⟨4, ![1024, 16, 64, 64]⟩
abbrev S225x512 : Shape := ⟨2, ![225, 512]⟩
abbrev S1x512 : Shape := ⟨2, ![1, 512]⟩
abbrev S225x16 : Shape := ⟨2, ![225, 16]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S1x16x64x64 : Shape := ⟨4, ![1, 16, 64, 64]⟩
abbrev S1x1x1x512 : Shape := ⟨4, ![1, 1, 1, 512]⟩

abbrev nBuf : Space → Nat
  | .hbm => 114
  | .vmem => 0
  | .smem => 0
  | _ => 0

abbrev bufTy : (tb : Table) → Fin (tcTables nBuf tb) → BufTy
  | .hbm, ⟨0, _⟩ => ⟨S4x128x128x512, .f32⟩
  | .hbm, ⟨1, _⟩ => ⟨S512x1536, .f32⟩
  | .hbm, ⟨2, _⟩ => ⟨S512, .f32⟩
  | .hbm, ⟨3, _⟩ => ⟨S512, .f32⟩
  | .hbm, ⟨4, _⟩ => ⟨S16x1x1, .f32⟩
  | .hbm, ⟨5, _⟩ => ⟨S2x512, .f32⟩
  | .hbm, ⟨6, _⟩ => ⟨S512, .f32⟩
  | .hbm, ⟨7, _⟩ => ⟨S512x16, .f32⟩
  | .hbm, ⟨8, _⟩ => ⟨S512x512, .f32⟩
  | .hbm, ⟨9, _⟩ => ⟨S512, .f32⟩
  | .hbm, ⟨10, _⟩ => ⟨S225x2, .f32⟩
  | .hbm, ⟨11, _⟩ => ⟨S4096, .i32⟩
  | .hbm, ⟨12, _⟩ => ⟨S4x128x128x1536, .f32⟩
  | .hbm, ⟨13, _⟩ => ⟨S_, .f32⟩
  | .hbm, ⟨14, _⟩ => ⟨S512, .f32⟩
  | .hbm, ⟨15, _⟩ => ⟨S1536, .f32⟩
  | .hbm, ⟨16, _⟩ => ⟨S1x1x1x1536, .f32⟩
  | .hbm, ⟨17, _⟩ => ⟨S4x128x128x1536, .f32⟩
  | .hbm, ⟨18, _⟩ => ⟨S4x128x128x1536, .f32⟩
  | .hbm, ⟨19, _⟩ => ⟨S4x128x128x512, .f32⟩
  | .hbm, ⟨20, _⟩ => ⟨S4x128x128x512, .f32⟩
  | .hbm, ⟨21, _⟩ => ⟨S4x128x128x512, .f32⟩
  | .hbm, ⟨22, _⟩ => ⟨S4x8x16x8x16x16x32, .f32⟩
  | .hbm, ⟨23, _⟩ => ⟨S4x16x16x16x8x8x32, .f32⟩
  | .hbm, ⟨24, _⟩ => ⟨S1024x16x64x32, .f32⟩
  | .hbm, ⟨25, _⟩ => ⟨S4x8x16x8x16x16x32, .f32⟩
  | .hbm, ⟨26, _⟩ => ⟨S4x16x16x16x8x8x32, .f32⟩
  | .hbm, ⟨27, _⟩ => ⟨S1024x16x64x32, .f32⟩
  | .hbm, ⟨28, _⟩ => ⟨S4x8x16x8x16x16x32, .f32⟩
  | .hbm, ⟨29, _⟩ => ⟨S4x16x16x16x8x8x32, .f32⟩
  | .hbm, ⟨30, _⟩ => ⟨S1024x16x64x32, .f32⟩
  | .hbm, ⟨31, _⟩ => ⟨S1024x16x64x32, .f32⟩
  | .hbm, ⟨32, _⟩ => ⟨S_, .f32⟩
  | .hbm, ⟨33, _⟩ => ⟨S1024x16x64, .f32⟩
  | .hbm, ⟨34, _⟩ => ⟨S1024x16x64x1, .f32⟩
  | .hbm, ⟨35, _⟩ => ⟨S_, .f32⟩
  | .hbm, ⟨36, _⟩ => ⟨S1024x16x64x1, .f32⟩
  | .hbm, ⟨37, _⟩ => ⟨S1024x16x64x1, .f32⟩
  | .hbm, ⟨38, _⟩ => ⟨S1024x16x64x1, .f32⟩
  | .hbm, ⟨39, _⟩ => ⟨S1024x16x64x32, .f32⟩
  | .hbm, ⟨40, _⟩ => ⟨S1024x16x64x32, .f32⟩
  | .hbm, ⟨41, _⟩ => ⟨S1024x16x64x32, .f32⟩
  | .hbm, ⟨42, _⟩ => ⟨S_, .f32⟩
  | .hbm, ⟨43, _⟩ => ⟨S1024x16x64, .f32⟩
  | .hbm, ⟨44, _⟩ => ⟨S1024x16x64x1, .f32⟩
  | .hbm, ⟨45, _⟩ => ⟨S_, .f32⟩
  | .hbm, ⟨46, _⟩ => ⟨S1024x16x64x1, .f32⟩
  | .hbm, ⟨47, _⟩ => ⟨S1024x16x64x1, .f32⟩
  | .hbm, ⟨48, _⟩ => ⟨S1024x16x64x1, .f32⟩
  | .hbm, ⟨49, _⟩ => ⟨S1024x16x64x32, .f32⟩
  | .hbm, ⟨50, _⟩ => ⟨S1024x16x64x32, .f32⟩
  | .hbm, ⟨51, _⟩ => ⟨S_, .f32⟩
  | .hbm, ⟨52, _⟩ => ⟨S16x1x1, .f32⟩
  | .hbm, ⟨53, _⟩ => ⟨S16x1x1, .f32⟩
  | .hbm, ⟨54, _⟩ => ⟨S16x1x1, .f32⟩
  | .hbm, ⟨55, _⟩ => ⟨S1x16x1x1, .f32⟩
  | .hbm, ⟨56, _⟩ => ⟨S1024x16x64x32, .f32⟩
  | .hbm, ⟨57, _⟩ => ⟨S1024x16x64x32, .f32⟩
  | .hbm, ⟨58, _⟩ => ⟨S1024x16x64x64, .f32⟩
  | .hbm, ⟨59, _⟩ => ⟨S225x512, .f32⟩
  | .hbm, ⟨60, _⟩ => ⟨S1x512, .f32⟩
  | .hbm, ⟨61, _⟩ => ⟨S225x512, .f32⟩
  | .hbm, ⟨62, _⟩ => ⟨S225x512, .f32⟩
  | .hbm, ⟨63, _⟩ => ⟨S_, .f32⟩
  | .hbm, ⟨64, _⟩ => ⟨S225x512, .f32⟩
  | .hbm, ⟨65, _⟩ => ⟨S225x512, .f32⟩
  | .hbm, ⟨66, _⟩ => ⟨S225x16, .f32⟩
  | .hbm, ⟨67, _⟩ => ⟨S_, .i32⟩
  | .hbm, ⟨68, _⟩ => ⟨S4096, .i32⟩
  | .hbm, ⟨69, _⟩ => ⟨S4096, .i1⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .i32⟩
  | .hbm, ⟨74, _⟩ => ⟨S4096x1, .i32⟩
  | .hbm, ⟨75, _⟩ => ⟨S4096x16, .f32⟩
  | .hbm, ⟨76, _⟩ => ⟨S64x64x16, .f32⟩
  | .hbm, ⟨77, _⟩ => ⟨S16x64x64, .f32⟩
  | .hbm, ⟨78, _⟩ => ⟨S16x64x64, .f32⟩
  | .hbm, ⟨79, _⟩ => ⟨S16x64x64, .f32⟩
  | .hbm, ⟨80, _⟩ => ⟨S_, .f32⟩
  | .hbm, ⟨81, _⟩ => ⟨S16x64x64, .f32⟩
  | .hbm, ⟨82, _⟩ => ⟨S16x64x64, .f32⟩
  | .hbm, ⟨83, _⟩ => ⟨S_, .f32⟩
  | .hbm, ⟨84, _⟩ => ⟨S16x64x64, .f32⟩
  | .hbm, ⟨85, _⟩ => ⟨S16x64x64, .f32⟩
  | .hbm, ⟨86, _⟩ => ⟨S1x16x64x64, .f32⟩
  | .hbm, ⟨87, _⟩ => ⟨S_, .f32⟩
  | .hbm, ⟨88, _⟩ => ⟨S1x16x64x64, .f32⟩
  | .hbm, ⟨89, _⟩ => ⟨S1x16x64x64, .f32⟩
  | .hbm, ⟨90, _⟩ => ⟨S1024x16x64x64, .f32⟩
  | .hbm, ⟨91, _⟩ => ⟨S1024x16x64x64, .f32⟩
  | .hbm, ⟨92, _⟩ => ⟨S_, .f32⟩
  | .hbm, ⟨93, _⟩ => ⟨S1024x16x64, .f32⟩
  | .hbm, ⟨94, _⟩ => ⟨S_, .f32⟩
  | .hbm, ⟨95, _⟩ => ⟨S1024x16x64, .f32⟩
  | .hbm, ⟨96, _⟩ => ⟨S1024x16x64, .f32⟩
  | .hbm, ⟨97, _⟩ => ⟨S1024x16x64x1, .f32⟩
  | .hbm, ⟨98, _⟩ => ⟨S1024x16x64x64, .f32⟩
  | .hbm, ⟨99, _⟩ => ⟨S1024x16x64x64, .f32⟩
  | .hbm, ⟨100, _⟩ => ⟨S1024x16x64x64, .f32⟩
  | .hbm, ⟨101, _⟩ => ⟨S_, .f32⟩
  | .hbm, ⟨102, _⟩ => ⟨S1024x16x64, .f32⟩
  | .hbm, ⟨103, _⟩ => ⟨S1024x16x64x1, .f32⟩
  | .hbm, ⟨104, _⟩ => ⟨S1024x16x64x64, .f32⟩
  | .hbm, ⟨105, _⟩ => ⟨S1024x16x64x64, .f32⟩
  | .hbm, ⟨106, _⟩ => ⟨S1024x16x64x32, .f32⟩
  | .hbm, ⟨107, _⟩ => ⟨S4x16x16x16x8x8x32, .f32⟩
  | .hbm, ⟨108, _⟩ => ⟨S4x8x16x8x16x16x32, .f32⟩
  | .hbm, ⟨109, _⟩ => ⟨S4x128x128x512, .f32⟩
  | .hbm, ⟨110, _⟩ => ⟨S4x128x128x512, .f32⟩
  | .hbm, ⟨111, _⟩ => ⟨S1x1x1x512, .f32⟩
  | .hbm, ⟨112, _⟩ => ⟨S4x128x128x512, .f32⟩
  | .hbm, ⟨113, _⟩ => ⟨S4x128x128x512, .f32⟩
  | _, _ => ⟨S4x128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_cst : Ref sig .tc := ⟨.hbm, 63, rfl⟩
abbrev main_call0_v0 : Ref sig .tc := ⟨.hbm, 64, rfl⟩
abbrev main_v45 : Ref sig .tc := ⟨.hbm, 65, rfl⟩
abbrev main_v46 : Ref sig .tc := ⟨.hbm, 66, rfl⟩
abbrev main_c_6 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_cst_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  bcast_S_S512 : S_.BroadcastsInDim S512 (![] : Fin 0 → Fin S512.rank)
  concatenates_S512_S512_S512_S1536_d0 : Shape.Concatenates [S512, S512, S512] S1536 0
  bcast_S1536_S1x1x1x1536_3 : S1536.BroadcastsInDim S1x1x1x1536 (![3] : Fin 1 → Fin S1x1x1x1536.rank)
  bcast_S1x1x1x1536_S4x128x128x1536_0_1_2_3 : S1x1x1x1536.BroadcastsInDim S4x128x128x1536 (![0, 1, 2, 3] : Fin 4 → Fin S4x128x128x1536.rank)
  slices_S4x128x128x1536_S4x128x128x512_0_0_0_0 : S4x128x128x1536.Slices ![0, 0, 0, 0] S4x128x128x512
  slices_S4x128x128x1536_S4x128x128x512_0_0_0_512 : S4x128x128x1536.Slices ![0, 0, 0, 512] S4x128x128x512
  slices_S4x128x128x1536_S4x128x128x512_0_0_0_1024 : S4x128x128x1536.Slices ![0, 0, 0, 1024] S4x128x128x512
  shapeCasts_S4x128x128x512_S4x8x16x8x16x16x32 : S4x128x128x512.ShapeCasts S4x8x16x8x16x16x32
  transposes_S4x8x16x8x16x16x32_S4x16x16x16x8x8x32_0_2_4_5_1_3_6 : S4x8x16x8x16x16x32.Transposes [0, 2, 4, 5, 1, 3, 6] S4x16x16x16x8x8x32
  shapeCasts_S4x16x16x16x8x8x32_S1024x16x64x32 : S4x16x16x16x8x8x32.ShapeCasts S1024x16x64x32
  reducesTo_S1024x16x64x32_S1024x16x64_d3 : S1024x16x64x32.ReducesTo [3] S1024x16x64
  h_S_ : 0 < S_.numel
  bcast_S1024x16x64_S1024x16x64x1_0_1_2 : S1024x16x64.BroadcastsInDim S1024x16x64x1 (![0, 1, 2] : Fin 3 → Fin S1024x16x64x1.rank)
  bcast_S_S1024x16x64x1 : S_.BroadcastsInDim S1024x16x64x1 (![] : Fin 0 → Fin S1024x16x64x1.rank)
  bcast_S1024x16x64x1_S1024x16x64x32_0_1_2_3 : S1024x16x64x1.BroadcastsInDim S1024x16x64x32 (![0, 1, 2, 3] : Fin 4 → Fin S1024x16x64x32.rank)
  bcast_S_S16x1x1 : S_.BroadcastsInDim S16x1x1 (![] : Fin 0 → Fin S16x1x1.rank)
  bcast_S16x1x1_S1x16x1x1_1_2_3 : S16x1x1.BroadcastsInDim S1x16x1x1 (![1, 2, 3] : Fin 3 → Fin S1x16x1x1.rank)
  bcast_S1x16x1x1_S1024x16x64x32_0_1_2_3 : S1x16x1x1.BroadcastsInDim S1024x16x64x32 (![0, 1, 2, 3] : Fin 4 → Fin S1024x16x64x32.rank)
  bcast_S512_S1x512_1 : S512.BroadcastsInDim S1x512 (![1] : Fin 1 → Fin S1x512.rank)
  bcast_S1x512_S225x512_0_1 : S1x512.BroadcastsInDim S225x512 (![0, 1] : Fin 2 → Fin S225x512.rank)
  bcast_S_S225x512 : S_.BroadcastsInDim S225x512 (![] : Fin 0 → Fin S225x512.rank)
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  bcast_S_S16x64x64 : S_.BroadcastsInDim S16x64x64 (![] : Fin 0 → Fin S16x64x64.rank)
  bcast_S16x64x64_S1x16x64x64_1_2_3 : S16x64x64.BroadcastsInDim S1x16x64x64 (![1, 2, 3] : Fin 3 → Fin S1x16x64x64.rank)
  bcast_S_S1x16x64x64 : S_.BroadcastsInDim S1x16x64x64 (![] : Fin 0 → Fin S1x16x64x64.rank)
  bcast_S1x16x64x64_S1024x16x64x64_0_1_2_3 : S1x16x64x64.BroadcastsInDim S1024x16x64x64 (![0, 1, 2, 3] : Fin 4 → Fin S1024x16x64x64.rank)
  reducesTo_S1024x16x64x64_S1024x16x64_d3 : S1024x16x64x64.ReducesTo [3] S1024x16x64
  bcast_S_S1024x16x64 : S_.BroadcastsInDim S1024x16x64 (![] : Fin 0 → Fin S1024x16x64.rank)
  bcast_S1024x16x64x1_S1024x16x64x64_0_1_2_3 : S1024x16x64x1.BroadcastsInDim S1024x16x64x64 (![0, 1, 2, 3] : Fin 4 → Fin S1024x16x64x64.rank)
  shapeCasts_S1024x16x64x32_S4x16x16x16x8x8x32 : S1024x16x64x32.ShapeCasts S4x16x16x16x8x8x32
  transposes_S4x16x16x16x8x8x32_S4x8x16x8x16x16x32_0_4_1_5_2_3_6 : S4x16x16x16x8x8x32.Transposes [0, 4, 1, 5, 2, 3, 6] S4x8x16x8x16x16x32
  shapeCasts_S4x8x16x8x16x16x32_S4x128x128x512 : S4x8x16x8x16x16x32.ShapeCasts S4x128x128x512
  bcast_S512_S1x1x1x512_3 : S512.BroadcastsInDim S1x1x1x512 (![3] : Fin 1 → Fin S1x1x1x512.rank)
  bcast_S1x1x1x512_S4x128x128x512_0_1_2_3 : S1x1x1x512.BroadcastsInDim S4x128x128x512 (![0, 1, 2, 3] : Fin 4 → Fin S4x128x128x512.rank)
  dot_S4x128x128x512_S512x1536_S4x128x128x1536_3_0_012_1_n_n_wf : DotDims.WF S4x128x128x512 S512x1536 S4x128x128x1536 [3] [0] [0, 1, 2] [1] [] []
  dot_S1024x16x64x32_S1024x16x64x32_S1024x16x64x64_3_3_2_2_01_01_wf : DotDims.WF S1024x16x64x32 S1024x16x64x32 S1024x16x64x64 [3] [3] [2] [2] [0, 1] [0, 1]
  dot_S225x2_S2x512_S225x512_1_0_0_1_n_n_wf : DotDims.WF S225x2 S2x512 S225x512 [1] [0] [0] [1] [] []
  dot_S225x512_S512x16_S225x16_1_0_0_1_n_n_wf : DotDims.WF S225x512 S512x16 S225x16 [1] [0] [0] [1] [] []
  gather_S225x16_S4096x1_S4096x16_1_0_n_n_0_1_116_wf : GatherDims.WF S225x16 S4096x1 S4096x16 [1] [0] [] [0] [] 1 ![1, 16]
  dot_S1024x16x64x64_S1024x16x64x32_S1024x16x64x32_3_2_2_3_01_01_wf : DotDims.WF S1024x16x64x64 S1024x16x64x32 S1024x16x64x32 [3] [2] [2] [3] [0, 1] [0, 1]
  dot_S4x128x128x512_S512x512_S4x128x128x512_3_0_012_1_n_n_wf : DotDims.WF S4x128x128x512 S512x512 S4x128x128x512 [3] [0] [0, 1, 2] [1] [] []

variable [Facts₀]

def dot_S4x128x128x512_S512x1536_S4x128x128x1536_3_0_012_1_n_n : DotDims S4x128x128x512 S512x1536 S4x128x128x1536 where
  lhsContracting := [3]
  rhsContracting := [0]
  lhsNonContracting := [0, 1, 2]
  rhsNonContracting := [1]
  lhsBatch := []
  rhsBatch := []
  wf := dot_S4x128x128x512_S512x1536_S4x128x128x1536_3_0_012_1_n_n_wf
def dot_S1024x16x64x32_S1024x16x64x32_S1024x16x64x64_3_3_2_2_01_01 : DotDims S1024x16x64x32 S1024x16x64x32 S1024x16x64x64 where
  lhsContracting := [3]
  rhsContracting := [3]
  lhsNonContracting := [2]
  rhsNonContracting := [2]
  lhsBatch := [0, 1]
  rhsBatch := [0, 1]
  wf := dot_S1024x16x64x32_S1024x16x64x32_S1024x16x64x64_3_3_2_2_01_01_wf
def dot_S225x2_S2x512_S225x512_1_0_0_1_n_n : DotDims S225x2 S2x512 S225x512 where
  lhsContracting := [1]
  rhsContracting := [0]
  lhsNonContracting := [0]
  rhsNonContracting := [1]
  lhsBatch := []
  rhsBatch := []
  wf := dot_S225x2_S2x512_S225x512_1_0_0_1_n_n_wf
def dot_S225x512_S512x16_S225x16_1_0_0_1_n_n : DotDims S225x512 S512x16 S225x16 where
  lhsContracting := [1]
  rhsContracting := [0]
  lhsNonContracting := [0]
  rhsNonContracting := [1]
  lhsBatch := []
  rhsBatch := []
  wf := dot_S225x512_S512x16_S225x16_1_0_0_1_n_n_wf
def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S1024x16x64x64_S1024x16x64x32_S1024x16x64x32_3_2_2_3_01_01 : DotDims S1024x16x64x64 S1024x16x64x32 S1024x16x64x32 where
  lhsContracting := [3]
  rhsContracting := [2]
  lhsNonContracting := [2]
  rhsNonContracting := [3]
  lhsBatch := [0, 1]
  rhsBatch := [0, 1]
  wf := dot_S1024x16x64x64_S1024x16x64x32_S1024x16x64x32_3_2_2_3_01_01_wf
def dot_S4x128x128x512_S512x512_S4x128x128x512_3_0_012_1_n_n : DotDims S4x128x128x512 S512x512 S4x128x128x512 where
  lhsContracting := [3]
  rhsContracting := [0]
  lhsNonContracting := [0, 1, 2]
  rhsNonContracting := [1]
  lhsBatch := []
  rhsBatch := []
  wf := dot_S4x128x128x512_S512x512_S4x128x128x512_3_0_012_1_n_n_wf

class Facts : Prop extends Facts₀ where

variable [Facts]
-- ==== Proof.KB.Region0.lean ====
import proofs.«404274_j11819749998707_3_alg».proof.Proof.Gen.Kernel.Launch
import proofs.«404274_j11819749998707_3_alg».proof.Proof.Gen.Kernel.Skeleton
import proofs.«404274_j11819749998707_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the qkv projection, one row block of 1024 rows per grid point

The kernel body loads the row block of the flattened input, the whole weight matrix and the whole bias vector,
and stores the row block of the product plus the bias. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  exact (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  exact (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  exact (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its buffer whole. -/
abbrev r0_x : Rect S1024x512 := Rect.unit (s := S1024x512) ![0, 0] S1024x512.size inb_S1024x512_S1024x512_0_0
abbrev r0_w : Rect S512x1536 := Rect.unit (s := S512x1536) ![0, 0] S512x1536.size inb_S512x1536_S512x1536_0_0
abbrev r0_b : Rect S1536 := Rect.unit (s := S1536) ![0] S1536.size inb_S1536_S1536_0
abbrev r0_o : Rect S1024x1536 := Rect.unit (s := S1024x1536) ![0, 0] S1024x1536.size inb_S1024x1536_S1024x1536_0_0

/-- The output window's staging buffer after the body, from the input windows' blocks: its one store. -/
def out0_3 (x0 : Vec F S1024x512 .f32) (x1 : Vec F S512x1536 .bf16) (x2 : Vec F S1536 .f32) : Vec F S1024x1536 .bf16 :=
  View.canon [⟨r0_o, k0_pay1 (View.ld x0 r0_x) (View.ld x1 r0_w) (View.ld x2 r0_b)⟩]

/-- The one store covers the buffer. -/
theorem cover0_3 (p0 : Vec F S1024x1536 .bf16) (y : S1024x1536.Idx) :
    ∃ pc ∈ ([⟨r0_o, p0⟩] : List (View.Piece (Elt F) S1024x1536 .bf16)), y ∈ pc.1.set := by
  exact View.cover_of_tiled [⟨r0_o, p0⟩] S1024x1536.size (by rfl) y

/-- The kernel body on whole staging memrefs: the inputs' stay as they were, the output's ends at `out0_3` of them. -/
theorem sound_kernel0 (c : Dev nD) (E : Set ℕ) (i : grid0.Coords)
    (arg0 : Memref sig .tc .vmem S1024x512 .f32) (harg0 : arg0.IsWhole) (arg1 : Memref sig .tc .vmem S512x1536 .bf16) (harg1 : arg1.IsWhole)
    (arg2 : Memref sig .tc .vmem S1536 .f32) (harg2 : arg2.IsWhole) (arg3 : Memref sig .tc .vmem S1024x1536 .bf16) (harg3 : arg3.IsWhole)
    (x0 : Vec F S1024x512 .f32) (x1 : Vec F S512x1536 .bf16) (x2 : Vec F S1536 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, the core's debt, and each window's current staging
    buffer, the inputs' at what the pipeline left there and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks (`before0_0`, `before0_1`, `before0_2`), so
    `sound_kernel0` applies at those blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := by
  intro t
  rw [bigSep_W0, bigSep_W0]
  exact sound_body0 V c t

end Cert.Kernel.Fr

end
-- ==== Proof.KB.Region1.lean ====
import proofs.«404274_j11819749998707_3_alg».proof.Proof.Gen.Kernel.Launch
import proofs.«404274_j11819749998707_3_alg».proof.Proof.Gen.Kernel.Skeleton
import proofs.«404274_j11819749998707_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: windowed attention, four windows of sixteen heads per grid point

The kernel body loads the blocks of the queries, keys and values (four windows each), the whole bias table and the
whole temperature vector, and stores the block of attention outputs. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its buffer whole. -/
abbrev r1_q : Rect S4x16x64x32 := Rect.unit (s := S4x16x64x32) ![0, 0, 0, 0] S4x16x64x32.size inb_S4x16x64x32_S4x16x64x32_0_0_0_0
abbrev r1_rb : Rect S16x64x64 := Rect.unit (s := S16x64x64) ![0, 0, 0] S16x64x64.size inb_S16x64x64_S16x64x64_0_0_0
abbrev r1_t : Rect S16x1x1 := Rect.unit (s := S16x1x1) ![0, 0, 0] S16x1x1.size inb_S16x1x1_S16x1x1_0_0_0

/-- The output window's staging buffer after the body, from the input windows' blocks (queries, keys, values, bias
    table, temperatures): its one store. -/
def out1_5 (x0 x1 x2 : Vec F S4x16x64x32 .bf16) (x3 : Vec F S16x64x64 .f32) (x4 : Vec F S16x1x1 .f32) : Vec F S4x16x64x32 .bf16 :=
  View.canon [⟨r1_q, k1_pay1 (k1_pay2 (View.ld x2 r1_q)) (k1_pay3 (View.ld x0 r1_q) (View.ld x1 r1_q) (View.ld x4 r1_t)) (View.ld x3 r1_rb)⟩]

/-- The one store covers the buffer. -/
theorem cover1_5 (p0 : Vec F S4x16x64x32 .bf16) (y : S4x16x64x32.Idx) :
    ∃ pc ∈ ([⟨r1_q, p0⟩] : List (View.Piece (Elt F) S4x16x64x32 .bf16)), y ∈ pc.1.set :=
  View.cover_of_tiled [⟨r1_q, p0⟩] S4x16x64x32.size (by rfl) y

set_option maxHeartbeats 1000000 in
/-- The kernel body on whole staging memrefs: the inputs' stay as they were, the output's ends at `out1_5` of them. -/
theorem sound_kernel1 (c : Dev nD) (E : Set ℕ) (i : grid1.Coords)
    (arg0 : Memref sig .tc .vmem S4x16x64x32 .bf16) (harg0 : arg0.IsWhole) (arg1 : Memref sig .tc .vmem S4x16x64x32 .bf16) (harg1 : arg1.IsWhole)
    (arg2 : Memref sig .tc .vmem S4x16x64x32 .bf16) (harg2 : arg2.IsWhole) (arg3 : Memref sig .tc .vmem S16x64x64 .f32) (harg3 : arg3.IsWhole)
    (arg4 : Memref sig .tc .vmem S16x1x1 .f32) (harg4 : arg4.IsWhole) (arg5 : Memref sig .tc .vmem S4x16x64x32 .bf16) (harg5 : arg5.IsWhole)
    (x0 x1 x2 : Vec F S4x16x64x32 .bf16) (x3 : Vec F S16x64x64 .f32) (x4 : Vec F S16x1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__attn_kernel i arg0 harg0 arg1 harg1 arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, what is owed, and each window's current staging
    buffer, the inputs' at what they hold there and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
import proofs.«404274_j11819749998707_3_alg».proof.Proof.Gen.Kernel.Launch
import proofs.«404274_j11819749998707_3_alg».proof.Proof.Gen.Kernel.Skeleton
import proofs.«404274_j11819749998707_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the output projection, one row block of 2048 rows per grid point

The kernel body loads the row block of the attention output (flattened), the whole projection matrix and the
whole bias vector, and stores the row block of the product plus the bias. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  exact (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  exact (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  exact (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its buffer whole. -/
abbrev r2_x : Rect S2048x512 := Rect.unit (s := S2048x512) ![0, 0] S2048x512.size inb_S2048x512_S2048x512_0_0
abbrev r2_w : Rect S512x512 := Rect.unit (s := S512x512) ![0, 0] S512x512.size inb_S512x512_S512x512_0_0
abbrev r2_b : Rect S512 := Rect.unit (s := S512) ![0] S512.size inb_S512_S512_0

/-- The output window's staging buffer after the body, from the input windows' blocks: its one store. -/
def out2_3 (x0 : Vec F S2048x512 .bf16) (x1 : Vec F S512x512 .bf16) (x2 : Vec F S512 .f32) : Vec F S2048x512 .f32 :=
  View.canon [⟨r2_x, k2_pay1 (View.ld x0 r2_x) (View.ld x1 r2_w) (View.ld x2 r2_b)⟩]

/-- The one store covers the buffer. -/
theorem cover2_3 (p0 : Vec F S2048x512 .f32) (y : S2048x512.Idx) :
    ∃ pc ∈ ([⟨r2_x, p0⟩] : List (View.Piece (Elt F) S2048x512 .f32)), y ∈ pc.1.set := by
  exact View.cover_of_tiled [⟨r2_x, p0⟩] S2048x512.size (by rfl) y

/-- The kernel body on whole staging memrefs: the inputs' stay as they were, the output's ends at `out2_3` of them. -/
theorem sound_kernel2 (c : Dev nD) (E : Set ℕ) (i : grid2.Coords)
    (arg0 : Memref sig .tc .vmem S2048x512 .bf16) (harg0 : arg0.IsWhole) (arg1 : Memref sig .tc .vmem S512x512 .bf16) (harg1 : arg1.IsWhole)
    (arg2 : Memref sig .tc .vmem S512 .f32) (harg2 : arg2.IsWhole) (arg3 : Memref sig .tc .vmem S2048x512 .f32) (harg3 : arg3.IsWhole)
    (x0 : Vec F S2048x512 .bf16) (x1 : Vec F S512x512 .bf16) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`: the invariant, the core's debt, and each window's current staging
    buffer, the inputs' at what the pipeline left there and the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_0`, `before2_1`, `before2_2`), so
    `sound_kernel2` applies at those blocks; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := by
  intro t
  rw [bigSep_W2, bigSep_W2]
  exact sound_body2 V c t

end Cert.Kernel.Fr

end
-- ==== Proof.KB.Run.lean ====
import proofs.«404274_j11819749998707_3_alg».proof.Proof.KB.Region0
import proofs.«404274_j11819749998707_3_alg».proof.Proof.KB.Region1
import proofs.«404274_j11819749998707_3_alg».proof.Proof.KB.Region2
import proofs.«404274_j11819749998707_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program: nine items from the launch to the return

Six stretches of host operations and three kernel regions, in the order
stretch 0, region 0, stretches 1, 1.1, 1.2, region 1, stretch 2, region 2, stretch 3.

## The buffer contents at each boundary between two items: a fold through the program -/

/-- Core c's buffers at launch. -/
abbrev W0 : Dev nD → Valuation τ sig (Elt F) := fun c b => (s₀ m ρ).mem ((c : Dev nD), b)
/-- After stretch 0 (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (an input as entered, the output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1. -/
abbrev W3 : Dev nD → Valuation τ sig (Elt F) := fun c => StableHlo.after hostOps1 (W2 m ρ c)
/-- After stretch 1.1. -/
abbrev W4 : Dev nD → Valuation τ sig (Elt F) := fun c => StableHlo.after hostOps1_1 (W3 m ρ c)
/-- After stretch 1.2 (region 1's entry). -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After stretch 2 (region 2's entry). -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After stretch 3 (the return). -/
abbrev W9 : Dev nD → Valuation τ sig (Elt F) := fun c => StableHlo.after hostOps3 (W8 m ρ c)

/-! ### A stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-! ### The arguments end as launched: no stretch writes one, and a region either bypasses it or reads it
    through an input window -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := (W8_arr m ρ c 2).trans (((dat2 (V7 m ρ) c).arrAt_in 2 rfl _).trans (A_eq2 (V7 m ρ) c 2))
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along:
    it ends with those references at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-- After the last stretch the generator register moves from beside the dues to beside the buffers. -/
theorem hlast (c : Dev nD) : iprop(StableHlo.held (c : Thread nD τ) (Pipeline.ucRefs τ sig) (W9 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The regions as segments

Each region is entered from every unscoped buffer at its entry contents and left with them at its exit contents: its
arrays are split out of the unscoped buffers on entry and put back at what the pipeline leaves on exit; the generator
register goes into the pipeline's invariant and comes back; nothing is owed; the kernel has no semaphore of its own. -/

set_option backward.isDefEq.respectTransparency.types false in
/-- Region 0: from the contents W1 to the contents W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from the contents W5 to the contents W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from the contents W7 to the contents W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of the segments: it is the chain of its nine items, and so is the segments' run. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state every unscoped buffer of every core holds the last fold's contents:
    the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- Every argument array ends holding its launch contents: each is an unscoped buffer, and the last fold's contents
    at it walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

end Cert.Kernel.Fr

end
-- ==== Proof.KI.Region0.lean ====
import proofs.«404274_j11819749998707_3_alg».proof.Proof.Gen.KernelIdeal.Launch
import proofs.«404274_j11819749998707_3_alg».proof.Proof.Gen.KernelIdeal.Skeleton
import proofs.«404274_j11819749998707_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the qkv projection, one row block of 1024 rows per grid point

The kernel body loads the row block of the flattened input, the whole weight matrix and the whole bias vector,
and stores the row block of the product plus the bias. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t := by
  exact (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t := by
  exact (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t := by
  exact (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is its buffer whole. -/
abbrev r0_x : Rect S1024x512 := Rect.unit (s := S1024x512) ![0, 0] S1024x512.size inb_S1024x512_S1024x512_0_0
abbrev r0_w : Rect S512x1536 := Rect.unit (s := S512x1536) ![0, 0] S512x1536.size inb_S512x1536_S512x1536_0_0
abbrev r0_b : Rect S1536 := Rect.unit (s := S1536) ![0] S1536.size inb_S1536_S1536_0
abbrev r0_o : Rect S1024x1536 := Rect.unit (s := S1024x1536) ![0, 0] S1024x1536.size inb_S1024x1536_S1024x1536_0_0

/-- The output window's staging buffer after the body, from the input windows' blocks: its one store. -/
def out0_3 (x0 : Vec F S1024x512 .f32) (x1 : Vec F S512x1536 .bf16) (x2 : Vec F S1536 .f32) : Vec F S1024x1536 .bf16 :=
  View.canon [⟨r0_o, k0_pay1 (View.ld x0 r0_x) (View.ld x1 r0_w) (View.ld x2 r0_b)⟩]

/-- The one store covers the buffer. -/
theorem cover0_3 (p0 : Vec F S1024x1536 .bf16) (y : S1024x1536.Idx) :
    ∃ pc ∈ ([⟨r0_o, p0⟩] : List (View.Piece (Elt F) S1024x1536 .bf16)), y ∈ pc.1.set := by
  exact View.cover_of_tiled [⟨r0_o, p0⟩] S1024x1536.size (by rfl) y

/-- The kernel body on whole staging memrefs: the inputs' stay as they were, the output's ends at `out0_3` of them. -/
theorem sound_kernel0 (c : Dev nD) (E : Set ℕ) (i : grid0.Coords)
    (arg0 : Memref sig .tc .vmem S1024x512 .f32) (harg0 : arg0.IsWhole) (arg1 : Memref sig .tc .vmem S512x1536 .bf16) (harg1 : arg1.IsWhole)
    (arg2 : Memref sig .tc .vmem S1536 .f32) (harg2 : arg2.IsWhole) (arg3 : Memref sig .tc .vmem S1024x1536 .bf16) (harg3 : arg3.IsWhole)
    (x0 : Vec F S1024x512 .f32) (x1 : Vec F S512x1536 .bf16) (x2 : Vec F S1536 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_bias_kernel i arg0 harg0 arg1 harg1 arg2 harg2 arg3 harg3) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`: the invariant, the core's debt, and each window's current staging
    buffer, the inputs' at what the pipeline left there and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks (`before0_0`, `before0_1`, `before0_2`), so
    `sound_kernel0` applies at those blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Fr

end
-- ==== Proof.KI.Region1.lean ====
import proofs.«404274_j11819749998707_3_alg».proof.Proof.Gen.KernelIdeal.Launch
import proofs.«404274_j11819749998707_3_alg».proof.Proof.Gen.KernelIdeal.Skeleton
import proofs.«404274_j11819749998707_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: windowed attention, four windows of sixteen heads per grid point

The kernel body loads the blocks of the queries, keys and values (four windows each), the whole bias table and the
whole temperature vector, and stores the block of attention outputs. -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each is its buffer whole. -/
abbrev r1_q : Rect S4x16x64x32 := Rect.unit (s := S4x16x64x32) ![0, 0, 0, 0] S4x16x64x32.size inb_S4x16x64x32_S4x16x64x32_0_0_0_0
abbrev r1_rb : Rect S16x64x64 := Rect.unit (s := S16x64x64) ![0, 0, 0] S16x64x64.size inb_S16x64x64_S16x64x64_0_0_0
abbrev r1_t : Rect S16x1x1 := Rect.unit (s := S16x1x1) ![0, 0, 0] S16x1x1.size inb_S16x1x1_S16x1x1_0_0_0

/-- The output window's staging buffer after the body, from the input windows' blocks (queries, keys, values, bias
    table, temperatures): its one store. -/
def out1_5 (x0 x1 x2 : Vec F S4x16x64x32 .bf16) (x3 : Vec F S16x64x64 .f32) (x4 : Vec F S16x1x1 .f32) : Vec F S4x16x64x32 .bf16 :=
  View.canon [⟨r1_q, k1_pay1 (k1_pay2 (View.ld x2 r1_q)) (k1_pay3 (View.ld x0 r1_q) (View.ld x1 r1_q) (View.ld x4 r1_t)) (View.ld x3 r1_rb)⟩]

/-- The one store covers the buffer. -/
theorem cover1_5 (p0 : Vec F S4x16x64x32 .bf16) (y : S4x16x64x32.Idx) :
    ∃ pc ∈ ([⟨r1_q, p0⟩] : List (View.Piece (Elt F) S4x16x64x32 .bf16)), y ∈ pc.1.set :=
  View.cover_of_tiled [⟨r1_q, p0⟩] S4x16x64x32.size (by rfl) y

set_option maxHeartbeats 1000000 in
/-- The kernel body on whole staging memrefs: the inputs' stay as they were, the output's ends at `out1_5` of them. -/
theorem sound_kernel1 (c : Dev nD) (E : Set ℕ) (i : grid1.Coords)
    (arg0 : Memref sig .tc .vmem S4x16x64x32 .bf16) (harg0 : arg0.IsWhole) (arg1 : Memref sig .tc .vmem S4x16x64x32 .bf16) (harg1 : arg1.IsWhole)
    (arg2 : Memref sig .tc .vmem S4x16x64x32 .bf16) (harg2 : arg2.IsWhole) (arg3 : Memref sig .tc .vmem S16x64x64 .f32) (harg3 : arg3.IsWhole)
    (arg4 : Memref sig .tc .vmem S16x1x1 .f32) (harg4 : arg4.IsWhole) (arg5 : Memref sig .tc .vmem S4x16x64x32 .bf16) (harg5 : arg5.IsWhole)
    (x0 x1 x2 : Vec F S4x16x64x32 .bf16) (x3 : Vec F S16x64x64 .f32) (x4 : Vec F S16x1x1 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__attn_kernel i arg0 harg0 arg1 harg1 arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`: the invariant, what is owed, and each window's current staging
    buffer, the inputs' at what they hold there and the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body returns: the same, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the kernel's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
import proofs.«404274_j11819749998707_3_alg».proof.Proof.Gen.KernelIdeal.Launch
import proofs.«404274_j11819749998707_3_alg».proof.Proof.Gen.KernelIdeal.Skeleton
import proofs.«404274_j11819749998707_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the output projection, one row block of 2048 rows per grid point

The kernel body loads the row block of the attention output (flattened), the whole projection matrix and the
whole bias vector, and stores the row block of the product plus the bias. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  exact (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  exact (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  exact (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each is its buffer whole. -/
abbrev r2_x : Rect S2048x512 := Rect.unit (s := S2048x512) ![0, 0] S2048x512.size inb_S2048x512_S2048x512_0_0
abbrev r2_w : Rect S512x512 := Rect.unit (s := S512x512) ![0, 0] S512x512.size inb_S512x512_S512x512_0_0
abbrev r2_b : Rect S512 := Rect.unit (s := S512) ![0] S512.size inb_S512_S512_0

/-- The output window's staging buffer after the body, from the input windows' blocks: its one store. -/
def out2_3 (x0 : Vec F S2048x512 .bf16) (x1 : Vec F S512x512 .bf16) (x2 : Vec F S512 .f32) : Vec F S2048x512 .f32 :=
  View.canon [⟨r2_x, k2_pay1 (View.ld x0 r2_x) (View.ld x1 r2_w) (View.ld x2 r2_b)⟩]

/-- The one store covers the buffer. -/
theorem cover2_3 (p0 : Vec F S2048x512 .f32) (y : S2048x512.Idx) :
    ∃ pc ∈ ([⟨r2_x, p0⟩] : List (View.Piece (Elt F) S2048x512 .f32)), y ∈ pc.1.set := by
  exact View.cover_of_tiled [⟨r2_x, p0⟩] S2048x512.size (by rfl) y

/-- The kernel body on whole staging memrefs: the inputs' stay as they were, the output's ends at `out2_3` of them. -/
theorem sound_kernel2 (c : Dev nD) (E : Set ℕ) (i : grid2.Coords)
    (arg0 : Memref sig .tc .vmem S2048x512 .bf16) (harg0 : arg0.IsWhole) (arg1 : Memref sig .tc .vmem S512x512 .bf16) (harg1 : arg1.IsWhole)
    (arg2 : Memref sig .tc .vmem S512 .f32) (harg2 : arg2.IsWhole) (arg3 : Memref sig .tc .vmem S2048x512 .f32) (harg3 : arg3.IsWhole)
    (x0 : Vec F S2048x512 .bf16) (x1 : Vec F S512x512 .bf16) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`: the invariant, the core's debt, and each window's current staging
    buffer, the inputs' at what the pipeline left there and the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three inputs' buffers hold their blocks (`before2_0`, `before2_1`, `before2_2`), so
    `sound_kernel2` applies at those blocks; the invariant and the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := by
  intro t
  rw [bigSep_W2, bigSep_W2]
  exact sound_body2 V c t

end Cert.KernelIdeal.Fr

end
-- ==== Proof.KI.Run.lean ====
import proofs.«404274_j11819749998707_3_alg».proof.Proof.KI.Region0
import proofs.«404274_j11819749998707_3_alg».proof.Proof.KI.Region1
import proofs.«404274_j11819749998707_3_alg».proof.Proof.KI.Region2
import proofs.«404274_j11819749998707_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program: nine items from the launch to the return

Six stretches of host operations and three kernel regions, in the order
stretch 0, region 0, stretches 1, 1.1, 1.2, region 1, stretch 2, region 2, stretch 3.

## The buffer contents at each boundary between two items: a fold through the program -/

/-- Core c's buffers at launch. -/
abbrev W0 : Dev nD → Valuation τ sig (Elt F) := fun c b => (s₀ m ρ).mem ((c : Dev nD), b)
/-- After stretch 0 (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves (an input as entered, the output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references. -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1. -/
abbrev W3 : Dev nD → Valuation τ sig (Elt F) := fun c => StableHlo.after hostOps1 (W2 m ρ c)
/-- After stretch 1.1. -/
abbrev W4 : Dev nD → Valuation τ sig (Elt F) := fun c => StableHlo.after hostOps1_1 (W3 m ρ c)
/-- After stretch 1.2 (region 1's entry). -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- Region 1's exit contents at the TensorCore's references. -/
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After stretch 2 (region 2's entry). -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- Region 2's exit contents at the TensorCore's references. -/
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After stretch 3 (the return). -/
abbrev W9 : Dev nD → Valuation τ sig (Elt F) := fun c => StableHlo.after hostOps3 (W8 m ρ c)

/-! ### A stretch leaves every buffer it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h

/-! ### The arguments end as launched: no stretch writes one, and a region either bypasses it or reads it
    through an input window -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of m ρ c main_arg0 (by decide)
    _ = W7 m ρ c (Proc.devRef .tc main_arg0) := W8_of_ne m ρ c main_arg0 (by decide)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of m ρ c main_arg1 (by decide)
    _ = W7 m ρ c (Proc.devRef .tc main_arg1) := W8_of_ne m ρ c main_arg1 (by decide)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of m ρ c main_arg2 (by decide)
    _ = W7 m ρ c (Proc.devRef .tc main_arg2) := W8_of_ne m ρ c main_arg2 (by decide)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of m ρ c main_arg3 (by decide)
    _ = W7 m ρ c (Proc.devRef .tc main_arg3) := W8_of_ne m ρ c main_arg3 (by decide)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of m ρ c main_arg4 (by decide)
    _ = W7 m ρ c (Proc.devRef .tc main_arg4) := W8_of_ne m ρ c main_arg4 (by decide)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of m ρ c main_arg5 (by decide)
    _ = W7 m ρ c (Proc.devRef .tc main_arg5) := W8_of_ne m ρ c main_arg5 (by decide)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of m ρ c main_arg6 (by decide)
    _ = W7 m ρ c (Proc.devRef .tc main_arg6) := W8_of_ne m ρ c main_arg6 (by decide)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of m ρ c main_arg7 (by decide)
    _ = W7 m ρ c (Proc.devRef .tc main_arg7) := W8_of_ne m ρ c main_arg7 (by decide)
    _ = W6 m ρ c (Proc.devRef .tc main_arg7) := W7_of m ρ c main_arg7 (by decide)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of m ρ c main_arg8 (by decide)
    _ = W7 m ρ c (Proc.devRef .tc main_arg8) := W8_of_ne m ρ c main_arg8 (by decide)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of m ρ c main_arg9 (by decide)
    _ = W7 m ρ c (Proc.devRef .tc main_arg9) := (W8_arr m ρ c 2).trans (((dat2 (V7 m ρ) c).arrAt_in 2 rfl _).trans (A_eq2 (V7 m ρ) c 2))
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment over the unscoped references from the contents W, R riding along:
    it ends with those references at the fold of the operations over W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-- After the last stretch the generator register moves from beside the dues to beside the buffers. -/
theorem hlast (c : Dev nD) : iprop(StableHlo.held (c : Thread nD τ) (Pipeline.ucRefs τ sig) (W9 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The regions as segments

Each region is entered from every unscoped buffer at its entry contents and left with them at its exit contents: its
arrays are split out of the unscoped buffers on entry and put back at what the pipeline leaves on exit; the generator
register goes into the pipeline's invariant and comes back; nothing is owed; the kernel has no semaphore of its own. -/

set_option backward.isDefEq.respectTransparency.types false in
/-- Region 0: from the contents W1 to the contents W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from the contents W5 to the contents W6. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from the contents W7 to the contents W8. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]
/-- The program is the run of the segments: it is the chain of its nine items, and so is the segments' run. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state every unscoped buffer of every core holds the last fold's contents:
    the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- Every argument array ends holding its launch contents: each is an unscoped buffer, and the last fold's contents
    at it walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c)⟩) (run_all m ρ)

end Cert.KernelIdeal.Fr

end
-- ==== Proof.Ref.Run.lean ====
import proofs.«404274_j11819749998707_3_alg».proof.Proof.Gen.ReferenceIdeal
import Idealize.ShloMosaic.Lib.StableHlo.Run

/-! The run of the reference program's @main, a straight line of host operations, read back as a fold:
    the line as a list of its operations in program order (the call of @relu at its site as the three
    operations of the callee's body over that call's buffers), the program equal to the sequence of that
    list, and from any memory with zero counters every weakly fair execution terminating with each
    TensorCore buffer at the fold of the operations' results over the launch contents. No operation
    writes an argument, so each argument ends as launched. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in program order; the three after `main_v44`'s sum are @relu's body at the call
    (the zero, its broadcast, the maximum), writing the call's own buffers and the call's result `main_v45`. -/
abbrev ops : List (HloOp τ sig (Elt F)) :=
  [ StableHlo.nullary main_cst (fun i => FloatOps.ofBits .f32 (lit0 (S225x2.rowMajor i))),
    StableHlo.nullary main_c (fun i => lit1 (S4096.rowMajor i)),
    StableHlo.binary main_arg0 main_arg1 main_v0 ((fun l r => Host.dotGeneral dot_S4x128x128x512_S512x1536_S4x128x128x1536_3_0_012_1_n_n none l r) : (⟨S4x128x128x512, .f32⟩ : BufTy).Contents (Elt F) → (⟨S512x1536, .f32⟩ : BufTy).Contents (Elt F) → (⟨S4x128x128x1536, .f32⟩ : BufTy).Contents (Elt F)),
    StableHlo.nullary main_cst_0 (constant S_ .f32 0x00000000#32),
    StableHlo.unary main_cst_0 main_v1 (broadcastInDim S512 ![] bcast_S_S512 : (⟨S_, .f32⟩ : BufTy).Contents (Elt F) → (⟨S512, .f32⟩ : BufTy).Contents (Elt F)),
    StableHlo.nary ![main_arg2, main_v1, main_arg3] main_v2 (fun u => concatenate S1536 0 [⟨S512, u 0⟩, ⟨S512, u 1⟩, ⟨S512, u 2⟩] concatenates_S512_S512_S512_S1536_d0),
    StableHlo.unary main_v2 main_v3 (broadcastInDim S1x1x1x1536 ![3] bcast_S1536_S1x1x1x1536_3 : (⟨S1536, .f32⟩ : BufTy).Contents (Elt F) → (⟨S1x1x1x1536, .f32⟩ : BufTy).Contents (Elt F)),
    StableHlo.unary main_v3 main_v4 (broadcastInDim S4x128x128x1536 ![0, 1, 2, 3] bcast_S1x1x1x1536_S4x128x128x1536_0_1_2_3 : (⟨S1x1x1x1536, .f32⟩ : BufTy).Contents (Elt F) → (⟨S4x128x128x1536, .f32⟩ : BufTy).Contents (Elt F)),
    StableHlo.binary main_v0 main_v4 main_v5 (addf : (⟨S4x128x128x1536, .f32⟩ : BufTy).Contents (Elt F) → (⟨S4x128x128x1536, .f32⟩ : BufTy).Contents (Elt F) → (⟨S4x128x128x1536, .f32⟩ : BufTy).Contents (Elt F)),
    StableHlo.unary main_v5 main_v6 ((extractStridedSlice S4x128x128x512 ![0, 0, 0, 0] · slices_S4x128x128x1536_S4x128x128x512_0_0_0_0) : (⟨S4x128x128x1536, .f32⟩ : BufTy).Contents (Elt F) → (⟨S4x128x128x512, .f32⟩ : BufTy).Contents (Elt F)),
    StableHlo.unary main_v5 main_v7 ((extractStridedSlice S4x128x128x512 ![0, 0, 0, 512] · slices_S4x128x128x1536_S4x128x128x512_0_0_0_512) : (⟨S4x128x128x1536, .f32⟩ : BufTy).Contents (Elt F) → (⟨S4x128x128x512, .f32⟩ : BufTy).Contents (Elt F)),
    StableHlo.unary main_v5 main_v8 ((extractStridedSlice S4x128x128x512 ![0, 0, 0, 1024] · slices_S4x128x128x1536_S4x128x128x512_0_0_0_1024) : (⟨S4x128x128x1536, .f32⟩ : BufTy).Contents (Elt F) → (⟨S4x128x128x512, .f32⟩ : BufTy).Contents (Elt F)),
    StableHlo.reshape main_v6 main_v9 rfl shapeCasts_S4x128x128x512_S4x8x16x8x16x16x32,
    StableHlo.unary main_v9 main_v10 ((transpose S4x16x16x16x8x8x32 [0, 2, 4, 5, 1, 3, 6] · transposes_S4x8x16x8x16x16x32_S4x16x16x16x8x8x32_0_2_4_5_1_3_6) : (⟨S4x8x16x8x16x16x32, .f32⟩ : BufTy).Contents (Elt F) → (⟨S4x16x16x16x8x8x32, .f32⟩ : BufTy).Contents (Elt F)),
    StableHlo.reshape main_v10 main_v11 rfl shapeCasts_S4x16x16x16x8x8x32_S1024x16x64x32,
    StableHlo.reshape main_v7 main_v12 rfl shapeCasts_S4x128x128x512_S4x8x16x8x16x16x32,
    StableHlo.unary main_v12 main_v13 ((transpose S4x16x16x16x8x8x32 [0, 2, 4, 5, 1, 3, 6] · transposes_S4x8x16x8x16x16x32_S4x16x16x16x8x8x32_0_2_4_5_1_3_6) : (⟨S4x8x16x8x16x16x32, .f32⟩ : BufTy).Contents (Elt F) → (⟨S4x16x16x16x8x8x32, .f32⟩ : BufTy).Contents (Elt F)),
    StableHlo.reshape main_v13 main_v14 rfl shapeCasts_S4x16x16x16x8x8x32_S1024x16x64x32,
    StableHlo.reshape main_v8 main_v15 rfl shapeCasts_S4x128x128x512_S4x8x16x8x16x16x32,
    StableHlo.unary main_v15 main_v16 ((transpose S4x16x16x16x8x8x32 [0, 2, 4, 5, 1, 3, 6] · transposes_S4x8x16x8x16x16x32_S4x16x16x16x8x8x32_0_2_4_5_1_3_6) : (⟨S4x8x16x8x16x16x32, .f32⟩ : BufTy).Contents (Elt F) → (⟨S4x16x16x16x8x8x32, .f32⟩ : BufTy).Contents (Elt F)),
    StableHlo.reshape main_v16 main_v17 rfl shapeCasts_S4x16x16x16x8x8x32_S1024x16x64x32,
    StableHlo.binary main_v11 main_v11 main_v18 (mulf : (⟨S1024x16x64x32, .f32⟩ : BufTy).Contents (Elt F) → (⟨S1024x16x64x32, .f32⟩ : BufTy).Contents (Elt F) → (⟨S1024x16x64x32, .f32⟩ : BufTy).Contents (Elt F)),
    StableHlo.nullary main_cst_1 (constant S_ .f32 0x00000000#32),
    StableHlo.binary main_v18 main_cst_1 main_v19 ((fun x v => Host.reduceAdd x v reducesTo_S1024x16x64x32_S1024x16x64_d3 h_S_) : (⟨S1024x16x64x32, .f32⟩ : BufTy).Contents (Elt F) → (⟨S_, .f32⟩ : BufTy).Contents (Elt F) → (⟨S1024x16x64, .f32⟩ : BufTy).Contents (Elt F)),
    StableHlo.unary main_v19 main_v20 (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)),
    StableHlo.nullary main_cst_2 (constant S_ .f32 0x378205FF#32),
    StableHlo.unary main_cst_2 main_v21 (broadcastInDim S1024x16x64x1 ![] bcast_S_S1024x16x64x1 : (⟨S_, .f32⟩ : BufTy).Contents (Elt F) → (⟨S1024x16x64x1, .f32⟩ : BufTy).Contents (Elt F)),
    StableHlo.binary main_v20 main_v21 main_v22 (maximumf : (⟨S1024x16x64x1, .f32⟩ : BufTy).Contents (Elt F) → (⟨S1024x16x64x1, .f32⟩ : BufTy).Contents (Elt F) → (⟨S1024x16x64x1, .f32⟩ : BufTy).Contents (Elt F)),
    StableHlo.unary main_v22 main_v23 (Host.rsqrt : (⟨S1024x16x64x1, .f32⟩ : BufTy).Contents (Elt F) → (⟨S1024x16x64x1, .f32⟩ : BufTy).Contents (Elt F)),
    StableHlo.unary main_v23 main_v24 (broadcastInDim S1024x16x64x32 ![0, 1, 2, 3] bcast_S1024x16x64x1_S1024x16x64x32_0_1_2_3 : (⟨S1024x16x64x1, .f32⟩ : BufTy).Contents (Elt F) → (⟨S1024x16x64x32, .f32⟩ : BufTy).Contents (Elt F)),
    StableHlo.binary main_v11 main_v24 main_v25 (mulf : (⟨S1024x16x64x32, .f32⟩ : BufTy).Contents (Elt F) → (⟨S1024x16x64x32, .f32⟩ : BufTy).Contents (Elt F) → (⟨S1024x16x64x32, .f32⟩ : BufTy).Contents (Elt F)),
    StableHlo.binary main_v14 main_v14 main_v26 (mulf : (⟨S1024x16x64x32, .f32⟩ : BufTy).Contents (Elt F) → (⟨S1024x16x64x32, .f32⟩ : BufTy).Contents (Elt F) → (⟨S1024x16x64x32, .f32⟩ : BufTy).Contents (Elt F)),
    StableHlo.nullary main_cst_3 (constant S_ .f32 0x00000000#32),
    StableHlo.binary main_v26 main_cst_3 main_v27 ((fun x v => Host.reduceAdd x v reducesTo_S1024x16x64x32_S1024x16x64_d3 h_S_) : (⟨S1024x16x64x32, .f32⟩ : BufTy).Contents (Elt F) → (⟨S_, .f32⟩ : BufTy).Contents (Elt F) → (⟨S1024x16x64, .f32⟩ : BufTy).Contents (Elt F)),
    StableHlo.unary main_v27 main_v28 (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)),
    StableHlo.nullary main_cst_4 (constant S_ .f32 0x378205FF#32),
    StableHlo.unary main_cst_4 main_v29 (broadcastInDim S1024x16x64x1 ![] bcast_S_S1024x16x64x1 : (⟨S_, .f32⟩ : BufTy).Contents (Elt F) → (⟨S1024x16x64x1, .f32⟩ : BufTy).Contents (Elt F)),
    StableHlo.binary main_v28 main_v29 main_v30 (maximumf : (⟨S1024x16x64x1, .f32⟩ : BufTy).Contents (Elt F) → (⟨S1024x16x64x1, .f32⟩ : BufTy).Contents (Elt F) → (⟨S1024x16x64x1, .f32⟩ : BufTy).Contents (Elt F)),
    StableHlo.unary main_v30 main_v31 (Host.rsqrt : (⟨S1024x16x64x1, .f32⟩ : BufTy).Contents (Elt F) → (⟨S1024x16x64x1, .f32⟩ : BufTy).Contents (Elt F)),
    StableHlo.unary main_v31 main_v32 (broadcastInDim S1024x16x64x32 ![0, 1, 2, 3] bcast_S1024x16x64x1_S1024x16x64x32_0_1_2_3 : (⟨S1024x16x64x1, .f32⟩ : BufTy).Contents (Elt F) → (⟨S1024x16x64x32, .f32⟩ : BufTy).Contents (Elt F)),
    StableHlo.binary main_v14 main_v32 main_v33 (mulf : (⟨S1024x16x64x32, .f32⟩ : BufTy).Contents (Elt F) → (⟨S1024x16x64x32, .f32⟩ : BufTy).Contents (Elt F) → (⟨S1024x16x64x32, .f32⟩ : BufTy).Contents (Elt F)),
    StableHlo.nullary main_cst_5 (constant S_ .f32 0x40935D8E#32),
    StableHlo.unary main_cst_5 main_v34 (broadcastInDim S16x1x1 ![] bcast_S_S16x1x1 : (⟨S_, .f32⟩ : BufTy).Contents (Elt F) → (⟨S16x1x1, .f32⟩ : BufTy).Contents (Elt F)),
    StableHlo.binary main_arg4 main_v34 main_v35 (minimumf : (⟨S16x1x1, .f32⟩ : BufTy).Contents (Elt F) → (⟨S16x1x1, .f32⟩ : BufTy).Contents (Elt F) → (⟨S16x1x1, .f32⟩ : BufTy).Contents (Elt F)),
    StableHlo.unary main_v35 main_v36 (Host.exp : (⟨S16x1x1, .f32⟩ : BufTy).Contents (Elt F) → (⟨S16x1x1, .f32⟩ : BufTy).Contents (Elt F)),
    StableHlo.unary main_v36 main_v37 (broadcastInDim S1x16x1x1 ![1, 2, 3] bcast_S16x1x1_S1x16x1x1_1_2_3 : (⟨S16x1x1, .f32⟩ : BufTy).Contents (Elt F) → (⟨S1x16x1x1, .f32⟩ : BufTy).Contents (Elt F)),
    StableHlo.unary main_v37 main_v38 (broadcastInDim S1024x16x64x32 ![0, 1, 2, 3] bcast_S1x16x1x1_S1024x16x64x32_0_1_2_3 : (⟨S1x16x1x1, .f32⟩ : BufTy).Contents (Elt F) → (⟨S1024x16x64x32, .f32⟩ : BufTy).Contents (Elt F)),
    StableHlo.binary main_v25 main_v38 main_v39 (mulf : (⟨S1024x16x64x32, .f32⟩ : BufTy).Contents (Elt F) → (⟨S1024x16x64x32, .f32⟩ : BufTy).Contents (Elt F) → (⟨S1024x16x64x32, .f32⟩ : BufTy).Contents (Elt F)),
    StableHlo.binary main_v39 main_v33 main_v40 ((fun l r => Host.dotGeneral dot_S1024x16x64x32_S1024x16x64x32_S1024x16x64x64_3_3_2_2_01_01 none l r) : (⟨S1024x16x64x32, .f32⟩ : BufTy).Contents (Elt F) → (⟨S1024x16x64x32, .f32⟩ : BufTy).Contents (Elt F) → (⟨S1024x16x64x64, .f32⟩ : BufTy).Contents (Elt F)),
    StableHlo.binary main_cst main_arg5 main_v41 ((fun l r => Host.dotGeneral dot_S225x2_S2x512_S225x512_1_0_0_1_n_n none l r) : (⟨S225x2, .f32⟩ : BufTy).Contents (Elt F) → (⟨S2x512, .f32⟩ : BufTy).Contents (Elt F) → (⟨S225x512, .f32⟩ : BufTy).Contents (Elt F)),
    StableHlo.unary main_arg6 main_v42 (broadcastInDim S1x512 ![1] bcast_S512_S1x512_1 : (⟨S512, .f32⟩ : BufTy).Contents (Elt F) → (⟨S1x512, .f32⟩ : BufTy).Contents (Elt F)),
    StableHlo.unary main_v42 main_v43 (broadcastInDim S225x512 ![0, 1] bcast_S1x512_S225x512_0_1 : (⟨S1x512, .f32⟩ : BufTy).Contents (Elt F) → (⟨S225x512, .f32⟩ : BufTy).Contents (Elt F)),
    StableHlo.binary main_v41 main_v43 main_v44 (addf : (⟨S225x512, .f32⟩ : BufTy).Contents (Elt F) → (⟨S225x512, .f32⟩ : BufTy).Contents (Elt F) → (⟨S225x512, .f32⟩ : BufTy).Contents (Elt F)),
    StableHlo.nullary main_call0_cst (constant S_ .f32 0x00000000#32),
    StableHlo.unary main_call0_cst main_call0_v0 (broadcastInDim S225x512 ![] bcast_S_S225x512),
    StableHlo.binary main_v44 main_call0_v0 main_v45 maximumf,
    StableHlo.binary main_v45 main_arg7 main_v46 ((fun l r => Host.dotGeneral dot_S225x512_S512x16_S225x16_1_0_0_1_n_n none l r) : (⟨S225x512, .f32⟩ : BufTy).Contents (Elt F) → (⟨S512x16, .f32⟩ : BufTy).Contents (Elt F) → (⟨S225x16, .f32⟩ : BufTy).Contents (Elt F)),
    StableHlo.nullary main_c_6 (constantI S_ 32 0#32),
    StableHlo.unary main_c_6 main_v47 (broadcastInDim S4096 ![] bcast_S_S4096 : (⟨S_, .i32⟩ : BufTy).Contents (Elt F) → (⟨S4096, .i32⟩ : BufTy).Contents (Elt F)),
    StableHlo.binary main_c main_v47 main_v48 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 225#32),
    StableHlo.unary main_c_7 main_v49 (broadcastInDim S4096 ![] bcast_S_S4096 : (⟨S_, .i32⟩ : BufTy).Contents (Elt F) → (⟨S4096, .i32⟩ : BufTy).Contents (Elt F)),
    StableHlo.binary main_c main_v49 main_v50 (addi : (⟨S4096, .i32⟩ : BufTy).Contents (Elt F) → (⟨S4096, .i32⟩ : BufTy).Contents (Elt F) → (⟨S4096, .i32⟩ : BufTy).Contents (Elt F)),
    StableHlo.ternary main_v48 main_v50 main_c main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v51 main_v52 (broadcastInDim S4096x1 ![0] bcast_S4096_S4096x1_0 : (⟨S4096, .i32⟩ : BufTy).Contents (Elt F) → (⟨S4096x1, .i32⟩ : BufTy).Contents (Elt F)),
    StableHlo.binary main_v46 main_v52 main_v53 ((fun x i => Host.gather gather_S225x16_S4096x1_S4096x16_1_0_n_n_0_1_116 x i) : (⟨S225x16, .f32⟩ : BufTy).Contents (Elt F) → (⟨S4096x1, .i32⟩ : BufTy).Contents (Elt F) → (⟨S4096x16, .f32⟩ : BufTy).Contents (Elt F)),
    StableHlo.reshape main_v53 main_v54 rfl shapeCasts_S4096x16_S64x64x16,
    StableHlo.unary main_v54 main_v55 ((transpose S16x64x64 [2, 0, 1] · transposes_S64x64x16_S16x64x64_2_0_1) : (⟨S64x64x16, .f32⟩ : BufTy).Contents (Elt F) → (⟨S16x64x64, .f32⟩ : BufTy).Contents (Elt F)),
    StableHlo.unary main_v55 main_v56 (Host.negf : (⟨S16x64x64, .f32⟩ : BufTy).Contents (Elt F) → (⟨S16x64x64, .f32⟩ : BufTy).Contents (Elt F)),
    StableHlo.unary main_v56 main_v57 (Host.exp : (⟨S16x64x64, .f32⟩ : BufTy).Contents (Elt F) → (⟨S16x64x64, .f32⟩ : BufTy).Contents (Elt F)),
    StableHlo.nullary main_cst_8 (constant S_ .f32 0x3F800000#32),
    StableHlo.unary main_cst_8 main_v58 (broadcastInDim S16x64x64 ![] bcast_S_S16x64x64 : (⟨S_, .f32⟩ : BufTy).Contents (Elt F) → (⟨S16x64x64, .f32⟩ : BufTy).Contents (Elt F)),
    StableHlo.binary main_v58 main_v57 main_v59 (addf : (⟨S16x64x64, .f32⟩ : BufTy).Contents (Elt F) → (⟨S16x64x64, .f32⟩ : BufTy).Contents (Elt F) → (⟨S16x64x64, .f32⟩ : BufTy).Contents (Elt F)),
    StableHlo.nullary main_cst_9 (constant S_ .f32 0x3F800000#32),
    StableHlo.unary main_cst_9 main_v60 (broadcastInDim S16x64x64 ![] bcast_S_S16x64x64 : (⟨S_, .f32⟩ : BufTy).Contents (Elt F) → (⟨S16x64x64, .f32⟩ : BufTy).Contents (Elt F)),
    StableHlo.binary main_v60 main_v59 main_v61 (Host.divf : (⟨S16x64x64, .f32⟩ : BufTy).Contents (Elt F) → (⟨S16x64x64, .f32⟩ : BufTy).Contents (Elt F) → (⟨S16x64x64, .f32⟩ : BufTy).Contents (Elt F)),
    StableHlo.unary main_v61 main_v62 (broadcastInDim S1x16x64x64 ![1, 2, 3] bcast_S16x64x64_S1x16x64x64_1_2_3 : (⟨S16x64x64, .f32⟩ : BufTy).Contents (Elt F) → (⟨S1x16x64x64, .f32⟩ : BufTy).Contents (Elt F)),
    StableHlo.nullary main_cst_10 (constant S_ .f32 0x41800000#32),
    StableHlo.unary main_cst_10 main_v63 (broadcastInDim S1x16x64x64 ![] bcast_S_S1x16x64x64 : (⟨S_, .f32⟩ : BufTy).Contents (Elt F) → (⟨S1x16x64x64, .f32⟩ : BufTy).Contents (Elt F)),
    StableHlo.binary main_v63 main_v62 main_v64 (mulf : (⟨S1x16x64x64, .f32⟩ : BufTy).Contents (Elt F) → (⟨S1x16x64x64, .f32⟩ : BufTy).Contents (Elt F) → (⟨S1x16x64x64, .f32⟩ : BufTy).Contents (Elt F)),
    StableHlo.unary main_v64 main_v65 (broadcastInDim S1024x16x64x64 ![0, 1, 2, 3] bcast_S1x16x64x64_S1024x16x64x64_0_1_2_3 : (⟨S1x16x64x64, .f32⟩ : BufTy).Contents (Elt F) → (⟨S1024x16x64x64, .f32⟩ : BufTy).Contents (Elt F)),
    StableHlo.binary main_v40 main_v65 main_v66 (addf : (⟨S1024x16x64x64, .f32⟩ : BufTy).Contents (Elt F) → (⟨S1024x16x64x64, .f32⟩ : BufTy).Contents (Elt F) → (⟨S1024x16x64x64, .f32⟩ : BufTy).Contents (Elt F)),
    StableHlo.nullary main_cst_11 (constant S_ .f32 0xFF800000#32),
    StableHlo.binary main_v66 main_cst_11 main_v67 ((fun x v => Host.reduce FloatOps.maximumf x v reducesTo_S1024x16x64x64_S1024x16x64_d3 h_S_) : (⟨S1024x16x64x64, .f32⟩ : BufTy).Contents (Elt F) → (⟨S_, .f32⟩ : BufTy).Contents (Elt F) → (⟨S1024x16x64, .f32⟩ : BufTy).Contents (Elt F)),
    StableHlo.nullary main_cst_12 (constant S_ .f32 0xFF800000#32),
    StableHlo.unary main_cst_12 main_v68 (broadcastInDim S1024x16x64 ![] bcast_S_S1024x16x64 : (⟨S_, .f32⟩ : BufTy).Contents (Elt F) → (⟨S1024x16x64, .f32⟩ : BufTy).Contents (Elt F)),
    StableHlo.binary main_v68 main_v67 main_v69 (maximumf : (⟨S1024x16x64, .f32⟩ : BufTy).Contents (Elt F) → (⟨S1024x16x64, .f32⟩ : BufTy).Contents (Elt F) → (⟨S1024x16x64, .f32⟩ : BufTy).Contents (Elt F)),
    StableHlo.unary main_v69 main_v70 (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)),
    StableHlo.unary main_v70 main_v71 (broadcastInDim S1024x16x64x64 ![0, 1, 2, 3] bcast_S1024x16x64x1_S1024x16x64x64_0_1_2_3 : (⟨S1024x16x64x1, .f32⟩ : BufTy).Contents (Elt F) → (⟨S1024x16x64x64, .f32⟩ : BufTy).Contents (Elt F)),
    StableHlo.binary main_v66 main_v71 main_v72 (subf : (⟨S1024x16x64x64, .f32⟩ : BufTy).Contents (Elt F) → (⟨S1024x16x64x64, .f32⟩ : BufTy).Contents (Elt F) → (⟨S1024x16x64x64, .f32⟩ : BufTy).Contents (Elt F)),
    StableHlo.unary main_v72 main_v73 (Host.exp : (⟨S1024x16x64x64, .f32⟩ : BufTy).Contents (Elt F) → (⟨S1024x16x64x64, .f32⟩ : BufTy).Contents (Elt F)),
    StableHlo.nullary main_cst_13 (constant S_ .f32 0x00000000#32),
    StableHlo.binary main_v73 main_cst_13 main_v74 ((fun x v => Host.reduceAdd x v reducesTo_S1024x16x64x64_S1024x16x64_d3 h_S_) : (⟨S1024x16x64x64, .f32⟩ : BufTy).Contents (Elt F) → (⟨S_, .f32⟩ : BufTy).Contents (Elt F) → (⟨S1024x16x64, .f32⟩ : BufTy).Contents (Elt F)),
    StableHlo.unary main_v74 main_v75 (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)),
    StableHlo.unary main_v75 main_v76 (broadcastInDim S1024x16x64x64 ![0, 1, 2, 3] bcast_S1024x16x64x1_S1024x16x64x64_0_1_2_3 : (⟨S1024x16x64x1, .f32⟩ : BufTy).Contents (Elt F) → (⟨S1024x16x64x64, .f32⟩ : BufTy).Contents (Elt F)),
    StableHlo.binary main_v73 main_v76 main_v77 (Host.divf : (⟨S1024x16x64x64, .f32⟩ : BufTy).Contents (Elt F) → (⟨S1024x16x64x64, .f32⟩ : BufTy).Contents (Elt F) → (⟨S1024x16x64x64, .f32⟩ : BufTy).Contents (Elt F)),
    StableHlo.binary main_v77 main_v17 main_v78 ((fun l r => Host.dotGeneral dot_S1024x16x64x64_S1024x16x64x32_S1024x16x64x32_3_2_2_3_01_01 none l r) : (⟨S1024x16x64x64, .f32⟩ : BufTy).Contents (Elt F) → (⟨S1024x16x64x32, .f32⟩ : BufTy).Contents (Elt F) → (⟨S1024x16x64x32, .f32⟩ : BufTy).Contents (Elt F)),
    StableHlo.reshape main_v78 main_v79 rfl shapeCasts_S1024x16x64x32_S4x16x16x16x8x8x32,
    StableHlo.unary main_v79 main_v80 ((transpose S4x8x16x8x16x16x32 [0, 4, 1, 5, 2, 3, 6] · transposes_S4x16x16x16x8x8x32_S4x8x16x8x16x16x32_0_4_1_5_2_3_6) : (⟨S4x16x16x16x8x8x32, .f32⟩ : BufTy).Contents (Elt F) → (⟨S4x8x16x8x16x16x32, .f32⟩ : BufTy).Contents (Elt F)),
    StableHlo.reshape main_v80 main_v81 rfl shapeCasts_S4x8x16x8x16x16x32_S4x128x128x512,
    StableHlo.binary main_v81 main_arg8 main_v82 ((fun l r => Host.dotGeneral dot_S4x128x128x512_S512x512_S4x128x128x512_3_0_012_1_n_n none l r) : (⟨S4x128x128x512, .f32⟩ : BufTy).Contents (Elt F) → (⟨S512x512, .f32⟩ : BufTy).Contents (Elt F) → (⟨S4x128x128x512, .f32⟩ : BufTy).Contents (Elt F)),
    StableHlo.unary main_arg9 main_v83 (broadcastInDim S1x1x1x512 ![3] bcast_S512_S1x1x1x512_3 : (⟨S512, .f32⟩ : BufTy).Contents (Elt F) → (⟨S1x1x1x512, .f32⟩ : BufTy).Contents (Elt F)),
    StableHlo.unary main_v83 main_v84 (broadcastInDim S4x128x128x512 ![0, 1, 2, 3] bcast_S1x1x1x512_S4x128x128x512_0_1_2_3 : (⟨S1x1x1x512, .f32⟩ : BufTy).Contents (Elt F) → (⟨S4x128x128x512, .f32⟩ : BufTy).Contents (Elt F)),
    StableHlo.binary main_v82 main_v84 main_v85 (addf : (⟨S4x128x128x512, .f32⟩ : BufTy).Contents (Elt F) → (⟨S4x128x128x512, .f32⟩ : BufTy).Contents (Elt F) → (⟨S4x128x128x512, .f32⟩ : BufTy).Contents (Elt F)) ]

set_option maxRecDepth 8192 in
set_option maxHeartbeats 4000000 in
/-- @main is that straight line: the two windows in order, the callee's body unfolded at its call; sequencing
    is associative and a returned unit binds to nothing, so both sides are the same chain of steps. -/
theorem main_eq (c : Dev nD) : main (F := F) c = StableHlo.seq ops := rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., binary_bufs_sub .., nullary_bufs_sub .., unary_bufs_sub .., nary_bufs_sub ..,
    unary_bufs_sub .., unary_bufs_sub .., binary_bufs_sub .., unary_bufs_sub .., unary_bufs_sub .., unary_bufs_sub ..,
    reshape_bufs_sub .., unary_bufs_sub .., reshape_bufs_sub .., reshape_bufs_sub .., unary_bufs_sub .., reshape_bufs_sub ..,
    reshape_bufs_sub .., unary_bufs_sub .., reshape_bufs_sub .., binary_bufs_sub .., nullary_bufs_sub .., binary_bufs_sub ..,
    unary_bufs_sub .., nullary_bufs_sub .., unary_bufs_sub .., binary_bufs_sub .., unary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    reshape_bufs_sub .., unary_bufs_sub .., unary_bufs_sub .., unary_bufs_sub .., nullary_bufs_sub .., unary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., reshape_bufs_sub .., unary_bufs_sub .., reshape_bufs_sub .., binary_bufs_sub .., unary_bufs_sub ..,
    unary_bufs_sub .., binary_bufs_sub ..⟩

/-- On every device, for any float values, from any memory with zero counters: every weakly fair execution of
    @main terminates, and every TensorCore buffer ends at the fold of the operations' results over the launch
    contents. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ

/-- The references the operations write: each operation's result buffer, in order (all distinct: one buffer
    per tensor value). -/
abbrev ops_W : List (Ref sig .tc) :=
  [ main_cst, main_c, main_v0, main_cst_0, main_v1, main_v2, main_v3, main_v4,
    main_v5, main_v6, main_v7, main_v8, main_v9, main_v10, main_v11, main_v12,
    main_v13, main_v14, main_v15, main_v16, main_v17, main_v18, main_cst_1, main_v19,
    main_v20, main_cst_2, main_v21, main_v22, main_v23, main_v24, main_v25, main_v26,
    main_cst_3, main_v27, main_v28, main_cst_4, main_v29, main_v30, main_v31, main_v32,
    main_v33, main_cst_5, main_v34, main_v35, main_v36, main_v37, main_v38, main_v39,
    main_v40, main_v41, main_v42, main_v43, main_v44, main_call0_cst, main_call0_v0, main_v45,
    main_v46, main_c_6, main_v47, main_v48, main_c_7, main_v49, main_v50, main_v51,
    main_v52, main_v53, main_v54, main_v55, main_v56, main_v57, main_cst_8, main_v58,
    main_v59, main_cst_9, main_v60, main_v61, main_v62, main_cst_10, main_v63, main_v64,
    main_v65, main_v66, main_cst_11, main_v67, main_cst_12, main_v68, main_v69, main_v70,
    main_v71, main_v72, main_v73, main_cst_13, main_v74, main_v75, main_v76, main_v77,
    main_v78, main_v79, main_v80, main_v81, main_v82, main_v83, main_v84, main_v85 ]

/-- An operation whose write set is one reference of a list writes inside that list. -/
theorem writes_sub_of_mem {Wl : List (Ref sig .tc)} {y : Ref sig .tc} (op : HloOp τ sig (Elt F))
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

/-- Each operation writes its own result buffer, a member of `ops_W`. -/
theorem ops_writes : (ops : List (HloOp τ sig (Elt F))).Forall fun op => op.writes ⊆ (ops_W.map (Proc.devRef (τ := τ) .tc)).toFinset :=
  ⟨writes_sub_of_mem _ (nullary_writes ..) (by decide), writes_sub_of_mem _ (nullary_writes ..) (by decide), writes_sub_of_mem _ (binary_writes ..) (by decide),
    writes_sub_of_mem _ (nullary_writes ..) (by decide), writes_sub_of_mem _ (unary_writes ..) (by decide), writes_sub_of_mem _ (nary_writes ..) (by decide),
    writes_sub_of_mem _ (unary_writes ..) (by decide), writes_sub_of_mem _ (unary_writes ..) (by decide), writes_sub_of_mem _ (binary_writes ..) (by decide),
    writes_sub_of_mem _ (unary_writes ..) (by decide), writes_sub_of_mem _ (unary_writes ..) (by decide), writes_sub_of_mem _ (unary_writes ..) (by decide),
    writes_sub_of_mem _ (reshape_writes ..) (by decide), writes_sub_of_mem _ (unary_writes ..) (by decide), writes_sub_of_mem _ (reshape_writes ..) (by decide),
    writes_sub_of_mem _ (reshape_writes ..) (by decide), writes_sub_of_mem _ (unary_writes ..) (by decide), writes_sub_of_mem _ (reshape_writes ..) (by decide),
    writes_sub_of_mem _ (reshape_writes ..) (by decide), writes_sub_of_mem _ (unary_writes ..) (by decide), writes_sub_of_mem _ (reshape_writes ..) (by decide),
    writes_sub_of_mem _ (binary_writes ..) (by decide), writes_sub_of_mem _ (nullary_writes ..) (by decide), writes_sub_of_mem _ (binary_writes ..) (by decide),
    writes_sub_of_mem _ (unary_writes ..) (by decide), writes_sub_of_mem _ (nullary_writes ..) (by decide), writes_sub_of_mem _ (unary_writes ..) (by decide),
    writes_sub_of_mem _ (binary_writes ..) (by decide), writes_sub_of_mem _ (unary_writes ..) (by decide), writes_sub_of_mem _ (unary_writes ..) (by decide),
    writes_sub_of_mem _ (binary_writes ..) (by decide), writes_sub_of_mem _ (binary_writes ..) (by decide), writes_sub_of_mem _ (nullary_writes ..) (by decide),
    writes_sub_of_mem _ (binary_writes ..) (by decide), writes_sub_of_mem _ (unary_writes ..) (by decide), writes_sub_of_mem _ (nullary_writes ..) (by decide),
    writes_sub_of_mem _ (unary_writes ..) (by decide), writes_sub_of_mem _ (binary_writes ..) (by decide), writes_sub_of_mem _ (unary_writes ..) (by decide),
    writes_sub_of_mem _ (unary_writes ..) (by decide), writes_sub_of_mem _ (binary_writes ..) (by decide), writes_sub_of_mem _ (nullary_writes ..) (by decide),
    writes_sub_of_mem _ (unary_writes ..) (by decide), writes_sub_of_mem _ (binary_writes ..) (by decide), writes_sub_of_mem _ (unary_writes ..) (by decide),
    writes_sub_of_mem _ (unary_writes ..) (by decide), writes_sub_of_mem _ (unary_writes ..) (by decide), writes_sub_of_mem _ (binary_writes ..) (by decide),
    writes_sub_of_mem _ (binary_writes ..) (by decide), writes_sub_of_mem _ (binary_writes ..) (by decide), writes_sub_of_mem _ (unary_writes ..) (by decide),
    writes_sub_of_mem _ (unary_writes ..) (by decide), writes_sub_of_mem _ (binary_writes ..) (by decide), writes_sub_of_mem _ (nullary_writes ..) (by decide),
    writes_sub_of_mem _ (unary_writes ..) (by decide), writes_sub_of_mem _ (binary_writes ..) (by decide), writes_sub_of_mem _ (binary_writes ..) (by decide),
    writes_sub_of_mem _ (nullary_writes ..) (by decide), writes_sub_of_mem _ (unary_writes ..) (by decide), writes_sub_of_mem _ (binary_writes ..) (by decide),
    writes_sub_of_mem _ (nullary_writes ..) (by decide), writes_sub_of_mem _ (unary_writes ..) (by decide), writes_sub_of_mem _ (binary_writes ..) (by decide),
    writes_sub_of_mem _ (ternary_writes ..) (by decide), writes_sub_of_mem _ (unary_writes ..) (by decide), writes_sub_of_mem _ (binary_writes ..) (by decide),
    writes_sub_of_mem _ (reshape_writes ..) (by decide), writes_sub_of_mem _ (unary_writes ..) (by decide), writes_sub_of_mem _ (unary_writes ..) (by decide),
    writes_sub_of_mem _ (unary_writes ..) (by decide), writes_sub_of_mem _ (nullary_writes ..) (by decide), writes_sub_of_mem _ (unary_writes ..) (by decide),
    writes_sub_of_mem _ (binary_writes ..) (by decide), writes_sub_of_mem _ (nullary_writes ..) (by decide), writes_sub_of_mem _ (unary_writes ..) (by decide),
    writes_sub_of_mem _ (binary_writes ..) (by decide), writes_sub_of_mem _ (unary_writes ..) (by decide), writes_sub_of_mem _ (nullary_writes ..) (by decide),
    writes_sub_of_mem _ (unary_writes ..) (by decide), writes_sub_of_mem _ (binary_writes ..) (by decide), writes_sub_of_mem _ (unary_writes ..) (by decide),
    writes_sub_of_mem _ (binary_writes ..) (by decide), writes_sub_of_mem _ (nullary_writes ..) (by decide), writes_sub_of_mem _ (binary_writes ..) (by decide),
    writes_sub_of_mem _ (nullary_writes ..) (by decide), writes_sub_of_mem _ (unary_writes ..) (by decide), writes_sub_of_mem _ (binary_writes ..) (by decide),
    writes_sub_of_mem _ (unary_writes ..) (by decide), writes_sub_of_mem _ (unary_writes ..) (by decide), writes_sub_of_mem _ (binary_writes ..) (by decide),
    writes_sub_of_mem _ (unary_writes ..) (by decide), writes_sub_of_mem _ (nullary_writes ..) (by decide), writes_sub_of_mem _ (binary_writes ..) (by decide),
    writes_sub_of_mem _ (unary_writes ..) (by decide), writes_sub_of_mem _ (unary_writes ..) (by decide), writes_sub_of_mem _ (binary_writes ..) (by decide),
    writes_sub_of_mem _ (binary_writes ..) (by decide), writes_sub_of_mem _ (reshape_writes ..) (by decide), writes_sub_of_mem _ (unary_writes ..) (by decide),
    writes_sub_of_mem _ (reshape_writes ..) (by decide), writes_sub_of_mem _ (binary_writes ..) (by decide), writes_sub_of_mem _ (unary_writes ..) (by decide),
    writes_sub_of_mem _ (unary_writes ..) (by decide), writes_sub_of_mem _ (binary_writes ..) (by decide)⟩

/-- A reference no operation writes keeps its contents through the line. -/
theorem kept (V : Valuation τ sig (Elt F)) (r : Ref sig .tc) (h : r ∉ ops_W) :
    StableHlo.after ops V (Proc.devRef .tc r) = V (Proc.devRef .tc r) :=
  after_of_writes_sub ops V ops_writes h

/-! No operation writes an argument: each ends as launched. -/
theorem arg0_kept (m : (ℓ : Loc nD τ sig) → Buf (Elt F) ℓ) (d : Dev nD) :
    StableHlo.after ops (StableHlo.launchContents m d) (Proc.devRef .tc main_arg0) = m ((d.tc : Thread nD τ).loc main_arg0) :=
  kept _ main_arg0 (by decide)
theorem arg1_kept (m : (ℓ : Loc nD τ sig) → Buf (Elt F) ℓ) (d : Dev nD) :
    StableHlo.after ops (StableHlo.launchContents m d) (Proc.devRef .tc main_arg1) = m ((d.tc : Thread nD τ).loc main_arg1) :=
  kept _ main_arg1 (by decide)
theorem arg2_kept (m : (ℓ : Loc nD τ sig) → Buf (Elt F) ℓ) (d : Dev nD) :
    StableHlo.after ops (StableHlo.launchContents m d) (Proc.devRef .tc main_arg2) = m ((d.tc : Thread nD τ).loc main_arg2) :=
  kept _ main_arg2 (by decide)
theorem arg3_kept (m : (ℓ : Loc nD τ sig) → Buf (Elt F) ℓ) (d : Dev nD) :
    StableHlo.after ops (StableHlo.launchContents m d) (Proc.devRef .tc main_arg3) = m ((d.tc : Thread nD τ).loc main_arg3) :=
  kept _ main_arg3 (by decide)
theorem arg4_kept (m : (ℓ : Loc nD τ sig) → Buf (Elt F) ℓ) (d : Dev nD) :
    StableHlo.after ops (StableHlo.launchContents m d) (Proc.devRef .tc main_arg4) = m ((d.tc : Thread nD τ).loc main_arg4) :=
  kept _ main_arg4 (by decide)
theorem arg5_kept (m : (ℓ : Loc nD τ sig) → Buf (Elt F) ℓ) (d : Dev nD) :
    StableHlo.after ops (StableHlo.launchContents m d) (Proc.devRef .tc main_arg5) = m ((d.tc : Thread nD τ).loc main_arg5) :=
  kept _ main_arg5 (by decide)
theorem arg6_kept (m : (ℓ : Loc nD τ sig) → Buf (Elt F) ℓ) (d : Dev nD) :
    StableHlo.after ops (StableHlo.launchContents m d) (Proc.devRef .tc main_arg6) = m ((d.tc : Thread nD τ).loc main_arg6) :=
  kept _ main_arg6 (by decide)
theorem arg7_kept (m : (ℓ : Loc nD τ sig) → Buf (Elt F) ℓ) (d : Dev nD) :
    StableHlo.after ops (StableHlo.launchContents m d) (Proc.devRef .tc main_arg7) = m ((d.tc : Thread nD τ).loc main_arg7) :=
  kept _ main_arg7 (by decide)
theorem arg8_kept (m : (ℓ : Loc nD τ sig) → Buf (Elt F) ℓ) (d : Dev nD) :
    StableHlo.after ops (StableHlo.launchContents m d) (Proc.devRef .tc main_arg8) = m ((d.tc : Thread nD τ).loc main_arg8) :=
  kept _ main_arg8 (by decide)
theorem arg9_kept (m : (ℓ : Loc nD τ sig) → Buf (Elt F) ℓ) (d : Dev nD) :
    StableHlo.after ops (StableHlo.launchContents m d) (Proc.devRef .tc main_arg9) = m ((d.tc : Thread nD τ).loc main_arg9) :=
  kept _ main_arg9 (by decide)

/-- The arguments are unchanged by the run. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c),
      (h c main_arg8).trans (arg8_kept m c),
      (h c main_arg9).trans (arg9_kept m c)⟩)
    (run_all m ρ)

end Cert.ReferenceIdeal.RefRun

end
-- ==== Proof.KI.Plumb.lean ====
import proofs.«404274_j11819749998707_3_alg».proof.Proof.KI.Run
import Idealize.ShloMosaic.Lib.StableHlo.Run
import Idealize.ShloMosaic.PureOps.Ideal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil)
open Cert.KernelIdeal Cert.KernelIdeal.Gen

variable (m : (ℓ : Loc nD τ sig) → Buf (Elt Ideal) ℓ) (ρ : Dev nD → PrngReg) (c : Dev nD)

/-! # The host operations between the regions

What each region finds in its input arrays, and what the program returns, as the host operations' functions of the
launch memory and of the previous region's output array. -/

/-- A concatenation of three operands leaves, at its result, its function of the three operands' contents, each read
    at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The fold of a line of operations at one reference: each operation's result at its own reference is its function of
    its operands' contents, and at any other reference what was there. -/
macro "results_at" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-! ## The stages -/

/-- The projection's bias: the query bias, zeros for the keys, the value bias. -/
def concatFn (qb vb : FVec Ideal S512 .f32) : FVec Ideal S1536 .f32 :=
  concatenate S1536 0 [⟨S512, qb⟩, ⟨S512, broadcastInDim S512 ![] bcast_S_S512 (constant (F := Ideal) S_ .f32 0x00000000#32)⟩, ⟨S512, vb⟩] concatenates_S512_S512_S512_S1536_d0

/-- The query, key and value thirds of the projection's output. -/
def sliceQ (x : FVec Ideal S4x128x128x1536 .bf16) : FVec Ideal S4x128x128x512 .bf16 :=
  extractStridedSlice S4x128x128x512 ![0, 0, 0, 0] x slices_S4x128x128x1536_S4x128x128x512_0_0_0_0
def sliceK (x : FVec Ideal S4x128x128x1536 .bf16) : FVec Ideal S4x128x128x512 .bf16 :=
  extractStridedSlice S4x128x128x512 ![0, 0, 0, 512] x slices_S4x128x128x1536_S4x128x128x512_0_0_0_512
def sliceV (x : FVec Ideal S4x128x128x1536 .bf16) : FVec Ideal S4x128x128x512 .bf16 :=
  extractStridedSlice S4x128x128x512 ![0, 0, 0, 1024] x slices_S4x128x128x1536_S4x128x128x512_0_0_0_1024

/-- The partition into windows and heads: split the two image axes and the channel axis, bring the window axes to
    the front, merge. -/
def partFn (x : FVec Ideal S4x128x128x512 .bf16) : FVec Ideal S1024x16x64x32 .bf16 :=
  shapeCast S1024x16x64x32
    (transpose S4x16x16x16x8x8x32 [0, 2, 4, 5, 1, 3, 6]
      (shapeCast S4x8x16x8x16x16x32 x shapeCasts_S4x128x128x512_S4x8x16x8x16x16x32)
      transposes_S4x8x16x8x16x16x32_S4x16x16x16x8x8x32_0_2_4_5_1_3_6)
    shapeCasts_S4x16x16x16x8x8x32_S1024x16x64x32

/-- The partition undone. -/
def revFn (x : FVec Ideal S1024x16x64x32 .bf16) : FVec Ideal S4x128x128x512 .bf16 :=
  shapeCast S4x128x128x512
    (transpose S4x8x16x8x16x16x32 [0, 4, 1, 5, 2, 3, 6]
      (shapeCast S4x16x16x16x8x8x32 x shapeCasts_S1024x16x64x32_S4x16x16x16x8x8x32)
      transposes_S4x16x16x16x8x8x32_S4x8x16x8x16x16x32_0_4_1_5_2_3_6)
    shapeCasts_S4x8x16x8x16x16x32_S4x128x128x512

/-- The temperature: the exponential of the logit scale capped at log 100. -/
def tempFn (s : FVec Ideal S16x1x1 .f32) : FVec Ideal S16x1x1 .f32 :=
  Host.exp (minimumf s (broadcastInDim S16x1x1 ![] bcast_S_S16x1x1 (constant (F := Ideal) S_ .f32 0x40935D8E#32)))

/-- The table of relative coordinates and the table of relative position indices. -/
def tableF : FVec Ideal S225x2 .f32 := fun i => FloatOps.ofBits .f32 (lit0 (S225x2.rowMajor i))
def tableI : IVec S4096 32 := fun i => lit1 (S4096.rowMajor i)

/-- The relative position bias before its scale: a two-layer network on the coordinate table, gathered at the position
    indices (a negative index wrapped), laid out per head, through the logistic function. -/
def sigFn (w1 : FVec Ideal S2x512 .f32) (b1 : FVec Ideal S512 .f32) (w2 : FVec Ideal S512x16 .f32) : FVec Ideal S16x64x64 .f32 :=
  Host.divf (broadcastInDim S16x64x64 ![] bcast_S_S16x64x64 (constant (F := Ideal) S_ .f32 0x3F800000#32))
    (addf (broadcastInDim S16x64x64 ![] bcast_S_S16x64x64 (constant (F := Ideal) S_ .f32 0x3F800000#32))
      (Host.exp (Host.negf (transpose S16x64x64 [2, 0, 1]
        (shapeCast S64x64x16
          (Host.gather gather_S225x16_S4096x1_S4096x16_1_0_n_n_0_1_116
            (Host.dotGeneral dot_S225x512_S512x16_S225x16_1_0_0_1_n_n none
              (maximumf
                (addf (Host.dotGeneral dot_S225x2_S2x512_S225x512_1_0_0_1_n_n none tableF w1)
                  (broadcastInDim S225x512 ![0, 1] bcast_S1x512_S225x512_0_1 (broadcastInDim S1x512 ![1] bcast_S512_S1x512_1 b1)))
                (broadcastInDim S225x512 ![] bcast_S_S225x512 (constant (F := Ideal) S_ .f32 0x00000000#32)))
              w2)
            (broadcastInDim S4096x1 ![0] bcast_S4096_S4096x1_0
              (select (cmpi .slt tableI (broadcastInDim S4096 ![] bcast_S_S4096 (constantI S_ 32 0#32)))
                (addi tableI (broadcastInDim S4096 ![] bcast_S_S4096 (constantI S_ 32 225#32)))
                tableI)))
          shapeCasts_S4096x16_S64x64x16)
        transposes_S64x64x16_S16x64x64_2_0_1))))

/-- The bias's scale, sixteen. -/
def bias16 (s : FVec Ideal S16x64x64 .f32) : FVec Ideal S16x64x64 .f32 :=
  mulf (broadcastInDim S16x64x64 ![] bcast_S_S16x64x64 (constant (F := Ideal) S_ .f32 0x41800000#32)) s

/-! ## The arguments and the two tables at the boundaries where a stretch reads them -/

theorem W2_arg4 : W2 m ρ c (Proc.devRef .tc main_arg4) = m ((c : Thread nD τ).loc main_arg4) :=
  (W2_of_ne m ρ c main_arg4 (by decide)).trans ((W1_of m ρ c main_arg4 (by decide)).trans rfl)
theorem W2_arg5 : W2 m ρ c (Proc.devRef .tc main_arg5) = m ((c : Thread nD τ).loc main_arg5) :=
  (W2_of_ne m ρ c main_arg5 (by decide)).trans ((W1_of m ρ c main_arg5 (by decide)).trans rfl)
theorem W2_arg6 : W2 m ρ c (Proc.devRef .tc main_arg6) = m ((c : Thread nD τ).loc main_arg6) :=
  (W2_of_ne m ρ c main_arg6 (by decide)).trans ((W1_of m ρ c main_arg6 (by decide)).trans rfl)
theorem W4_arg7 : W4 m ρ c (Proc.devRef .tc main_arg7) = m ((c : Thread nD τ).loc main_arg7) :=
  (W4_of m ρ c main_arg7 (by decide)).trans <| (W3_of m ρ c main_arg7 (by decide)).trans <|
    (W2_of_ne m ρ c main_arg7 (by decide)).trans ((W1_of m ρ c main_arg7 (by decide)).trans rfl)
theorem W6_arg8 : W6 m ρ c (Proc.devRef .tc main_arg8) = m ((c : Thread nD τ).loc main_arg8) :=
  (W6_of_ne m ρ c main_arg8 (by decide)).trans <| (W5_of m ρ c main_arg8 (by decide)).trans <|
    (W4_of m ρ c main_arg8 (by decide)).trans <| (W3_of m ρ c main_arg8 (by decide)).trans <|
    (W2_of_ne m ρ c main_arg8 (by decide)).trans ((W1_of m ρ c main_arg8 (by decide)).trans rfl)

/-- The coordinate table, written by the first stretch, is what the second stretch reads. -/
theorem W2_cst : @Eq (FVec Ideal S225x2 .f32) (W2 m ρ c (Proc.devRef .tc main_cst)) tableF := by
  refine (W2_of_ne m ρ c main_cst (by decide)).trans ?_
  show StableHlo.after hostOps0 _ (Proc.devRef .tc main_cst) = _
  results_at <;> rfl
/-- The index table, written by the first stretch, is what the stretch before region 1 reads. -/
theorem W4_c : @Eq (IVec S4096 32) (W4 m ρ c (Proc.devRef .tc main_c)) tableI := by
  refine (W4_of m ρ c main_c (by decide)).trans <| (W3_of m ρ c main_c (by decide)).trans <|
    (W2_of_ne m ρ c main_c (by decide)).trans ?_
  show StableHlo.after hostOps0 _ (Proc.devRef .tc main_c) = _
  results_at <;> rfl

/-! ## Region 0's inputs and output -/

theorem V1_v0 : @Eq (FVec Ideal S65536x512 .f32) (V1 m ρ c main_v0)
    (shapeCast S65536x512 (m ((c : Thread nD τ).loc main_arg0)) shapeCasts_S4x128x128x512_S65536x512) := by
  show StableHlo.after hostOps0 _ (Proc.devRef .tc main_v0) = _
  results_at <;> rfl
theorem V1_v3 : @Eq (FVec Ideal S512x1536 .bf16) (V1 m ρ c main_v3)
    (truncf (F := Ideal) .bf16 (m ((c : Thread nD τ).loc main_arg1)) bitsLt_bf16_f32) := by
  show StableHlo.after hostOps0 _ (Proc.devRef .tc main_v3) = _
  results_at <;> rfl
theorem V1_v2 : @Eq (FVec Ideal S1536 .f32) (V1 m ρ c main_v2)
    (concatFn (m ((c : Thread nD τ).loc main_arg2)) (m ((c : Thread nD τ).loc main_arg3))) := by
  show StableHlo.after hostOps0 _ (Proc.devRef .tc main_v2) = _
  results_at <;> rfl
theorem W2_v4 : W2 m ρ c (Proc.devRef .tc main_v4) = (dat0 (V1 m ρ) c).arrAt 3 cfg0.N := W2_arr m ρ c 3

/-! ## Region 1's inputs and output -/

theorem V5_v11 : @Eq (FVec Ideal S1024x16x64x32 .bf16) (V5 m ρ c main_v11)
    (partFn (sliceQ (shapeCast S4x128x128x1536 (W2 m ρ c (Proc.devRef .tc main_v4)) shapeCasts_S65536x1536_S4x128x128x1536))) := by
  refine (W5_of m ρ c main_v11 (by decide)).trans <| (W4_of m ρ c main_v11 (by decide)).trans ?_
  show StableHlo.after hostOps1 _ (Proc.devRef .tc main_v11) = _
  results_at <;> rfl
theorem V5_v14 : @Eq (FVec Ideal S1024x16x64x32 .bf16) (V5 m ρ c main_v14)
    (partFn (sliceK (shapeCast S4x128x128x1536 (W2 m ρ c (Proc.devRef .tc main_v4)) shapeCasts_S65536x1536_S4x128x128x1536))) := by
  refine (W5_of m ρ c main_v14 (by decide)).trans <| (W4_of m ρ c main_v14 (by decide)).trans ?_
  show StableHlo.after hostOps1 _ (Proc.devRef .tc main_v14) = _
  results_at <;> rfl
theorem V5_v17 : @Eq (FVec Ideal S1024x16x64x32 .bf16) (V5 m ρ c main_v17)
    (partFn (sliceV (shapeCast S4x128x128x1536 (W2 m ρ c (Proc.devRef .tc main_v4)) shapeCasts_S65536x1536_S4x128x128x1536))) := by
  refine (W5_of m ρ c main_v17 (by decide)).trans <| (W4_of m ρ c main_v17 (by decide)).trans ?_
  show StableHlo.after hostOps1 _ (Proc.devRef .tc main_v17) = _
  results_at <;> rfl
theorem V5_v20 : @Eq (FVec Ideal S16x1x1 .f32) (V5 m ρ c main_v20) (tempFn (m ((c : Thread nD τ).loc main_arg4))) := by
  refine (W5_of m ρ c main_v20 (by decide)).trans <| (W4_of m ρ c main_v20 (by decide)).trans ?_
  show StableHlo.after hostOps1 _ (Proc.devRef .tc main_v20) = _
  results_at
  rw [W2_arg4]
  rfl

/-- The network's first layer before its rectifier, and the rectifier. -/
def hid1 (t : FVec Ideal S225x2 .f32) (w1 : FVec Ideal S2x512 .f32) (b1 : FVec Ideal S512 .f32) : FVec Ideal S225x512 .f32 :=
  addf (Host.dotGeneral dot_S225x2_S2x512_S225x512_1_0_0_1_n_n none t w1)
    (broadcastInDim S225x512 ![0, 1] bcast_S1x512_S225x512_0_1 (broadcastInDim S1x512 ![1] bcast_S512_S1x512_1 b1))
def relu0 (h : FVec Ideal S225x512 .f32) : FVec Ideal S225x512 .f32 :=
  maximumf h (broadcastInDim S225x512 ![] bcast_S_S225x512 (constant (F := Ideal) S_ .f32 0x00000000#32))
/-- The first layer, over any contents the second stretch starts from. -/
theorem ops1_v24 (X : Valuation τ sig (Elt Ideal)) :
    @Eq (FVec Ideal S225x512 .f32) (StableHlo.after hostOps1 X (Proc.devRef .tc main_v24))
      (hid1 (X (Proc.devRef .tc main_cst)) (X (Proc.devRef .tc main_arg5)) (X (Proc.devRef .tc main_arg6))) := by
  results_at <;> rfl
/-- The rectifier, over any contents its stretch starts from. -/
theorem ops1_1_v25 (X : Valuation τ sig (Elt Ideal)) :
    @Eq (FVec Ideal S225x512 .f32) (StableHlo.after hostOps1_1 X (Proc.devRef .tc main_v25))
      (relu0 (X (Proc.devRef .tc main_v24))) := by
  results_at <;> rfl
/-- The network's second layer, the gather at the position indices and the logistic function, scaled: over any
    contents the stretch before region 1 starts from. -/
def sigTail (h : FVec Ideal S225x512 .f32) (w2 : FVec Ideal S512x16 .f32) (ix : IVec S4096 32) : FVec Ideal S16x64x64 .f32 :=
  Host.divf (broadcastInDim S16x64x64 ![] bcast_S_S16x64x64 (constant (F := Ideal) S_ .f32 0x3F800000#32))
    (addf (broadcastInDim S16x64x64 ![] bcast_S_S16x64x64 (constant (F := Ideal) S_ .f32 0x3F800000#32))
      (Host.exp (Host.negf (transpose S16x64x64 [2, 0, 1]
        (shapeCast S64x64x16
          (Host.gather gather_S225x16_S4096x1_S4096x16_1_0_n_n_0_1_116
            (Host.dotGeneral dot_S225x512_S512x16_S225x16_1_0_0_1_n_n none h w2)
            (broadcastInDim S4096x1 ![0] bcast_S4096_S4096x1_0
              (select (cmpi .slt ix (broadcastInDim S4096 ![] bcast_S_S4096 (constantI S_ 32 0#32)))
                (addi ix (broadcastInDim S4096 ![] bcast_S_S4096 (constantI S_ 32 225#32)))
                ix)))
          shapeCasts_S4096x16_S64x64x16)
        transposes_S64x64x16_S16x64x64_2_0_1))))
theorem ops1_2_v43 (X : Valuation τ sig (Elt Ideal)) :
    @Eq (FVec Ideal S16x64x64 .f32) (StableHlo.after hostOps1_2 X (Proc.devRef .tc main_v43))
      (bias16 (sigTail (X (Proc.devRef .tc main_v25)) (X (Proc.devRef .tc main_arg7)) (X (Proc.devRef .tc main_c)))) := by
  results_at <;> rfl
theorem W3_v24 : @Eq (FVec Ideal S225x512 .f32) (W3 m ρ c (Proc.devRef .tc main_v24))
    (hid1 tableF (m ((c : Thread nD τ).loc main_arg5)) (m ((c : Thread nD τ).loc main_arg6))) := by
  refine (ops1_v24 (W2 m ρ c)).trans ?_
  rw [W2_cst, W2_arg5, W2_arg6]
theorem W4_v25 : @Eq (FVec Ideal S225x512 .f32) (W4 m ρ c (Proc.devRef .tc main_v25))
    (relu0 (hid1 tableF (m ((c : Thread nD τ).loc main_arg5)) (m ((c : Thread nD τ).loc main_arg6)))) := by
  refine (ops1_1_v25 (W3 m ρ c)).trans ?_
  rw [W3_v24]
theorem V5_v43 : @Eq (FVec Ideal S16x64x64 .f32) (V5 m ρ c main_v43)
    (bias16 (sigFn (m ((c : Thread nD τ).loc main_arg5)) (m ((c : Thread nD τ).loc main_arg6)) (m ((c : Thread nD τ).loc main_arg7)))) := by
  refine (ops1_2_v43 (W4 m ρ c)).trans ?_
  rw [W4_v25, W4_arg7, W4_c]
  rfl
theorem W6_v44 : W6 m ρ c (Proc.devRef .tc main_v44) = (dat1 (V5 m ρ) c).arrAt 5 cfg1.N := W6_arr m ρ c 5

/-! ## Region 2's inputs and output, and the program's result -/

theorem V7_v48 : @Eq (FVec Ideal S65536x512 .bf16) (V7 m ρ c main_v48)
    (shapeCast S65536x512 (revFn (W6 m ρ c (Proc.devRef .tc main_v44))) shapeCasts_S4x128x128x512_S65536x512) := by
  show StableHlo.after hostOps2 _ (Proc.devRef .tc main_v48) = _
  results_at <;> rfl
theorem V7_v49 : @Eq (FVec Ideal S512x512 .bf16) (V7 m ρ c main_v49)
    (truncf (F := Ideal) .bf16 (m ((c : Thread nD τ).loc main_arg8)) bitsLt_bf16_f32) := by
  show StableHlo.after hostOps2 _ (Proc.devRef .tc main_v49) = _
  results_at
  rw [W6_arg8]
theorem V7_arg9 : V7 m ρ c main_arg9 = m ((c : Thread nD τ).loc main_arg9) :=
  (W7_of m ρ c main_arg9 (by decide)).trans <| (W6_of_ne m ρ c main_arg9 (by decide)).trans <|
    (W5_of m ρ c main_arg9 (by decide)).trans <| (W4_of m ρ c main_arg9 (by decide)).trans <|
    (W3_of m ρ c main_arg9 (by decide)).trans <| (W2_of_ne m ρ c main_arg9 (by decide)).trans <|
    (W1_of m ρ c main_arg9 (by decide)).trans rfl
theorem W8_v50 : W8 m ρ c (Proc.devRef .tc main_v50) = (dat2 (V7 m ρ) c).arrAt 3 cfg2.N := W8_arr m ρ c 3
theorem W9_v51 : @Eq (FVec Ideal S4x128x128x512 .f32) (W9 m ρ c (Proc.devRef .tc main_v51))
    (shapeCast S4x128x128x512 (W8 m ρ c (Proc.devRef .tc main_v50)) shapeCasts_S65536x512_S4x128x128x512) := by
  show StableHlo.after hostOps3 _ (Proc.devRef .tc main_v51) = _
  results_at <;> rfl

end Cert.KernelIdeal.Fr

end
-- ==== Proof.Spec.Attn.lean ====
import Idealize.ShloMosaic.PureOps.Ideal
import Idealize.ShloMosaic.PureOps.Ideal.Laws
import Idealize.ShloMosaic.Lib.ValueIdx

/-!
# What the two programs compute, element by element, on the extended reals

Three functions. `mmb`: a row of a matrix times a matrix plus a row vector (both projections). `headK` and `headR`:
one attention head over a window of 64 tokens with 32 channels — rows of queries and keys scaled to unit length
(the squared length floored at a small constant before the inverse square root), the logits their inner products
times a temperature plus a bias, a softmax over each row, the result the softmax rows times the values. The two
heads differ only in where the temperature multiplies: the inner product as a whole (`logitK`) or each query
entry before the product (`logitR`). For a temperature that is nonnegative and not `⊤` multiplication by it
distributes over every sum of extended reals, so the two agree (`headK_eq_headR`).
-/

noncomputable section

open scoped BigOperators

namespace Cert.Spec

open Idealize.ShloMosaic Idealize.ShloMosaic.ValueIdx

/-- Row `r` of `x` times column `n` of `w`, plus entry `n` of `b`. -/
def mmb {M K N : Nat} (x : (⟨2, ![M, K]⟩ : Shape).Idx → EReal) (w : (⟨2, ![K, N]⟩ : Shape).Idx → EReal)
    (b : (⟨1, ![N]⟩ : Shape).Idx → EReal) (r : Fin M) (n : Fin N) : EReal :=
  (∑ k : Fin K, x (ix2 r k) * w (ix2 k n)) + b (ix1 n)

/-- The floor under a row's squared length (the same word in both programs; never evaluated). -/
def eps : EReal := Ideal.ofBits .f32 0x378205FF#32

/-- The value a row maximum starts from (the same word in both programs; never evaluated). -/
def negInf : EReal := Ideal.ofBits .f32 0xFF800000#32

/-- A row scaled by the inverse square root of its squared length, floored at `eps`. -/
def l2n (q : Fin 64 → Fin 32 → EReal) (l : Fin 64) (d : Fin 32) : EReal :=
  q l d * Ideal.rsqrt (max (∑ e : Fin 32, q l e * q l e) eps)

/-- A row's maximum, as both programs take it: the fold of `max` from `negInf`, then once more against `negInf`. -/
def rowMax (z : Fin 64 → EReal) : EReal :=
  max negInf ((Finset.univ : Finset (Fin 64)).fold max negInf z)

/-- The softmax of a row at entry `j`. -/
def softmaxRow (z : Fin 64 → EReal) (j : Fin 64) : EReal :=
  Ideal.div (Ideal.exp (z j - rowMax z)) (∑ j' : Fin 64, Ideal.exp (z j' - rowMax z))

/-- Logits with the temperature applied to the inner product. -/
def logitK (qn kn : Fin 64 → Fin 32 → EReal) (t : EReal) (rb : Fin 64 → Fin 64 → EReal) (l j : Fin 64) : EReal :=
  (∑ d : Fin 32, qn l d * kn j d) * t + rb l j

/-- Logits with the temperature applied to each query entry. -/
def logitR (qn kn : Fin 64 → Fin 32 → EReal) (t : EReal) (rb : Fin 64 → Fin 64 → EReal) (l j : Fin 64) : EReal :=
  (∑ d : Fin 32, (qn l d * t) * kn j d) + rb l j

/-- Softmax rows of the logits times the values. -/
def head (logit : Fin 64 → Fin 64 → EReal) (v : Fin 64 → Fin 32 → EReal) (l : Fin 64) (d : Fin 32) : EReal :=
  ∑ j : Fin 64, softmaxRow (logit l) j * v j d

def headK (q k v : Fin 64 → Fin 32 → EReal) (t : EReal) (rb : Fin 64 → Fin 64 → EReal) : Fin 64 → Fin 32 → EReal :=
  head (logitK (l2n q) (l2n k) t rb) v

def headR (q k v : Fin 64 → Fin 32 → EReal) (t : EReal) (rb : Fin 64 → Fin 64 → EReal) : Fin 64 → Fin 32 → EReal :=
  head (logitR (l2n q) (l2n k) t rb) v

/-- Multiplication by a nonnegative finite factor distributes over a finite sum of extended reals. -/
theorem sum_mul_of_nonneg_of_ne_top {ι : Type} (s : Finset ι) (f : ι → EReal) {t : EReal} (ht0 : 0 ≤ t) (htop : t ≠ ⊤) :
    (∑ i ∈ s, f i) * t = ∑ i ∈ s, f i * t := by
  classical
  -- induction on the index set; each step is right distributivity for a nonnegative finite factor
  induction s using Finset.induction_on with
  | empty => simp
  | insert a s ha ih =>
    rw [Finset.sum_insert ha, Finset.sum_insert ha, EReal.right_distrib_of_nonneg_of_ne_top ht0 htop, ih]

theorem logitK_eq_logitR (qn kn : Fin 64 → Fin 32 → EReal) {t : EReal} (ht0 : 0 ≤ t) (htop : t ≠ ⊤)
    (rb : Fin 64 → Fin 64 → EReal) : logitK qn kn t rb = logitR qn kn t rb := by
  funext l j
  unfold logitK logitR
  -- the temperature moves out of each term (commutativity), then out of the sum (distributivity)
  rw [sum_mul_of_nonneg_of_ne_top _ _ ht0 htop]
  congr 1
  exact Finset.sum_congr rfl (fun d _ => mul_right_comm _ _ _)

theorem headK_eq_headR (q k v : Fin 64 → Fin 32 → EReal) {t : EReal} (ht0 : 0 ≤ t) (htop : t ≠ ⊤)
    (rb : Fin 64 → Fin 64 → EReal) : headK q k v t rb = headR q k v t rb := by
  unfold headK headR; rw [logitK_eq_logitR _ _ ht0 htop]

/-- The exponential of an extended real is nonnegative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- The exponential of an extended real below `⊤` is below `⊤`. -/
theorem exp_ne_top {x : EReal} (h : x ≠ ⊤) : Ideal.exp x ≠ ⊤ := by
  induction x using EReal.rec with
  | bot => rw [Ideal.exp_bot]; exact EReal.zero_ne_top
  | coe r => rw [Ideal.exp_coe]; exact EReal.coe_ne_top _
  | top => exact absurd rfl h

end Cert.Spec

end
-- ==== Proof.KI.Value0.lean ====
import proofs.«404274_j11819749998707_3_alg».proof.Proof.KI.Region0
import proofs.«404274_j11819749998707_3_alg».proof.Proof.Spec.Attn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 0 leaves in its output array, at the ideal values

Every row block of the output array is the block's rows of the input times the weight matrix plus the bias; the
blocks tile the array, so the whole array is that one function of the three input arrays. -/

/-- The product's dimension numbers: rows of the left operand against columns of the right. -/
abbrev D0 : DotDims S1024x512 S512x1536 S1024x1536 := Cert.KernelIdeal.dot_S1024x512_S512x1536_S1024x1536_1_0_0_1_n_n

theorem D0_rank : D0.contr.rank = 1 := rfl
theorem D0_size : D0.contr.size ⟨0, by rw [D0_rank]; exact Nat.one_pos⟩ = 512 := rfl

theorem lhs0_0 (j : S1024x1536.Idx) (k : D0.contr.Idx) : ((D0.lhsIdx j k) (0 : Fin 2) : ℕ) = (j (0 : Fin 2)).val := by
  simp [DotDims.lhsIdx, D0, Cert.KernelIdeal.dot_S1024x512_S512x1536_S1024x1536_1_0_0_1_n_n]; rfl
theorem lhs0_1 (j : S1024x1536.Idx) (k : D0.contr.Idx) : ((D0.lhsIdx j k) (1 : Fin 2) : ℕ) = (k ⟨0, by rw [D0_rank]; exact Nat.one_pos⟩).val :=
  D0.lhsIdx_val_of_single (cl := (1 : Fin 2)) rfl j k
theorem rhs0_0 (j : S1024x1536.Idx) (k : D0.contr.Idx) : ((D0.rhsIdx j k) (0 : Fin 2) : ℕ) = (k ⟨0, by rw [D0_rank]; exact Nat.one_pos⟩).val :=
  D0.rhsIdx_val_of_single (cr := (0 : Fin 2)) rfl j k
theorem rhs0_1 (j : S1024x1536.Idx) (k : D0.contr.Idx) : ((D0.rhsIdx j k) (1 : Fin 2) : ℕ) = (j (1 : Fin 2)).val := by
  simp [DotDims.rhsIdx, D0, Cert.KernelIdeal.dot_S1024x512_S512x1536_S1024x1536_1_0_0_1_n_n]; rfl

/-- The left operand's index at output `(p, q)` and contraction position `i` is `(p, i)`. -/
theorem lhs0_ix (p : Fin 1024) (q : Fin 1536) (i : Fin 512) :
    D0.lhsIdx (ix2 p q) ((contrEquiv1 D0 512 D0_rank D0_size).symm i) = ix2 p i :=
  Shape.idx_ext₂ (lhs0_0 _ _) ((lhs0_1 _ _).trans (contrEquiv1_symm_val D0 512 D0_rank D0_size i))

/-- The right operand's index there is `(i, q)`. -/
theorem rhs0_ix (p : Fin 1024) (q : Fin 1536) (i : Fin 512) :
    D0.rhsIdx (ix2 p q) ((contrEquiv1 D0 512 D0_rank D0_size).symm i) = ix2 i q :=
  Shape.idx_ext₂ ((rhs0_0 _ _).trans (contrEquiv1_symm_val D0 512 D0_rank D0_size i)) (rhs0_1 _ _)

/-- The block product into the zero splat, at `(p, q)`: row `p` of the left block against column `q` of the right. -/
theorem mm0_apply (a : FVec Ideal S1024x512 .bf16) (b : FVec Ideal S512x1536 .bf16) (p : Fin 1024) (q : Fin 1536) :
    matmul D0 none a b (constant (F := Ideal) S1024x1536 .f32 0x00000000#32) (ix2 p q) = ∑ i : Fin 512, a (ix2 p i) * b (ix2 i q) := by
  refine (Ideal.matmul_constant_zero_apply D0 none a b (ix2 p q)).trans ?_
  refine (Equiv.sum_comp (contrEquiv1 D0 512 D0_rank D0_size).symm _).symm.trans ?_
  refine Finset.sum_congr rfl fun i _ => ?_
  rw [lhs0_ix, rhs0_ix]

/-- The bias vector as a one-row matrix, repeated down the rows: at `(p, q)` it is entry `q`. -/
theorem bias0_apply (x2 : S1536.Idx → EReal) (h1 : S1536.ShapeCasts S1x1536) (h2 : S1x1536.Broadcasts S1024x1536)
    (p : Fin 1024) (q : Fin 1536) :
    broadcastTo S1024x1536 (shapeCast S1x1536 x2 h1) h2 (ix2 p q) = x2 (ix1 q) := by
  refine (broadcastTo_apply _ h2 (ix2 p q) (ix2 (0 : Fin 1) q) ?_).trans ?_
  · intro a
    match a with
    | ⟨0, _⟩ => rfl
    | ⟨1, _⟩ => rfl
  · refine (shapeCast_addUnit_apply ![1536] x2 h1 (ix2 (0 : Fin 1) q)).trans ?_
    refine congrArg x2 (funext fun a => ?_)
    match a with
    | ⟨0, _⟩ => rfl

/-- The body's stored value at `(p, q)`: the product of the loaded blocks there plus the bias entry. -/
theorem pay0_apply (x0 : Vec Ideal S1024x512 .f32) (x1 : Vec Ideal S512x1536 .bf16) (x2 : Vec Ideal S1536 .f32)
    (p : Fin 1024) (q : Fin 1536) :
    k0_pay1 (F := Ideal) x0 x1 x2 (ix2 p q) = (∑ i : Fin 512, x0 (ix2 p i) * x1 (ix2 i q)) + x2 (ix1 q) := by
  unfold k0_pay1
  simp only [shapeCast_self]
  rw [truncf_apply, addf_apply]
  refine congrArg₂ (· + ·) ?_ ?_
  · exact mm0_apply _ x1 p q
  · exact bias0_apply x2 _ _ p q

theorem hz0_2 : (![0, 0] : Fin 2 → Nat) = fun _ => 0 := funext fun a => by fin_cases a <;> rfl
theorem hz0_1 : (![0] : Fin 1 → Nat) = fun _ => 0 := funext fun a => by fin_cases a <;> rfl

/-- The whole output array as one function of the three input arrays: at `(r, n)` row `r` of the input times
    column `n` of the weights plus entry `n` of the bias. -/
abbrev G0 (x : (⟨2, ![65536, 512]⟩ : Shape).Idx → EReal) (w : (⟨2, ![512, 1536]⟩ : Shape).Idx → EReal)
    (b : (⟨1, ![1536]⟩ : Shape).Idx → EReal) : (⟨2, ![65536, 1536]⟩ : Shape).Idx → EReal :=
  fun j => Cert.Spec.mmb (M := 65536) (K := 512) (N := 1536) x w b (j 0 : Fin 65536) (j 1 : Fin 1536)

/-- The printed index maps, decided over the grid: the input's row block moves with the output's, which is the
    point's own number; every other block index is zero. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The body's stored value at any index of the block. -/
theorem pay0_at (x0 : Vec Ideal S1024x512 .f32) (x1 : Vec Ideal S512x1536 .bf16) (x2 : Vec Ideal S1536 .f32) (y : S1024x1536.Idx) :
    k0_pay1 (F := Ideal) x0 x1 x2 y
      = (∑ i : Fin 512, x0 (ix2 (y 0 : Fin 1024) i) * x1 (ix2 i (y 1 : Fin 1536))) + x2 (ix1 (y 1 : Fin 1536)) := by
  exact (congrArg (k0_pay1 (F := Ideal) x0 x1 x2) (eq_ix2 y)).trans (pay0_apply x0 x1 x2 (y 0) (y 1))

/-- Row `p` of point `t`'s input block is row `t * 1024 + p` of the input array. -/
theorem read0_0 (c : Dev nD) (t : Fin cfg0.N) (p : Fin 1024) (i : Fin 512) (R : Fin 65536) (hR : R.val = t.val * 1024 + p.val) :
    iblk0 V c 0 t (ix2 p i) = V c main_v0 (ix2 R i : (⟨2, ![65536, 512]⟩ : Shape).Idx) := by
  obtain ⟨e0, e1, e2, e3, e4, e5, e6⟩ := idx_facts0 t
  show V c main_v0 (((cfg0.win 0).blk t).view.emb (ix2 p i)) = V c main_v0 (ix2 R i : (⟨2, ![65536, 512]⟩ : Shape).Idx)
  refine congrArg (V c main_v0) (funext fun a => Fin.ext ?_)
  match a with
  | ⟨0, _⟩ => show win0_0.index t (0 : Fin 2) * 1024 + 1 * p.val = R.val; omega
  | ⟨1, _⟩ => show win0_0.index t (1 : Fin 2) * 512 + 1 * i.val = i.val; omega

/-- The weight block is the weight array whole. -/
theorem read0_1 (c : Dev nD) (t : Fin cfg0.N) (i : Fin 512) (q : Fin 1536) :
    iblk0 V c 1 t (ix2 i q) = V c main_v3 (ix2 i q : (⟨2, ![512, 1536]⟩ : Shape).Idx) := by
  obtain ⟨e0, e1, e2, e3, e4, e5, e6⟩ := idx_facts0 t
  show V c main_v3 (((cfg0.win 1).blk t).view.emb (ix2 i q)) = V c main_v3 (ix2 i q : (⟨2, ![512, 1536]⟩ : Shape).Idx)
  refine congrArg (V c main_v3) (funext fun a => Fin.ext ?_)
  match a with
  | ⟨0, _⟩ => show win0_1.index t (0 : Fin 2) * 512 + 1 * i.val = i.val; omega
  | ⟨1, _⟩ => show win0_1.index t (1 : Fin 2) * 1536 + 1 * q.val = q.val; omega

/-- The bias block is the bias array whole. -/
theorem read0_2 (c : Dev nD) (t : Fin cfg0.N) (q : Fin 1536) :
    iblk0 V c 2 t (ix1 q) = V c main_v2 (ix1 q : (⟨1, ![1536]⟩ : Shape).Idx) := by
  obtain ⟨e0, e1, e2, e3, e4, e5, e6⟩ := idx_facts0 t
  show V c main_v2 (((cfg0.win 2).blk t).view.emb (ix1 q)) = V c main_v2 (ix1 q : (⟨1, ![1536]⟩ : Shape).Idx)
  refine congrArg (V c main_v2) (funext fun a => Fin.ext ?_)
  match a with
  | ⟨0, _⟩ => show win0_2.index t (0 : Fin 1) * 1536 + 1 * q.val = q.val; omega

/-- At point `t` the formula of the loaded blocks at `(p, q)` is the whole-array formula at row `t * 1024 + p`. -/
theorem blk0_eq (c : Dev nD) (t : Fin cfg0.N) (p : Fin 1024) (q : Fin 1536) (R : Fin 65536) (N : Fin 1536)
    (hR : R.val = t.val * 1024 + p.val) (hN : N.val = q.val)
    (x0 : Vec Ideal S1024x512 .f32) (x1 : Vec Ideal S512x1536 .bf16) (x2 : Vec Ideal S1536 .f32)
    (h0 : x0 = iblk0 V c 0 t) (h1 : x1 = iblk0 V c 1 t) (h2 : x2 = iblk0 V c 2 t) :
    (∑ i : Fin 512, x0 (ix2 p i) * x1 (ix2 i q)) + x2 (ix1 q)
      = Cert.Spec.mmb (M := 65536) (K := 512) (N := 1536) (V c main_v0) (V c main_v3) (V c main_v2) R N := by
  obtain rfl : N = q := Fin.ext hN
  subst h0 h1 h2
  unfold Cert.Spec.mmb
  rw [read0_2]
  refine congrArg (· + _) (Finset.sum_congr rfl fun i _ => ?_)
  rw [read0_0 V c t p i R hR, read0_1]

theorem flushed0_eq (c : Dev nD) (t : Fin cfg0.N) :
    (dat0 (F := Ideal) V c).flushed 3 t = ((cfg0.win 3).blk t).view.read (Elt Ideal) (G0 (V c main_v0) (V c main_v3) (V c main_v2)) := by
  show (cfg0.win 3).cut (grid0.coords t) ((dat0 V c).after 3 t) = _
  rw [after0_3]
  unfold out0_3
  rw [View.canon_unit_zero hz0_2]
  simp only [View.ld_unit_zero (S := S1024x512) hz0_2, View.ld_unit_zero (S := S512x1536) hz0_2, View.ld_unit_zero (S := S1536) hz0_1]
  funext y
  obtain ⟨e0, e1, e2, e3, e4, e5, e6⟩ := idx_facts0 t
  refine (pay0_at _ _ _ _).trans ?_
  show _ = G0 (V c main_v0) (V c main_v3) (V c main_v2) (((cfg0.win 3).blk t).view.emb y)
  refine blk0_eq V c t _ _ _ _ ?_ ?_ _ _ _ rfl rfl rfl
  · show win0_3.index t (0 : Fin 2) * 1024 + 1 * (y 0).val = t.val * 1024 + (y 0).val; omega
  · show win0_3.index t (1 : Fin 2) * 1536 + 1 * (y 1).val = (y 1).val; omega

/-- An index of the output array is in point `t`'s block iff each coordinate is in the block's range on its axis. -/
theorem mem_blk0 (t : Fin cfg0.N) (i : (⟨2, ![65536, 1536]⟩ : Shape).Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v4).slice (win0_3.rect t)).set ↔ _
  rw [View.set_slice_whole, Rect.mem_set_unit]
  exact Iff.rfl

/-- The row blocks tile the output array: row `r` lies in the block of point `r / 1024`. -/
theorem cover0 (i : (⟨2, ![65536, 1536]⟩ : Shape).Idx) :
    ∃ t : Fin cfg0.N, (cfg0.win 3).flush t = true ∧ i ∈ ((cfg0.win 3).blk t).view.set := by
  have hi0 : (i 0).val < 65536 := (i 0).isLt
  have hi1 : (i 1).val < 1536 := (i 1).isLt
  have ht : (i 0).val / 1024 < 64 := by omega
  refine ⟨⟨(i 0).val / 1024, ht⟩, flush0_3 _, ?_⟩
  obtain ⟨e0, e1, e2, e3, e4, e5, e6⟩ := idx_facts0 ⟨(i 0).val / 1024, ht⟩
  have e5' : win0_3.index ⟨(i 0).val / 1024, ht⟩ (0 : Fin 2) = (i 0).val / 1024 := e5
  rw [mem_blk0]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    omega
  | ⟨1, _⟩ =>
    show win0_3.index ⟨(i 0).val / 1024, ht⟩ (1 : Fin 2) * 1536 ≤ (i 1).val ∧ (i 1).val < win0_3.index ⟨(i 0).val / 1024, ht⟩ (1 : Fin 2) * 1536 + 1536
    omega

/-- The output array after the region, at row `r` and column `n`. -/
theorem final0 (c : Dev nD) (r : Fin 65536) (n : Fin 1536) :
    (dat0 (F := Ideal) V c).arrAt 3 cfg0.N (ix2 r n)
      = Cert.Spec.mmb (M := 65536) (K := 512) (N := 1536) (V c main_v0) (V c main_v3) (V c main_v2) r n := by
  have h := (dat0 (F := Ideal) V c).arrAt_eq_of_cover 3 (G0 (V c main_v0) (V c main_v3) (V c main_v2))
    (fun t _ => flushed0_eq V c t) cover0
  exact congrFun h (ix2 r n)

end Cert.KernelIdeal.Fr

end
-- ==== Proof.KI.Value1Lay.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

/-!
# Rank-4 layout operations and last-axis reductions, read at one element

* the cast [a, b, c] → [a, b, c, 1] read at (r, i, j, 0) (`col_apply`), the broadcast of an [a, b, c, 1] vector along
  its last axis read at (r, i, j, k) (`bcastLast_apply`), and the two together (`keep_apply`): the operand at (r, i, j);
* the broadcasts of a [1, b, 1, 1] and of a [1, b, c, d] vector to [a, b, c, d] (`bcastAxis1_apply`, `bcastLead_apply`);
* the casts that merge the two leading axes of [a, b, c, d] into one of extent a·b and split it again: position
  r·b + i on the merged axis is (r, i) (`merge_apply`, `split_apply`);
* a sum, and a maximum, over the last axis of a rank-4 vector at the ideal values (`lastSum_apply`, `lastMax_apply`).
-/

noncomputable section

open scoped BigOperators

namespace Cert.Lay4

open Idealize.ShloMosaic Idealize.ShloMosaic.ValueIdx

variable {α : Type}

/-! ## Unit axes added and broadcast -/

/-- The cast [a, b, c] → [a, b, c, 1], read at (r, i, j, z), is the operand at (r, i, j): a trailing unit axis does
    not move the row-major position. -/
theorem col_apply {a b c : ℕ} (v : (⟨3, ![a, b, c]⟩ : Shape).Idx → α)
    (h : (⟨3, ![a, b, c]⟩ : Shape).ShapeCasts ⟨4, ![a, b, c, 1]⟩) (r : Fin a) (i : Fin b) (j : Fin c) (z : Fin 1) :
    shapeCast ⟨4, ![a, b, c, 1]⟩ v h (ix4 r i j z) = v (ix3 r i j) := by
  refine shapeCast_apply v h _ (ix3 r i j) ?_
  have hz : z.val = 0 := by omega
  rw [Shape.rowMajor_val_three, Shape.rowMajor_val_four]
  show (r.val * b + i.val) * c + j.val = ((r.val * b + i.val) * c + j.val) * 1 + z.val
  rw [hz, Nat.mul_one, Nat.add_zero]

/-- An [a, b, c, 1] vector broadcast along its last axis, read at (r, i, j, k), is the operand at (r, i, j, 0). -/
theorem bcastLast_apply {a b c d : ℕ} (v : (⟨4, ![a, b, c, 1]⟩ : Shape).Idx → α)
    (h : (⟨4, ![a, b, c, 1]⟩ : Shape).Broadcasts ⟨4, ![a, b, c, d]⟩) (r : Fin a) (i : Fin b) (j : Fin c) (k : Fin d) :
    broadcastTo ⟨4, ![a, b, c, d]⟩ v h (ix4 r i j k) = v (ix4 r i j (0 : Fin 1)) := by
  refine broadcastTo_apply v h (ix4 r i j k) (ix4 r i j (0 : Fin 1)) fun ax => ?_
  match ax with
  | ⟨0, _⟩ =>
    show r.val = if a = 1 then 0 else r.val
    split_ifs with e
    · subst e; omega
    · rfl
  | ⟨1, _⟩ =>
    show i.val = if b = 1 then 0 else i.val
    split_ifs with e
    · subst e; omega
    · rfl
  | ⟨2, _⟩ =>
    show j.val = if c = 1 then 0 else j.val
    split_ifs with e
    · subst e; omega
    · rfl
  | ⟨3, _⟩ => rfl

/-- The cast that adds the trailing unit axis followed by the broadcast along it (a reduction's result put back
    beside every entry of its row), read at (r, i, j, k): the operand at (r, i, j). -/
theorem keep_apply {a b c d : ℕ} (v : (⟨3, ![a, b, c]⟩ : Shape).Idx → α)
    (h1 : (⟨3, ![a, b, c]⟩ : Shape).ShapeCasts ⟨4, ![a, b, c, 1]⟩)
    (h2 : (⟨4, ![a, b, c, 1]⟩ : Shape).Broadcasts ⟨4, ![a, b, c, d]⟩) (r : Fin a) (i : Fin b) (j : Fin c) (k : Fin d) :
    broadcastTo ⟨4, ![a, b, c, d]⟩ (shapeCast ⟨4, ![a, b, c, 1]⟩ v h1) h2 (ix4 r i j k) = v (ix3 r i j) :=
  (bcastLast_apply _ h2 r i j k).trans (col_apply v h1 r i j _)

/-- A [1, b, 1, 1] vector broadcast to [a, b, c, d], read at (r, i, j, k), is the operand at (0, i, 0, 0). -/
theorem bcastAxis1_apply {a b c d : ℕ} (v : (⟨4, ![1, b, 1, 1]⟩ : Shape).Idx → α)
    (h : (⟨4, ![1, b, 1, 1]⟩ : Shape).Broadcasts ⟨4, ![a, b, c, d]⟩) (r : Fin a) (i : Fin b) (j : Fin c) (k : Fin d) :
    broadcastTo ⟨4, ![a, b, c, d]⟩ v h (ix4 r i j k) = v (ix4 (0 : Fin 1) i (0 : Fin 1) (0 : Fin 1)) := by
  refine broadcastTo_apply v h (ix4 r i j k) (ix4 (0 : Fin 1) i (0 : Fin 1) (0 : Fin 1)) fun ax => ?_
  match ax with
  | ⟨0, _⟩ => rfl
  | ⟨1, _⟩ =>
    show i.val = if b = 1 then 0 else i.val
    split_ifs with e
    · subst e; omega
    · rfl
  | ⟨2, _⟩ => rfl
  | ⟨3, _⟩ => rfl

/-- A [1, b, c, d] vector broadcast to [a, b, c, d], read at (r, i, j, k), is the operand at (0, i, j, k). -/
theorem bcastLead_apply {a b c d : ℕ} (v : (⟨4, ![1, b, c, d]⟩ : Shape).Idx → α)
    (h : (⟨4, ![1, b, c, d]⟩ : Shape).Broadcasts ⟨4, ![a, b, c, d]⟩) (r : Fin a) (i : Fin b) (j : Fin c) (k : Fin d) :
    broadcastTo ⟨4, ![a, b, c, d]⟩ v h (ix4 r i j k) = v (ix4 (0 : Fin 1) i j k) := by
  refine broadcastTo_apply v h (ix4 r i j k) (ix4 (0 : Fin 1) i j k) fun ax => ?_
  match ax with
  | ⟨0, _⟩ => rfl
  | ⟨1, _⟩ =>
    show i.val = if b = 1 then 0 else i.val
    split_ifs with e
    · subst e; omega
    · rfl
  | ⟨2, _⟩ =>
    show j.val = if c = 1 then 0 else j.val
    split_ifs with e
    · subst e; omega
    · rfl
  | ⟨3, _⟩ =>
    show k.val = if d = 1 then 0 else k.val
    split_ifs with e
    · subst e; omega
    · rfl

/-! ## The two leading axes merged and split -/

/-- [a, b, c, d] cast to [m, c, d], the two leading axes merged: position `p = r·b + i` of the merged axis reads
    the operand at (r, i). Both sides have row-major position ((r·b + i)·c + j)·d + k. -/
theorem merge_apply {a b c d m : ℕ} (x : (⟨4, ![a, b, c, d]⟩ : Shape).Idx → α)
    (h : (⟨4, ![a, b, c, d]⟩ : Shape).ShapeCasts ⟨3, ![m, c, d]⟩) (p : Fin m) (r : Fin a) (i : Fin b) (j : Fin c) (k : Fin d)
    (hp : p.val = r.val * b + i.val) : shapeCast ⟨3, ![m, c, d]⟩ x h (ix3 p j k) = x (ix4 r i j k) := by
  refine shapeCast_apply x h _ (ix4 r i j k) ?_
  rw [Shape.rowMajor_val_four, Shape.rowMajor_val_three]
  show ((r.val * b + i.val) * c + j.val) * d + k.val = (p.val * c + j.val) * d + k.val
  rw [hp]

/-- [m, c, d] cast to [a, b, c, d], the leading axis split: (r, i) reads position `p = r·b + i` of the operand. -/
theorem split_apply {a b c d m : ℕ} (x : (⟨3, ![m, c, d]⟩ : Shape).Idx → α)
    (h : (⟨3, ![m, c, d]⟩ : Shape).ShapeCasts ⟨4, ![a, b, c, d]⟩) (p : Fin m) (r : Fin a) (i : Fin b) (j : Fin c) (k : Fin d)
    (hp : p.val = r.val * b + i.val) : shapeCast ⟨4, ![a, b, c, d]⟩ x h (ix4 r i j k) = x (ix3 p j k) := by
  refine shapeCast_apply x h _ (ix3 p j k) ?_
  rw [Shape.rowMajor_val_four, Shape.rowMajor_val_three]
  show (p.val * c + j.val) * d + k.val = ((r.val * b + i.val) * c + j.val) * d + k.val
  rw [hp]

/-! ## Reductions over the last axis, at the ideal values -/

/-- The index a reduction over the last axis puts back: the reduced index with the coordinate appended. -/
theorem lift_last {a b c d : ℕ} (h : (⟨4, ![a, b, c, d]⟩ : Shape).Reduces [3] ⟨3, ![a, b, c]⟩) (r : Fin a) (i : Fin b)
    (j : Fin c) (k : Fin ((⟨4, ![a, b, c, d]⟩ : Shape).size 3)) : h.lift (ix3 r i j) k = ix4 r i j ⟨k.val, k.isLt⟩ := by
  funext e; apply Fin.ext
  fin_cases e <;> rfl

/-- The sum over the last axis, at (r, i, j): the sum of the row's entries. -/
theorem lastSum_apply {a b c d : ℕ} (x : FVec Ideal ⟨4, ![a, b, c, d]⟩ .f32) (acc : BitVec 32)
    (h : (⟨4, ![a, b, c, d]⟩ : Shape).Reduces [3] ⟨3, ![a, b, c]⟩) (hφ : FKind.Formats .f32)
    (hacc : acc = FKind.add.neutral .f32 hφ) (r : Fin a) (i : Fin b) (j : Fin c) :
    multiReduction .add [3] ⟨3, ![a, b, c]⟩ x acc h hφ hacc (ix3 r i j) = ∑ k : Fin d, x (ix4 r i j k) := by
  refine (Ideal.multiReduction_add_single x acc h hφ hacc (ix3 r i j)).trans ?_
  exact Finset.sum_congr rfl fun k _ => congrArg x (lift_last h r i j k)

/-- The maximum over the last axis, at (r, i, j): the fold of `max` over the row from the accumulator's value. -/
theorem lastMax_apply {a b c d : ℕ} (x : FVec Ideal ⟨4, ![a, b, c, d]⟩ .f32) (acc : BitVec 32)
    (h : (⟨4, ![a, b, c, d]⟩ : Shape).Reduces [3] ⟨3, ![a, b, c]⟩) (hφ : FKind.Formats .f32)
    (hacc : acc = FKind.maximumf.neutral .f32 hφ) (r : Fin a) (i : Fin b) (j : Fin c) :
    multiReduction .maximumf [3] ⟨3, ![a, b, c]⟩ x acc h hφ hacc (ix3 r i j)
      = (Finset.univ : Finset (Fin d)).fold max (Ideal.ofBits .f32 acc) (fun k => x (ix4 r i j k)) := by
  refine (Ideal.multiReduction_maximumf_single x acc h hφ hacc (ix3 r i j)).trans ?_
  exact congrArg (fun f => Finset.fold max (Ideal.ofBits .f32 acc) f (Finset.univ : Finset (Fin d)))
    (funext fun k => congrArg x (lift_last h r i j k))

end Cert.Lay4

end
-- ==== Proof.KI.Value1Pay.lean ====
import proofs.«404274_j11819749998707_3_alg».proof.Proof.Gen.KernelIdeal.Skeleton
import proofs.«404274_j11819749998707_3_alg».proof.Proof.Spec.Attn
import proofs.«404274_j11819749998707_3_alg».proof.Proof.KI.Value1Lay
import Idealize.ShloMosaic.Lib.Pipeline.Value
import Idealize.ShloMosaic.Lib.ValueIdx
import Idealize.ShloMosaic.Lib.ValueLayout
import Idealize.ShloMosaic.PureOps.Ideal.Laws

/-!
# The attention body's logits before the bias, read at one entry

The body scales each row of the query block and of the key block by the inverse square root of its squared length
(floored), merges the window and head axes, multiplies queries by keys transposed head by head, splits the axes again
and multiplies by the head's temperature. At window `a`, head `h`, tokens `l`, `j` this is the inner product of the unit
rows `l` of the queries and `j` of the keys of that window and head, times the head's temperature.
-/

set_option maxRecDepth 16384

noncomputable section

open scoped BigOperators

namespace Cert.KernelIdeal.Fr

open Idealize.ShloMosaic Idealize.ShloMosaic.ValueIdx
open Cert.KernelIdeal Cert.KernelIdeal.Gen

/-! ## Rows scaled to unit length -/

/-- The body's text for a block of rows scaled to unit length: each entry times the inverse square root of the larger
    of its row's sum of squares and the floor, the row's value put back beside every entry of the row. -/
def unitRows (v : FVec Ideal S4x16x64x32 .f32) : FVec Ideal S4x16x64x32 .f32 :=
  mulf v (broadcastTo S4x16x64x32
    (rsqrt (maximumf
      (shapeCast S4x16x64x1 (multiReduction .add [3] S4x16x64 (mulf v v) 0x00000000#32 reduces_S4x16x64x32_S4x16x64 (.inl rfl) rfl) shapeCasts_S4x16x64_S4x16x64x1)
      (broadcast S4x16x64x1 (Scalar.ofBits .f32 0x378205FF#32))))
    broadcasts_S4x16x64x1_S4x16x64x32)

/-- At one entry it is the specification's unit row of that window and head. -/
theorem unitRows_apply (v : FVec Ideal S4x16x64x32 .f32) (a : Fin 4) (h : Fin 16) (l : Fin 64) (d : Fin 32) :
    unitRows v (ix4 a h l d) = Cert.Spec.l2n (fun l d => v (ix4 a h l d)) l d := by
  unfold unitRows Cert.Spec.l2n
  rw [mulf_apply]
  refine congrArg (v (ix4 a h l d) * ·) ?_
  refine (Cert.Lay4.bcastLast_apply _ _ a h l d).trans ?_
  show Ideal.rsqrt (max (shapeCast S4x16x64x1 _ shapeCasts_S4x16x64_S4x16x64x1 (ix4 a h l (0 : Fin 1))) (Ideal.ofBits .f32 0x378205FF#32)) = _
  refine congrArg (fun s => Ideal.rsqrt (max s Cert.Spec.eps)) ?_
  refine (Cert.Lay4.col_apply _ _ a h l (0 : Fin 1)).trans ?_
  refine (Cert.Lay4.lastSum_apply _ _ _ _ _ a h l).trans ?_
  rfl

/-! ## Queries times keys transposed, head by head

The product's operand indices, axis by axis: both operands' leading axis reads the output's (the merged window and
head), their middle axes read the output's two token coordinates, and their last axes the contracted coordinate. -/

private theorem qk_lhs0 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.lhsIdx j k 0).val = (j 0).val := rfl
private theorem qk_lhs1 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.lhsIdx j k 1).val = (j 1).val := rfl
private theorem qk_lhs2 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.lhsIdx j k 2).val = (k ⟨0, by decide⟩).val :=
  DotDims.lhsIdx_val_of_single _ (cl := 2) rfl j k
private theorem qk_rhs0 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.rhsIdx j k 0).val = (j 0).val := rfl
private theorem qk_rhs1 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.rhsIdx j k 1).val = (j 2).val := rfl
private theorem qk_rhs2 (j : S64x64x64.Idx) (k : Cert.KernelIdeal.dot_S64x64x32_S64x64x32_S64x64x64_2_2_1_1_0_0.contr.Idx) :
    (Cert.KernelIdeal.dot_S64x64x32_S64x64x32_S64x64x64_2_2_1_1_0_0.rhsIdx j k 2).val = (k ⟨0, by decide⟩).val :=
  DotDims.rhsIdx_val_of_single _ (cr := 2) rfl j k

/-- The product into the zero splat at one entry: the sum over the channel of the two rows' products, re-indexed from
    the one-axis contraction index to its coordinate. -/
theorem qk_apply (A B : FVec Ideal S64x64x32 .bf16) (p l j : Fin 64) :
    matmul Cert.KernelIdeal.dot_S64x64x32_S64x64x32_S64x64x64_2_2_1_1_0_0 none A B (constant S64x64x64 .f32 0x00000000#32) (ix3 p l j)
      = ∑ d : Fin 32, A (ix3 p l d) * B (ix3 p j d) := by
  simp only [matmul]
  rw [Ideal.matmul_constant_zero_apply, ← Equiv.sum_comp (contrEquiv1 Cert.KernelIdeal.dot_S64x64x32_S64x64x32_S64x64x64_2_2_1_1_0_0 32 rfl rfl).symm]
  refine Finset.sum_congr rfl fun c _ => ?_
  have c1 := contrEquiv1_symm_val Cert.KernelIdeal.dot_S64x64x32_S64x64x32_S64x64x64_2_2_1_1_0_0 32 rfl rfl c
  have e1 : Cert.KernelIdeal.dot_S64x64x32_S64x64x32_S64x64x64_2_2_1_1_0_0.lhsIdx (ix3 p l j) ((contrEquiv1 Cert.KernelIdeal.dot_S64x64x32_S64x64x32_S64x64x64_2_2_1_1_0_0 32 rfl rfl).symm c) = ix3 p l c := by
    funext ax; apply Fin.ext
    match ax with
    | ⟨0, _⟩ => exact qk_lhs0 _ _
    | ⟨1, _⟩ => exact qk_lhs1 _ _
    | ⟨2, _⟩ => exact (qk_lhs2 _ _).trans c1
  have e2 : Cert.KernelIdeal.dot_S64x64x32_S64x64x32_S64x64x64_2_2_1_1_0_0.rhsIdx (ix3 p l j) ((contrEquiv1 Cert.KernelIdeal.dot_S64x64x32_S64x64x32_S64x64x64_2_2_1_1_0_0 32 rfl rfl).symm c) = ix3 p j c := by
    funext ax; apply Fin.ext
    match ax with
    | ⟨0, _⟩ => exact qk_rhs0 _ _
    | ⟨1, _⟩ => exact qk_rhs1 _ _
    | ⟨2, _⟩ => exact (qk_rhs2 _ _).trans c1
  rw [e1, e2]

/-! ## The scaled inner products -/

/-- The body's text from two blocks of unit rows and the temperatures: the window and head axes merged, the product
    head by head, the axes split again, times the temperature spread over windows and tokens. -/
def scaledDots (qn kn : FVec Ideal S4x16x64x32 .f32) (t : Vec Ideal S16x1x1 .f32) : FVec Ideal S4x16x64x64 .f32 :=
  mulf (shapeCast S4x16x64x64
      (matmul dot_S64x64x32_S64x64x32_S64x64x64_2_2_1_1_0_0 none
        (truncf .bf16 (shapeCast S64x64x32 qn shapeCasts_S4x16x64x32_S64x64x32) bitsLt_bf16_f32)
        (truncf .bf16 (shapeCast S64x64x32 kn shapeCasts_S4x16x64x32_S64x64x32) bitsLt_bf16_f32)
        (constant S64x64x64 .f32 0x00000000#32))
      shapeCasts_S64x64x64_S4x16x64x64)
    (broadcastTo S4x16x64x64
      (shapeCast S1x16x1x1 (shapeCast S16x1x1 t shapeCasts_S16x1x1_S16x1x1) shapeCasts_S16x1x1_S1x16x1x1)
      broadcasts_S1x16x1x1_S4x16x64x64)

/-- At window `a`, head `h`, tokens `l`, `j`: the inner product of row `l` of the first block and row `j` of the second,
    of that window and head (position `a·16 + h` of the merged axis), times the head's temperature. -/
theorem scaledDots_apply (qn kn : FVec Ideal S4x16x64x32 .f32) (t : Vec Ideal S16x1x1 .f32)
    (a : Fin 4) (h : Fin 16) (l j : Fin 64) :
    scaledDots qn kn t (ix4 a h l j)
      = (∑ d : Fin 32, qn (ix4 a h l d) * kn (ix4 a h j d)) * t (ix3 h (0 : Fin 1) (0 : Fin 1)) := by
  have hp : ((⟨a.val * 16 + h.val, by omega⟩ : Fin 64)).val = a.val * 16 + h.val := rfl
  unfold scaledDots
  rw [mulf_apply]
  refine congrArg₂ (· * ·) ?_ ?_
  · refine (Cert.Lay4.split_apply _ _ (⟨a.val * 16 + h.val, by omega⟩ : Fin 64) a h l j hp).trans ?_
    refine (qk_apply _ _ _ l j).trans ?_
    refine Finset.sum_congr rfl fun d _ => ?_
    rw [truncf_apply, truncf_apply]
    refine congrArg₂ (· * ·) ?_ ?_
    · exact Cert.Lay4.merge_apply qn _ _ a h l d hp
    · exact Cert.Lay4.merge_apply kn _ _ a h j d hp
  · refine (Cert.Lay4.bcastAxis1_apply _ _ a h l j).trans ?_
    refine (shapeCast_abc_1abc_apply _ _ (0 : Fin 1) h (0 : Fin 1) (0 : Fin 1)).trans ?_
    rw [shapeCast_self]

/-! ## The payloads -/

/-- The body's logits before the bias are the scaled inner products of the unit rows of the widened blocks. -/
theorem pay3_eq (x0 x1 : Vec Ideal S4x16x64x32 .bf16) (x4 : Vec Ideal S16x1x1 .f32) :
    k1_pay3 (F := Ideal) x0 x1 x4
      = scaledDots (unitRows (extf .f32 (shapeCast S4x16x64x32 x0 shapeCasts_S4x16x64x32_S4x16x64x32) bitsLt_bf16_f32))
          (unitRows (extf .f32 (shapeCast S4x16x64x32 x1 shapeCasts_S4x16x64x32_S4x16x64x32) bitsLt_bf16_f32)) x4 := rfl

/-- At window `a`, head `h`, tokens `l`, `j` of the block: the specification's inner product of the unit rows of that
    window's and head's queries and keys, times the head's temperature. -/
theorem pay3_apply (x0 x1 : Vec Ideal S4x16x64x32 .bf16) (x4 : Vec Ideal S16x1x1 .f32)
    (a : Fin 4) (h : Fin 16) (l j : Fin 64) :
    k1_pay3 (F := Ideal) x0 x1 x4 (ix4 a h l j)
      = (∑ d : Fin 32, Cert.Spec.l2n (fun l d => x0 (ix4 a h l d)) l d * Cert.Spec.l2n (fun l d => x1 (ix4 a h l d)) j d)
          * x4 (ix3 h (0 : Fin 1) (0 : Fin 1)) := by
  rw [pay3_eq, scaledDots_apply]
  simp only [unitRows_apply, extf_apply, shapeCast_self]

/-- The value block with its window and head axes merged, at position `p = a·16 + h`: the block at (a, h). -/
theorem pay2_apply (v6 : Vec Ideal S4x16x64x32 .bf16) (a : Fin 4) (h : Fin 16) (j : Fin 64) (d : Fin 32) (p : Fin 64)
    (hp : p.val = a.val * 16 + h.val) : k1_pay2 (F := Ideal) v6 (ix3 p j d) = v6 (ix4 a h j d) := by
  unfold k1_pay2
  rw [shapeCast_self]
  exact Cert.Lay4.merge_apply v6 _ p a h j d hp

end Cert.KernelIdeal.Fr

end
-- ==== Proof.KI.Value1Soft.lean ====
import proofs.«404274_j11819749998707_3_alg».proof.Proof.Gen.KernelIdeal.Skeleton
import proofs.«404274_j11819749998707_3_alg».proof.Proof.Spec.Attn
import proofs.«404274_j11819749998707_3_alg».proof.Proof.KI.Value1Lay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.ValueIdx
open Cert.KernelIdeal Cert.KernelIdeal.Gen
open scoped BigOperators

/-! # The attention kernel's stored value, read at one element

The softmax of the biased logits over the last axis, times the values: at block window `a`, head `h`, token `l`,
channel `d` the sum over `j` of the softmax row's entry `j` times the value at (a·16 + h, j, d). -/

/-- The stack of 64 products of [64, 64] by [64, 32] matrices (the stack axis the batch, the first's last axis contracted
    with the second's rows), into the zero splat, at (p, l, d): row `l` of matrix `p` times column `d`. -/
theorem mmVals_apply (P : FVec Ideal S64x64x64 .bf16) (V : FVec Ideal S64x64x32 .bf16) (p l : Fin 64) (d : Fin 32) :
    matmul (F := Ideal) Cert.KernelIdeal.dot_S64x64x64_S64x64x32_S64x64x32_2_1_1_2_0_0 none P V (constant (F := Ideal) S64x64x32 .f32 0x00000000#32) (ix3 p l d)
      = ∑ j : Fin 64, P (ix3 p l j) * V (ix3 p j d) := by
  show FloatOps.matmul _ none P V _ (ix3 p l d) = _
  rw [Ideal.matmul_constant_zero_apply,
    ← Equiv.sum_comp (contrEquiv1 Cert.KernelIdeal.dot_S64x64x64_S64x64x32_S64x64x32_2_1_1_2_0_0 64 rfl rfl).symm]
  refine Finset.sum_congr rfl fun c _ => ?_
  have c3 := contrEquiv1_symm_val Cert.KernelIdeal.dot_S64x64x64_S64x64x32_S64x64x32_2_1_1_2_0_0 64 rfl rfl c
  have l3 : Cert.KernelIdeal.dot_S64x64x64_S64x64x32_S64x64x32_2_1_1_2_0_0.lhsIdx (ix3 p l d)
      ((contrEquiv1 _ 64 rfl rfl).symm c) = ix3 p l c := by
    funext ax; apply Fin.ext
    match ax with
    | ⟨0, _⟩ => rfl
    | ⟨1, _⟩ => rfl
    | ⟨2, _⟩ => exact (DotDims.lhsIdx_val_of_single _ rfl _ _).trans c3
  have r3 : Cert.KernelIdeal.dot_S64x64x64_S64x64x32_S64x64x32_2_1_1_2_0_0.rhsIdx (ix3 p l d)
      ((contrEquiv1 _ 64 rfl rfl).symm c) = ix3 p c d := by
    funext ax; apply Fin.ext
    match ax with
    | ⟨0, _⟩ => rfl
    | ⟨1, _⟩ => exact (DotDims.rhsIdx_val_of_single _ rfl _ _).trans c3
    | ⟨2, _⟩ => rfl
  rw [l3, r3]

/-- The [16, 64, 64] bias table given a leading unit axis and broadcast over the four windows, at (a, h, l, j): the
    table at (h, l, j). -/
theorem bias1_apply {α : Type} (x : S16x64x64.Idx → α) (h1 : S16x64x64.ShapeCasts S1x16x64x64)
    (h2 : S1x16x64x64.Broadcasts S4x16x64x64) (a : Fin 4) (h : Fin 16) (l j : Fin 64) :
    broadcastTo S4x16x64x64 (shapeCast S1x16x64x64 x h1) h2 (ix4 a h l j) = x (ix3 h l j) :=
  (Cert.Lay4.bcastLead_apply _ h2 a h l j).trans (shapeCast_abc_1abc_apply x h1 0 h l j)

section Soft
variable (z : FVec Ideal S4x16x64x64 .f32) (hr : S4x16x64x64.Reduces [3] S4x16x64) (hφ : FKind.Formats .f32)
  (hm : (0xFF800000#32 : BitVec FTy.f32.bits) = FKind.maximumf.neutral .f32 hφ)
  (ha : (0x00000000#32 : BitVec FTy.f32.bits) = FKind.add.neutral .f32 hφ)
  (hc : S4x16x64.ShapeCasts S4x16x64x1) (hb : S4x16x64x1.Broadcasts S4x16x64x64)
  (a : Fin 4) (h : Fin 16) (l : Fin 64)

/-- The row maximum as the kernel takes it (the maximum over the last axis from the word of −∞, then once more against
    that word), at (a, h, l): the specification's `rowMax` of the row. -/
theorem rowMax1_apply :
    (maximumf (broadcast S4x16x64 (Scalar.ofBits (F := Ideal) .f32 0xFF800000#32)) (multiReduction .maximumf [3] S4x16x64 z 0xFF800000#32 hr hφ hm)) (ix3 a h l) = Cert.Spec.rowMax (fun j => z (ix4 a h l j)) := by
  unfold Cert.Spec.rowMax Cert.Spec.negInf
  rw [maximumf_apply, broadcast_apply]
  exact congrArg (max (Ideal.ofBits .f32 0xFF800000#32)) (Cert.Lay4.lastMax_apply z _ hr hφ hm a h l)

/-- The exponentials of a row's entries less a per-row value kept beside them, at (a, h, l, j). -/
theorem exp1_apply (mx : FVec Ideal S4x16x64 .f32) (j : Fin 64) :
    exp (subf z (broadcastTo S4x16x64x64 (shapeCast S4x16x64x1 mx hc) hb)) (ix4 a h l j) = Ideal.exp (z (ix4 a h l j) - mx (ix3 a h l)) := by
  show Ideal.exp (subf z _ (ix4 a h l j)) = _
  rw [subf_apply, Cert.Lay4.keep_apply]

/-- The kernel's softmax over the last axis, at (a, h, l, j): the specification's `softmaxRow` of the row. -/
theorem soft1_apply (j : Fin 64) :
    divf (exp (subf z (broadcastTo S4x16x64x64 (shapeCast S4x16x64x1 (maximumf (broadcast S4x16x64 (Scalar.ofBits (F := Ideal) .f32 0xFF800000#32)) (multiReduction .maximumf [3] S4x16x64 z 0xFF800000#32 hr hφ hm)) hc) hb))) (broadcastTo S4x16x64x64 (shapeCast S4x16x64x1 (multiReduction .add [3] S4x16x64 (exp (subf z (broadcastTo S4x16x64x64 (shapeCast S4x16x64x1 (maximumf (broadcast S4x16x64 (Scalar.ofBits (F := Ideal) .f32 0xFF800000#32)) (multiReduction .maximumf [3] S4x16x64 z 0xFF800000#32 hr hφ hm)) hc) hb))) 0x00000000#32 hr hφ ha) hc) hb) (ix4 a h l j)
      = Cert.Spec.softmaxRow (fun j => z (ix4 a h l j)) j := by
  unfold Cert.Spec.softmaxRow
  rw [divf_apply, Cert.Lay4.keep_apply, exp1_apply, rowMax1_apply]
  refine congrArg (Ideal.div _) ((Cert.Lay4.lastSum_apply _ _ hr hφ ha a h l).trans (Finset.sum_congr rfl fun j' _ => ?_))
  rw [exp1_apply, rowMax1_apply]

end Soft

/-- The stored value at (a, h, l, d) of the block: the softmax rows of the biased logits times the values of matrix
    `p = a·16 + h`. -/
theorem pay1_apply (v30 : FVec Ideal S64x64x32 .bf16) (v35 : FVec Ideal S4x16x64x64 .f32) (v36 : Vec Ideal S16x64x64 .f32)
    (a : Fin 4) (h : Fin 16) (l : Fin 64) (d : Fin 32) (p : Fin 64) (hp : p.val = a.val * 16 + h.val) :
    k1_pay1 (F := Ideal) v30 v35 v36 (ix4 a h l d)
      = ∑ j : Fin 64, Cert.Spec.softmaxRow (fun j => v35 (ix4 a h l j) + v36 (ix3 h l j)) j * v30 (ix3 p j d) := by
  unfold k1_pay1
  simp only [shapeCast_self]
  rw [truncf_apply]
  refine (Cert.Lay4.split_apply _ _ p a h l d hp).trans ?_
  rw [mmVals_apply]
  refine Finset.sum_congr rfl fun j _ => congrArg (· * v30 (ix3 p j d)) ?_
  rw [truncf_apply]
  refine (Cert.Lay4.merge_apply _ _ p a h l j hp).trans ?_
  refine (soft1_apply _ _ _ _ _ _ _ a h l j).trans ?_
  refine congrArg (fun f => Cert.Spec.softmaxRow f j) (funext fun j' => ?_)
  rw [addf_apply, bias1_apply]

end Cert.KernelIdeal.Fr

end
-- ==== Proof.KI.Value1.lean ====
import proofs.«404274_j11819749998707_3_alg».proof.Proof.KI.Region1
import proofs.«404274_j11819749998707_3_alg».proof.Proof.KI.Value1Pay
import proofs.«404274_j11819749998707_3_alg».proof.Proof.KI.Value1Soft
import proofs.«404274_j11819749998707_3_alg».proof.Proof.Spec.Attn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 1 leaves in its output array, at the ideal values

Every block of four windows of the output array holds, head by head, the attention head of the block's queries,
keys and values with the head's temperature and bias; the blocks tile the array, so the whole array is that one
function of the five input arrays. -/

/-! ## The stored value at one entry of a block -/

/-- The body's stored value at window `a`, head `h`, token `l`, channel `d` of the block: the attention head of that
    window's and head's rows of the loaded blocks. The value matmul's rows are the softmax of the logits, the logits the
    scaled inner products of the unit rows plus the bias. -/
theorem body_apply (x0 x1 x2 : Vec Ideal S4x16x64x32 .bf16) (x3 : Vec Ideal S16x64x64 .f32) (x4 : Vec Ideal S16x1x1 .f32)
    (a : Fin 4) (h : Fin 16) (l : Fin 64) (d : Fin 32) :
    k1_pay1 (F := Ideal) (k1_pay2 x2) (k1_pay3 x0 x1 x4) x3 (ix4 a h l d)
      = Cert.Spec.headK (fun l d => x0 (ix4 a h l d)) (fun l d => x1 (ix4 a h l d)) (fun l d => x2 (ix4 a h l d))
          (x4 (ix3 h (0 : Fin 1) (0 : Fin 1))) (fun l j => x3 (ix3 h l j)) l d := by
  have hp : ((⟨a.val * 16 + h.val, by omega⟩ : Fin 64)).val = a.val * 16 + h.val := rfl
  rw [pay1_apply _ _ _ a h l d _ hp]
  unfold Cert.Spec.headK Cert.Spec.head
  refine Finset.sum_congr rfl fun j _ => ?_
  rw [pay2_apply x2 a h j d _ hp]
  refine congrArg (fun z => Cert.Spec.softmaxRow z j * x2 (ix4 a h j d)) ?_
  funext j'
  rw [pay3_apply]
  rfl

/-- The same at any index of the block, by its coordinates. -/
theorem body_at (x0 x1 x2 : Vec Ideal S4x16x64x32 .bf16) (x3 : Vec Ideal S16x64x64 .f32) (x4 : Vec Ideal S16x1x1 .f32)
    (y : S4x16x64x32.Idx) :
    k1_pay1 (F := Ideal) (k1_pay2 x2) (k1_pay3 x0 x1 x4) x3 y
      = Cert.Spec.headK (fun l d => x0 (ix4 (y 0 : Fin 4) (y 1 : Fin 16) l d)) (fun l d => x1 (ix4 (y 0 : Fin 4) (y 1 : Fin 16) l d))
          (fun l d => x2 (ix4 (y 0 : Fin 4) (y 1 : Fin 16) l d))
          (x4 (ix3 (y 1 : Fin 16) (0 : Fin 1) (0 : Fin 1))) (fun l j => x3 (ix3 (y 1 : Fin 16) l j)) (y 2) (y 3) :=
  (congrArg (k1_pay1 (F := Ideal) (k1_pay2 x2) (k1_pay3 x0 x1 x4) x3) (eq_ix4 y)).trans
    (body_apply x0 x1 x2 x3 x4 (y 0) (y 1) (y 2) (y 3))

/-! ## The whole array as one function -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the output array ends holding: at window `g`, head `h`, token `l`, channel `d` the attention head of the
    rows of window `g` and head `h` of the queries, keys and values, with the head's temperature and bias. -/
def G1 (q k v : S1024x16x64x32.Idx → Elt Ideal .bf16) (rb : S16x64x64.Idx → Elt Ideal .f32) (t : S16x1x1.Idx → Elt Ideal .f32) :
    S1024x16x64x32.Idx → Elt Ideal .bf16 := fun i =>
  Cert.Spec.headK (fun l d => q (ix4 (i 0 : Fin 1024) (i 1 : Fin 16) l d)) (fun l d => k (ix4 (i 0 : Fin 1024) (i 1 : Fin 16) l d))
    (fun l d => v (ix4 (i 0 : Fin 1024) (i 1 : Fin 16) l d)) (t (ix3 (i 1 : Fin 16) (0 : Fin 1) (0 : Fin 1)))
    (fun l j => rb (ix3 (i 1 : Fin 16) l j)) (i 2) (i 3)

/-- The printed index maps, decided over the grid: the query, key, value and output windows sit at block `t` of the
    window axis and at block zero of the others; the bias table and the temperatures at block zero. -/
theorem idx_facts1 : ∀ t : Fin cfg1.N,
    win1_5.index t (0 : Fin 4) = t.val ∧ win1_5.index t (1 : Fin 4) = 0 ∧ win1_5.index t (2 : Fin 4) = 0 ∧ win1_5.index t (3 : Fin 4) = 0
    ∧ win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = 0 ∧ win1_4.index t (2 : Fin 3) = 0 :=
  (by decide +kernel : ∀ t : Fin grid1.N, _)

/-- The attention head depends on its arguments entry by entry. -/
theorem headK_congr {q q' k k' v v' : Fin 64 → Fin 32 → EReal} {t t' : EReal} {rb rb' : Fin 64 → Fin 64 → EReal}
    {l l' : Fin 64} {d d' : Fin 32} (hq : ∀ l d, q l d = q' l d) (hk : ∀ l d, k l d = k' l d) (hv : ∀ l d, v l d = v' l d)
    (ht : t = t') (hb : ∀ l j, rb l j = rb' l j) (hl : l = l') (hd : d = d') :
    Cert.Spec.headK q k v t rb l d = Cert.Spec.headK q' k' v' t' rb' l' d' := by
  have eq : q = q' := funext fun l => funext fun d => hq l d
  have ek : k = k' := funext fun l => funext fun d => hk l d
  have ev : v = v' := funext fun l => funext fun d => hv l d
  have eb : rb = rb' := funext fun l => funext fun j => hb l j
  subst eq ek ev eb ht hl hd
  rfl

/-- WHAT POINT `t` WRITES BACK is block `t` of `G1` of the five input arrays as the region finds them: the stored
    value at an entry is the head of the loaded blocks' rows, and each loaded block is its array read at the same
    window (the query, key, value and output blocks sit at the same place; the bias table and the temperatures are
    whole). -/
theorem flushed5_eq (c : Dev nD) (t : Fin cfg1.N) :
    (dat1 (F := Ideal) V c).flushed 5 t
      = ((cfg1.win 5).blk t).view.read (Elt Ideal) (G1 (V c main_v11) (V c main_v14) (V c main_v17) (V c main_v43) (V c main_v20)) := by
  show (cfg1.win 5).cut (grid1.coords t) ((dat1 V c).after 5 t) = _
  rw [after1_5]
  unfold out1_5
  rw [View.canon_unit_zero hz4]
  simp only [View.ld_unit_zero (S := S4x16x64x32) hz4, View.ld_unit_zero (S := S16x64x64) hz3, View.ld_unit_zero (S := S16x1x1) hz3]
  obtain ⟨o0, o1, o2, o3, q0, q1, q2, q3, k0, k1, k2, k3, v0, v1, v2, v3, b0, b1, b2, s0, s1, s2⟩ := idx_facts1 t
  funext y
  refine (body_at _ _ _ _ _ y).trans ?_
  show _ = G1 (V c main_v11) (V c main_v14) (V c main_v17) (V c main_v43) (V c main_v20) (((cfg1.win 5).blk t).view.emb y)
  unfold G1
  refine headK_congr (fun l d => ?_) (fun l d => ?_) (fun l d => ?_) ?_ (fun l j => ?_) ?_ ?_
  · show V c main_v11 (((cfg1.win 0).blk t).view.emb (ix4 (y 0) (y 1) l d)) = _
    refine congrArg (V c main_v11) ?_
    funext ax; apply Fin.ext
    match ax with
    | ⟨0, _⟩ => show win1_0.index t (0 : Fin 4) * 4 + 1 * (y 0).val = win1_5.index t (0 : Fin 4) * 4 + 1 * (y 0).val; omega
    | ⟨1, _⟩ => show win1_0.index t (1 : Fin 4) * 16 + 1 * (y 1).val = win1_5.index t (1 : Fin 4) * 16 + 1 * (y 1).val; omega
    | ⟨2, _⟩ => show win1_0.index t (2 : Fin 4) * 64 + 1 * l.val = l.val; omega
    | ⟨3, _⟩ => show win1_0.index t (3 : Fin 4) * 32 + 1 * d.val = d.val; omega
  · show V c main_v14 (((cfg1.win 1).blk t).view.emb (ix4 (y 0) (y 1) l d)) = _
    refine congrArg (V c main_v14) ?_
    funext ax; apply Fin.ext
    match ax with
    | ⟨0, _⟩ => show win1_1.index t (0 : Fin 4) * 4 + 1 * (y 0).val = win1_5.index t (0 : Fin 4) * 4 + 1 * (y 0).val; omega
    | ⟨1, _⟩ => show win1_1.index t (1 : Fin 4) * 16 + 1 * (y 1).val = win1_5.index t (1 : Fin 4) * 16 + 1 * (y 1).val; omega
    | ⟨2, _⟩ => show win1_1.index t (2 : Fin 4) * 64 + 1 * l.val = l.val; omega
    | ⟨3, _⟩ => show win1_1.index t (3 : Fin 4) * 32 + 1 * d.val = d.val; omega
  · show V c main_v17 (((cfg1.win 2).blk t).view.emb (ix4 (y 0) (y 1) l d)) = _
    refine congrArg (V c main_v17) ?_
    funext ax; apply Fin.ext
    match ax with
    | ⟨0, _⟩ => show win1_2.index t (0 : Fin 4) * 4 + 1 * (y 0).val = win1_5.index t (0 : Fin 4) * 4 + 1 * (y 0).val; omega
    | ⟨1, _⟩ => show win1_2.index t (1 : Fin 4) * 16 + 1 * (y 1).val = win1_5.index t (1 : Fin 4) * 16 + 1 * (y 1).val; omega
    | ⟨2, _⟩ => show win1_2.index t (2 : Fin 4) * 64 + 1 * l.val = l.val; omega
    | ⟨3, _⟩ => show win1_2.index t (3 : Fin 4) * 32 + 1 * d.val = d.val; omega
  · show V c main_v20 (((cfg1.win 4).blk t).view.emb (ix3 (y 1) (0 : Fin 1) (0 : Fin 1))) = _
    refine congrArg (V c main_v20) ?_
    funext ax; apply Fin.ext
    match ax with
    | ⟨0, _⟩ => show win1_4.index t (0 : Fin 3) * 16 + 1 * (y 1).val = win1_5.index t (1 : Fin 4) * 16 + 1 * (y 1).val; omega
    | ⟨1, _⟩ => show win1_4.index t (1 : Fin 3) * 1 + 1 * 0 = 0; omega
    | ⟨2, _⟩ => show win1_4.index t (2 : Fin 3) * 1 + 1 * 0 = 0; omega
  · show V c main_v43 (((cfg1.win 3).blk t).view.emb (ix3 (y 1) l j)) = _
    refine congrArg (V c main_v43) ?_
    funext ax; apply Fin.ext
    match ax with
    | ⟨0, _⟩ => show win1_3.index t (0 : Fin 3) * 16 + 1 * (y 1).val = win1_5.index t (1 : Fin 4) * 16 + 1 * (y 1).val; omega
    | ⟨1, _⟩ => show win1_3.index t (1 : Fin 3) * 64 + 1 * l.val = l.val; omega
    | ⟨2, _⟩ => show win1_3.index t (2 : Fin 3) * 64 + 1 * j.val = j.val; omega
  · apply Fin.ext
    show (y 2).val = win1_5.index t (2 : Fin 4) * 64 + 1 * (y 2).val
    omega
  · apply Fin.ext
    show (y 3).val = win1_5.index t (3 : Fin 4) * 32 + 1 * (y 3).val
    omega

/-! ## The cover -/

/-- An index of the array is in point `t`'s block iff each coordinate is in the block's range on its axis. -/
theorem mem_blk5 (t : Fin cfg1.N) (i : S1024x16x64x32.Idx) :
    i ∈ ((cfg1.win 5).blk t).view.set ↔ ∀ a : Fin 4, win1_5.index t a * S4x16x64x32.size a ≤ (i a).val ∧ (i a).val < win1_5.index t a * S4x16x64x32.size a + S4x16x64x32.size a := by
  show i ∈ ((View.whole main_v44).slice (win1_5.rect t)).set ↔ _
  rw [View.set_slice_whole, Rect.mem_set_unit]
  exact Iff.rfl

/-- Every index of the array is in the block of the point that is its window coordinate divided by four. -/
theorem cover5 (i : S1024x16x64x32.Idx) :
    ∃ t : Fin cfg1.N, (cfg1.win 5).flush t = true ∧ i ∈ ((cfg1.win 5).blk t).view.set := by
  have hi0 : (i 0).val < 1024 := (i 0).isLt
  have hi1 : (i 1).val < 16 := (i 1).isLt
  have hi2 : (i 2).val < 64 := (i 2).isLt
  have hi3 : (i 3).val < 32 := (i 3).isLt
  have hlt : (i 0).val / 4 < cfg1.N := by show (i 0).val / 4 < 256; omega
  obtain ⟨o0, o1, o2, o3, -⟩ := idx_facts1 ⟨(i 0).val / 4, hlt⟩
  have o0' : win1_5.index ⟨(i 0).val / 4, hlt⟩ (0 : Fin 4) = (i 0).val / 4 := o0
  refine ⟨⟨(i 0).val / 4, hlt⟩, flush1_5 _, ?_⟩
  rw [mem_blk5]
  intro a
  match a with
  | ⟨0, _⟩ => show win1_5.index ⟨(i 0).val / 4, hlt⟩ (0 : Fin 4) * 4 ≤ (i 0).val ∧ (i 0).val < win1_5.index ⟨(i 0).val / 4, hlt⟩ (0 : Fin 4) * 4 + 4; omega
  | ⟨1, _⟩ => show win1_5.index ⟨(i 0).val / 4, hlt⟩ (1 : Fin 4) * 16 ≤ (i 1).val ∧ (i 1).val < win1_5.index ⟨(i 0).val / 4, hlt⟩ (1 : Fin 4) * 16 + 16; omega
  | ⟨2, _⟩ => show win1_5.index ⟨(i 0).val / 4, hlt⟩ (2 : Fin 4) * 64 ≤ (i 2).val ∧ (i 2).val < win1_5.index ⟨(i 0).val / 4, hlt⟩ (2 : Fin 4) * 64 + 64; omega
  | ⟨3, _⟩ => show win1_5.index ⟨(i 0).val / 4, hlt⟩ (3 : Fin 4) * 32 ≤ (i 3).val ∧ (i 3).val < win1_5.index ⟨(i 0).val / 4, hlt⟩ (3 : Fin 4) * 32 + 32; omega

/-! ## The array after the region -/

/-- The output array after the region, at window `g`, head `h`, token `l`, channel `d`. -/
theorem final1 (c : Dev nD) (g : Fin 1024) (h : Fin 16) (l : Fin 64) (d : Fin 32) :
    (dat1 (F := Ideal) V c).arrAt 5 cfg1.N (ix4 g h l d)
      = Cert.Spec.headK (fun l d => V c main_v11 (ix4 g h l d)) (fun l d => V c main_v14 (ix4 g h l d))
          (fun l d => V c main_v17 (ix4 g h l d)) (V c main_v20 (ix3 h 0 0)) (fun l j => V c main_v43 (ix3 h l j)) l d := by
  have e := (dat1 (F := Ideal) V c).arrAt_eq_of_cover 5
    (G1 (V c main_v11) (V c main_v14) (V c main_v17) (V c main_v43) (V c main_v20)) (fun t _ => flushed5_eq V c t) cover5
  exact congrFun e (ix4 g h l d)

end Cert.KernelIdeal.Fr

end
-- ==== Proof.KI.Value2.lean ====
import proofs.«404274_j11819749998707_3_alg».proof.Proof.KI.Region2
import proofs.«404274_j11819749998707_3_alg».proof.Proof.Spec.Attn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 2 leaves in its output array, at the ideal values

Every row block of the output array is the block's rows of the input times the projection matrix plus the bias; the
blocks tile the array, so the whole array is that one function of the three input arrays. -/

/-- The product's dimension numbers: rows of the left operand against columns of the right. -/
abbrev D2 : DotDims S2048x512 S512x512 S2048x512 := Cert.KernelIdeal.dot_S2048x512_S512x512_S2048x512_1_0_0_1_n_n

theorem D2_rank : D2.contr.rank = 1 := rfl
theorem D2_size : D2.contr.size ⟨0, by rw [D2_rank]; exact Nat.one_pos⟩ = 512 := rfl

theorem lhs2_0 (j : S2048x512.Idx) (k : D2.contr.Idx) : ((D2.lhsIdx j k) (0 : Fin 2) : ℕ) = (j (0 : Fin 2)).val := by
  simp [DotDims.lhsIdx, D2, Cert.KernelIdeal.dot_S2048x512_S512x512_S2048x512_1_0_0_1_n_n]; rfl
theorem lhs2_1 (j : S2048x512.Idx) (k : D2.contr.Idx) : ((D2.lhsIdx j k) (1 : Fin 2) : ℕ) = (k ⟨0, by rw [D2_rank]; exact Nat.one_pos⟩).val :=
  D2.lhsIdx_val_of_single (cl := (1 : Fin 2)) rfl j k
theorem rhs2_0 (j : S2048x512.Idx) (k : D2.contr.Idx) : ((D2.rhsIdx j k) (0 : Fin 2) : ℕ) = (k ⟨0, by rw [D2_rank]; exact Nat.one_pos⟩).val :=
  D2.rhsIdx_val_of_single (cr := (0 : Fin 2)) rfl j k
theorem rhs2_1 (j : S2048x512.Idx) (k : D2.contr.Idx) : ((D2.rhsIdx j k) (1 : Fin 2) : ℕ) = (j (1 : Fin 2)).val := by
  simp [DotDims.rhsIdx, D2, Cert.KernelIdeal.dot_S2048x512_S512x512_S2048x512_1_0_0_1_n_n]; rfl

/-- The left operand's index at output `(p, q)` and contraction position `i` is `(p, i)`. -/
theorem lhs2_ix (p : Fin 2048) (q : Fin 512) (i : Fin 512) :
    D2.lhsIdx (ix2 p q) ((contrEquiv1 D2 512 D2_rank D2_size).symm i) = ix2 p i :=
  Shape.idx_ext₂ (lhs2_0 _ _) ((lhs2_1 _ _).trans (contrEquiv1_symm_val D2 512 D2_rank D2_size i))

/-- The right operand's index there is `(i, q)`. -/
theorem rhs2_ix (p : Fin 2048) (q : Fin 512) (i : Fin 512) :
    D2.rhsIdx (ix2 p q) ((contrEquiv1 D2 512 D2_rank D2_size).symm i) = ix2 i q :=
  Shape.idx_ext₂ ((rhs2_0 _ _).trans (contrEquiv1_symm_val D2 512 D2_rank D2_size i)) (rhs2_1 _ _)

/-- The block product into the zero splat, at `(p, q)`: row `p` of the left block against column `q` of the right. -/
theorem mm2_apply (a : FVec Ideal S2048x512 .bf16) (b : FVec Ideal S512x512 .bf16) (p : Fin 2048) (q : Fin 512) :
    matmul D2 none a b (constant (F := Ideal) S2048x512 .f32 0x00000000#32) (ix2 p q) = ∑ i : Fin 512, a (ix2 p i) * b (ix2 i q) := by
  refine (Ideal.matmul_constant_zero_apply D2 none a b (ix2 p q)).trans ?_
  refine (Equiv.sum_comp (contrEquiv1 D2 512 D2_rank D2_size).symm _).symm.trans ?_
  refine Finset.sum_congr rfl fun i _ => ?_
  rw [lhs2_ix, rhs2_ix]

/-- The bias vector as a one-row matrix, repeated down the rows: at `(p, q)` it is entry `q`. -/
theorem bias2_apply (x2 : S512.Idx → EReal) (h1 : S512.ShapeCasts S1x512) (h2 : S1x512.Broadcasts S2048x512)
    (p : Fin 2048) (q : Fin 512) :
    broadcastTo S2048x512 (shapeCast S1x512 x2 h1) h2 (ix2 p q) = x2 (ix1 q) := by
  refine (broadcastTo_apply _ h2 (ix2 p q) (ix2 (0 : Fin 1) q) ?_).trans ?_
  · intro a
    match a with
    | ⟨0, _⟩ => rfl
    | ⟨1, _⟩ => rfl
  · refine (shapeCast_addUnit_apply ![512] x2 h1 (ix2 (0 : Fin 1) q)).trans ?_
    refine congrArg x2 (funext fun a => ?_)
    match a with
    | ⟨0, _⟩ => rfl

/-- The body's stored value at `(p, q)`: the product of the loaded blocks there plus the bias entry. -/
theorem proj2Pay_apply (x0 : Vec Ideal S2048x512 .bf16) (x1 : Vec Ideal S512x512 .bf16) (x2 : Vec Ideal S512 .f32)
    (p : Fin 2048) (q : Fin 512) :
    k2_pay1 (F := Ideal) x0 x1 x2 (ix2 p q) = (∑ i : Fin 512, x0 (ix2 p i) * x1 (ix2 i q)) + x2 (ix1 q) := by
  unfold k2_pay1
  simp only [shapeCast_self]
  rw [addf_apply]
  refine congrArg₂ (· + ·) ?_ ?_
  · exact mm2_apply _ x1 p q
  · exact bias2_apply x2 _ _ p q

theorem hz2_2 : (![0, 0] : Fin 2 → Nat) = fun _ => 0 := funext fun a => by fin_cases a <;> rfl
theorem hz2_1 : (![0] : Fin 1 → Nat) = fun _ => 0 := funext fun a => by fin_cases a <;> rfl

/-- The whole output array as one function of the three input arrays: at `(r, n)` row `r` of the input times
    column `n` of the projection matrix plus entry `n` of the bias. -/
abbrev G2 (x : (⟨2, ![65536, 512]⟩ : Shape).Idx → EReal) (w : (⟨2, ![512, 512]⟩ : Shape).Idx → EReal)
    (b : (⟨1, ![512]⟩ : Shape).Idx → EReal) : (⟨2, ![65536, 512]⟩ : Shape).Idx → EReal :=
  fun j => Cert.Spec.mmb (M := 65536) (K := 512) (N := 512) x w b (j 0 : Fin 65536) (j 1 : Fin 512)

/-- The printed index maps, decided over the grid: the input's row block moves with the output's, which is the
    point's own number; every other block index is zero. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The body's stored value at any index of the block. -/
theorem proj2Pay_at (x0 : Vec Ideal S2048x512 .bf16) (x1 : Vec Ideal S512x512 .bf16) (x2 : Vec Ideal S512 .f32) (y : S2048x512.Idx) :
    k2_pay1 (F := Ideal) x0 x1 x2 y
      = (∑ i : Fin 512, x0 (ix2 (y 0 : Fin 2048) i) * x1 (ix2 i (y 1 : Fin 512))) + x2 (ix1 (y 1 : Fin 512)) := by
  exact (congrArg (k2_pay1 (F := Ideal) x0 x1 x2) (eq_ix2 y)).trans (proj2Pay_apply x0 x1 x2 (y 0) (y 1))

/-- Row `p` of point `t`'s input block is row `t * 2048 + p` of the input array. -/
theorem read2_0 (c : Dev nD) (t : Fin cfg2.N) (p : Fin 2048) (i : Fin 512) (R : Fin 65536) (hR : R.val = t.val * 2048 + p.val) :
    iblk2 V c 0 t (ix2 p i) = V c main_v48 (ix2 R i : (⟨2, ![65536, 512]⟩ : Shape).Idx) := by
  obtain ⟨e0, e1, e2, e3, e4, e5, e6⟩ := idx_facts2 t
  show V c main_v48 (((cfg2.win 0).blk t).view.emb (ix2 p i)) = V c main_v48 (ix2 R i : (⟨2, ![65536, 512]⟩ : Shape).Idx)
  refine congrArg (V c main_v48) (funext fun a => Fin.ext ?_)
  match a with
  | ⟨0, _⟩ => show win2_0.index t (0 : Fin 2) * 2048 + 1 * p.val = R.val; omega
  | ⟨1, _⟩ => show win2_0.index t (1 : Fin 2) * 512 + 1 * i.val = i.val; omega

/-- The projection block is the projection array whole. -/
theorem read2_1 (c : Dev nD) (t : Fin cfg2.N) (i : Fin 512) (q : Fin 512) :
    iblk2 V c 1 t (ix2 i q) = V c main_v49 (ix2 i q : (⟨2, ![512, 512]⟩ : Shape).Idx) := by
  obtain ⟨e0, e1, e2, e3, e4, e5, e6⟩ := idx_facts2 t
  show V c main_v49 (((cfg2.win 1).blk t).view.emb (ix2 i q)) = V c main_v49 (ix2 i q : (⟨2, ![512, 512]⟩ : Shape).Idx)
  refine congrArg (V c main_v49) (funext fun a => Fin.ext ?_)
  match a with
  | ⟨0, _⟩ => show win2_1.index t (0 : Fin 2) * 512 + 1 * i.val = i.val; omega
  | ⟨1, _⟩ => show win2_1.index t (1 : Fin 2) * 512 + 1 * q.val = q.val; omega

/-- The bias block is the bias array whole. -/
theorem read2_2 (c : Dev nD) (t : Fin cfg2.N) (q : Fin 512) :
    iblk2 V c 2 t (ix1 q) = V c main_arg9 (ix1 q : (⟨1, ![512]⟩ : Shape).Idx) := by
  obtain ⟨e0, e1, e2, e3, e4, e5, e6⟩ := idx_facts2 t
  show V c main_arg9 (((cfg2.win 2).blk t).view.emb (ix1 q)) = V c main_arg9 (ix1 q : (⟨1, ![512]⟩ : Shape).Idx)
  refine congrArg (V c main_arg9) (funext fun a => Fin.ext ?_)
  match a with
  | ⟨0, _⟩ => show win2_2.index t (0 : Fin 1) * 512 + 1 * q.val = q.val; omega

/-- At point `t` the formula of the loaded blocks at `(p, q)` is the whole-array formula at row `t * 2048 + p`. -/
theorem blk2_eq (c : Dev nD) (t : Fin cfg2.N) (p : Fin 2048) (q : Fin 512) (R : Fin 65536) (N : Fin 512)
    (hR : R.val = t.val * 2048 + p.val) (hN : N.val = q.val)
    (x0 : Vec Ideal S2048x512 .bf16) (x1 : Vec Ideal S512x512 .bf16) (x2 : Vec Ideal S512 .f32)
    (h0 : x0 = iblk2 V c 0 t) (h1 : x1 = iblk2 V c 1 t) (h2 : x2 = iblk2 V c 2 t) :
    (∑ i : Fin 512, x0 (ix2 p i) * x1 (ix2 i q)) + x2 (ix1 q)
      = Cert.Spec.mmb (M := 65536) (K := 512) (N := 512) (V c main_v48) (V c main_v49) (V c main_arg9) R N := by
  obtain rfl : N = q := Fin.ext hN
  subst h0 h1 h2
  unfold Cert.Spec.mmb
  rw [read2_2]
  refine congrArg (· + _) (Finset.sum_congr rfl fun i _ => ?_)
  rw [read2_0 V c t p i R hR, read2_1]

theorem flushed2_eq (c : Dev nD) (t : Fin cfg2.N) :
    (dat2 (F := Ideal) V c).flushed 3 t = ((cfg2.win 3).blk t).view.read (Elt Ideal) (G2 (V c main_v48) (V c main_v49) (V c main_arg9)) := by
  show (cfg2.win 3).cut (grid2.coords t) ((dat2 V c).after 3 t) = _
  rw [after2_3]
  unfold out2_3
  rw [View.canon_unit_zero hz2_2]
  simp only [View.ld_unit_zero (S := S2048x512) hz2_2, View.ld_unit_zero (S := S512x512) hz2_2, View.ld_unit_zero (S := S512) hz2_1]
  funext y
  obtain ⟨e0, e1, e2, e3, e4, e5, e6⟩ := idx_facts2 t
  refine (proj2Pay_at _ _ _ _).trans ?_
  show _ = G2 (V c main_v48) (V c main_v49) (V c main_arg9) (((cfg2.win 3).blk t).view.emb y)
  refine blk2_eq V c t _ _ _ _ ?_ ?_ _ _ _ rfl rfl rfl
  · show win2_3.index t (0 : Fin 2) * 2048 + 1 * (y 0).val = t.val * 2048 + (y 0).val; omega
  · show win2_3.index t (1 : Fin 2) * 512 + 1 * (y 1).val = (y 1).val; omega

/-- An index of the output array is in point `t`'s block iff each coordinate is in the block's range on its axis. -/
theorem mem_blk2 (t : Fin cfg2.N) (i : (⟨2, ![65536, 512]⟩ : Shape).Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v50).slice (win2_3.rect t)).set ↔ _
  rw [View.set_slice_whole, Rect.mem_set_unit]
  exact Iff.rfl

/-- The row blocks tile the output array: row `r` lies in the block of point `r / 2048`. -/
theorem cover2 (i : (⟨2, ![65536, 512]⟩ : Shape).Idx) :
    ∃ t : Fin cfg2.N, (cfg2.win 3).flush t = true ∧ i ∈ ((cfg2.win 3).blk t).view.set := by
  have hi0 : (i 0).val < 65536 := (i 0).isLt
  have hi1 : (i 1).val < 512 := (i 1).isLt
  have ht : (i 0).val / 2048 < 32 := by omega
  refine ⟨⟨(i 0).val / 2048, ht⟩, flush2_3 _, ?_⟩
  obtain ⟨e0, e1, e2, e3, e4, e5, e6⟩ := idx_facts2 ⟨(i 0).val / 2048, ht⟩
  have e5' : win2_3.index ⟨(i 0).val / 2048, ht⟩ (0 : Fin 2) = (i 0).val / 2048 := e5
  rw [mem_blk2]
  intro a
  match a with
  | ⟨0, _⟩ =>
    show win2_3.index ⟨(i 0).val / 2048, ht⟩ (0 : Fin 2) * 2048 ≤ (i 0).val ∧ (i 0).val < win2_3.index ⟨(i 0).val / 2048, ht⟩ (0 : Fin 2) * 2048 + 2048
    omega
  | ⟨1, _⟩ =>
    show win2_3.index ⟨(i 0).val / 2048, ht⟩ (1 : Fin 2) * 512 ≤ (i 1).val ∧ (i 1).val < win2_3.index ⟨(i 0).val / 2048, ht⟩ (1 : Fin 2) * 512 + 512
    omega

/-- The output array after the region, at row `r` and column `n`. -/
theorem final2 (c : Dev nD) (r : Fin 65536) (n : Fin 512) :
    (dat2 (F := Ideal) V c).arrAt 3 cfg2.N (ix2 r n)
      = Cert.Spec.mmb (M := 65536) (K := 512) (N := 512) (V c main_v48) (V c main_v49) (V c main_arg9) r n := by
  have h := (dat2 (F := Ideal) V c).arrAt_eq_of_cover 3 (G2 (V c main_v48) (V c main_v49) (V c main_arg9))
    (fun t _ => flushed2_eq V c t) cover2
  exact congrFun h (ix2 r n)

end Cert.KernelIdeal.Fr

end
-- ==== Proof.Ref.ProjFn.lean ====
import proofs.«404274_j11819749998707_3_alg».proof.Proof.Gen.ReferenceIdeal
import proofs.«404274_j11819749998707_3_alg».proof.Proof.Spec.Attn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic Idealize.ShloMosaic.ValueIdx
open Cert.ReferenceIdeal Cert.ReferenceIdeal.Facts₀ Cert.ReferenceIdeal.Facts

/-! # The reference's two projections as functions of their operands, read at an index

Each is a contraction of the last axis of a [4, 128, 128, 512] array with a matrix, plus a vector broadcast along
the last axis. -/

/-- The qkv projection: the operations that make `%0`, `%3`, `%4`, `%5` of the reference, of the input, the weights and
    the concatenated bias. -/
def qkvFn (x : FVec Ideal S4x128x128x512 .f32) (w : FVec Ideal S512x1536 .f32) (b : FVec Ideal S1536 .f32) :
    FVec Ideal S4x128x128x1536 .f32 :=
  addf (Host.dotGeneral (F := Ideal) dot_S4x128x128x512_S512x1536_S4x128x128x1536_3_0_012_1_n_n none x w)
    (broadcastInDim S4x128x128x1536 ![0, 1, 2, 3] bcast_S1x1x1x1536_S4x128x128x1536_0_1_2_3
      (broadcastInDim S1x1x1x1536 ![3] bcast_S1536_S1x1x1x1536_3 b))

/-! ## The qkv contraction's operand indices, axis by axis

The left operand's three free axes read the output index's first three coordinates and its last axis the contracted
coordinate; the right operand's first axis reads the contracted coordinate and its second the output's last. -/

private theorem qkv_lhs0 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.lhsIdx j k 0).val = (j 0).val := rfl
private theorem qkv_lhs1 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.lhsIdx j k 1).val = (j 1).val := rfl
private theorem qkv_lhs2 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.lhsIdx j k 2).val = (j 2).val := rfl
private theorem qkv_lhs3 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.lhsIdx j k 3).val = (k ⟨0, by decide⟩).val :=
  DotDims.lhsIdx_val_of_single _ (cl := 3) rfl j k
private theorem qkv_rhs0 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.rhsIdx j k 0).val = (k ⟨0, by decide⟩).val :=
  DotDims.rhsIdx_val_of_single _ (cr := 0) rfl j k
private theorem qkv_rhs1 (j : S4x128x128x1536.Idx) (k : Cert.ReferenceIdeal.dot_S4x128x128x512_S512x1536_S4x128x128x1536_3_0_012_1_n_n.contr.Idx) :
    (Cert.ReferenceIdeal.dot_S4x128x128x512_S512x1536_S4x128x128x1536_3_0_012_1_n_n.rhsIdx j k 1).val = (j 3).val := rfl

/-- The contraction at an index: the sum over the contracted coordinate, re-indexed from the one-axis contraction
    index to its coordinate. -/
private theorem qkv_dot_apply (x : FVec Ideal S4x128x128x512 .f32) (w : FVec Ideal S512x1536 .f32)
    (i : Fin 4) (h v : Fin 128) (n : Fin 1536) :
    Host.dotGeneral (F := Ideal) Cert.ReferenceIdeal.dot_S4x128x128x512_S512x1536_S4x128x128x1536_3_0_012_1_n_n none x w (ix4 i h v n)
      = ∑ k : Fin 512, x (ix4 i h v k) * w (ix2 k n) := by
  simp only [Host.dotGeneral]
  rw [Ideal.dotGeneral_apply, ← Equiv.sum_comp (contrEquiv1 Cert.ReferenceIdeal.dot_S4x128x128x512_S512x1536_S4x128x128x1536_3_0_012_1_n_n 512 rfl rfl).symm]
  refine Finset.sum_congr rfl fun c _ => ?_
  have c1 := contrEquiv1_symm_val Cert.ReferenceIdeal.dot_S4x128x128x512_S512x1536_S4x128x128x1536_3_0_012_1_n_n 512 rfl rfl c
  have l : Cert.ReferenceIdeal.dot_S4x128x128x512_S512x1536_S4x128x128x1536_3_0_012_1_n_n.lhsIdx (ix4 i h v n) ((contrEquiv1 Cert.ReferenceIdeal.dot_S4x128x128x512_S512x1536_S4x128x128x1536_3_0_012_1_n_n 512 rfl rfl).symm c) = ix4 i h v c := by
    funext ax; apply Fin.ext
    match ax with
    | ⟨0, _⟩ => exact qkv_lhs0 _ _
    | ⟨1, _⟩ => exact qkv_lhs1 _ _
    | ⟨2, _⟩ => exact qkv_lhs2 _ _
    | ⟨3, _⟩ => exact (qkv_lhs3 _ _).trans c1
  have r : Cert.ReferenceIdeal.dot_S4x128x128x512_S512x1536_S4x128x128x1536_3_0_012_1_n_n.rhsIdx (ix4 i h v n) ((contrEquiv1 Cert.ReferenceIdeal.dot_S4x128x128x512_S512x1536_S4x128x128x1536_3_0_012_1_n_n 512 rfl rfl).symm c) = ix2 c n := by
    funext ax; apply Fin.ext
    match ax with
    | ⟨0, _⟩ => exact (qkv_rhs0 _ _).trans c1
    | ⟨1, _⟩ => exact qkv_rhs1 _ _
  rw [l, r]

/-- The bias broadcast twice — to three new unit axes, then along them — read at an index is the bias at the index's
    last coordinate. -/
private theorem qkv_bias_apply (b : FVec Ideal S1536 .f32) (i : Fin 4) (h v : Fin 128) (n : Fin 1536) :
    broadcastInDim S4x128x128x1536 ![0, 1, 2, 3] bcast_S1x1x1x1536_S4x128x128x1536_0_1_2_3
      (broadcastInDim S1x1x1x1536 ![3] bcast_S1536_S1x1x1x1536_3 b) (ix4 i h v n) = b (ix1 n) := by
  rw [broadcastInDim_apply _ _ _ (ix4 i h v n) (ix4 (0 : Fin 1) (0 : Fin 1) (0 : Fin 1) n)
    (fun a => by match a with
      | ⟨0, _⟩ => rfl
      | ⟨1, _⟩ => rfl
      | ⟨2, _⟩ => rfl
      | ⟨3, _⟩ => rfl)]
  exact broadcastInDim_apply _ _ _ _ (ix1 n) (fun a => by match a with | ⟨0, _⟩ => rfl)

theorem qkvFn_apply (x : FVec Ideal S4x128x128x512 .f32) (w : FVec Ideal S512x1536 .f32) (b : FVec Ideal S1536 .f32)
    (i : Fin 4) (h v : Fin 128) (n : Fin 1536) :
    qkvFn x w b (ix4 i h v n) = (∑ k : Fin 512, x (ix4 i h v k) * w (ix2 k n)) + b (ix1 n) := by
  unfold qkvFn
  rw [addf_apply, qkv_dot_apply, qkv_bias_apply]

/-- The output projection: the operations that make `%82`, `%83`, `%84`, `%85` of the reference. -/
def outFn (x : FVec Ideal S4x128x128x512 .f32) (w : FVec Ideal S512x512 .f32) (b : FVec Ideal S512 .f32) :
    FVec Ideal S4x128x128x512 .f32 :=
  addf (Host.dotGeneral (F := Ideal) dot_S4x128x128x512_S512x512_S4x128x128x512_3_0_012_1_n_n none x w)
    (broadcastInDim S4x128x128x512 ![0, 1, 2, 3] bcast_S1x1x1x512_S4x128x128x512_0_1_2_3
      (broadcastInDim S1x1x1x512 ![3] bcast_S512_S1x1x1x512_3 b))

/-! ## The output contraction's operand indices, axis by axis

The left operand's three free axes read the output index's first three coordinates and its last axis the contracted
coordinate; the right operand's first axis reads the contracted coordinate and its second the output's last. -/

private theorem out_lhs0 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.lhsIdx j k 0).val = (j 0).val := rfl
private theorem out_lhs1 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.lhsIdx j k 1).val = (j 1).val := rfl
private theorem out_lhs2 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.lhsIdx j k 2).val = (j 2).val := rfl
private theorem out_lhs3 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.lhsIdx j k 3).val = (k ⟨0, by decide⟩).val :=
  DotDims.lhsIdx_val_of_single _ (cl := 3) rfl j k
private theorem out_rhs0 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.rhsIdx j k 0).val = (k ⟨0, by decide⟩).val :=
  DotDims.rhsIdx_val_of_single _ (cr := 0) rfl j k
private theorem out_rhs1 (j : S4x128x128x512.Idx) (k : Cert.ReferenceIdeal.dot_S4x128x128x512_S512x512_S4x128x128x512_3_0_012_1_n_n.contr.Idx) :
    (Cert.ReferenceIdeal.dot_S4x128x128x512_S512x512_S4x128x128x512_3_0_012_1_n_n.rhsIdx j k 1).val = (j 3).val := rfl

/-- The contraction at an index: the sum over the contracted coordinate, re-indexed from the one-axis contraction
    index to its coordinate. -/
private theorem out_dot_apply (x : FVec Ideal S4x128x128x512 .f32) (w : FVec Ideal S512x512 .f32)
    (i : Fin 4) (h v : Fin 128) (n : Fin 512) :
    Host.dotGeneral (F := Ideal) Cert.ReferenceIdeal.dot_S4x128x128x512_S512x512_S4x128x128x512_3_0_012_1_n_n none x w (ix4 i h v n)
      = ∑ k : Fin 512, x (ix4 i h v k) * w (ix2 k n) := by
  simp only [Host.dotGeneral]
  rw [Ideal.dotGeneral_apply, ← Equiv.sum_comp (contrEquiv1 Cert.ReferenceIdeal.dot_S4x128x128x512_S512x512_S4x128x128x512_3_0_012_1_n_n 512 rfl rfl).symm]
  refine Finset.sum_congr rfl fun c _ => ?_
  have c1 := contrEquiv1_symm_val Cert.ReferenceIdeal.dot_S4x128x128x512_S512x512_S4x128x128x512_3_0_012_1_n_n 512 rfl rfl c
  have l : Cert.ReferenceIdeal.dot_S4x128x128x512_S512x512_S4x128x128x512_3_0_012_1_n_n.lhsIdx (ix4 i h v n) ((contrEquiv1 Cert.ReferenceIdeal.dot_S4x128x128x512_S512x512_S4x128x128x512_3_0_012_1_n_n 512 rfl rfl).symm c) = ix4 i h v c := by
    funext ax; apply Fin.ext
    match ax with
    | ⟨0, _⟩ => exact out_lhs0 _ _
    | ⟨1, _⟩ => exact out_lhs1 _ _
    | ⟨2, _⟩ => exact out_lhs2 _ _
    | ⟨3, _⟩ => exact (out_lhs3 _ _).trans c1
  have r : Cert.ReferenceIdeal.dot_S4x128x128x512_S512x512_S4x128x128x512_3_0_012_1_n_n.rhsIdx (ix4 i h v n) ((contrEquiv1 Cert.ReferenceIdeal.dot_S4x128x128x512_S512x512_S4x128x128x512_3_0_012_1_n_n 512 rfl rfl).symm c) = ix2 c n := by
    funext ax; apply Fin.ext
    match ax with
    | ⟨0, _⟩ => exact (out_rhs0 _ _).trans c1
    | ⟨1, _⟩ => exact out_rhs1 _ _
  rw [l, r]

/-- The bias broadcast twice — to three new unit axes, then along them — read at an index is the bias at the index's
    last coordinate. -/
private theorem out_bias_apply (b : FVec Ideal S512 .f32) (i : Fin 4) (h v : Fin 128) (n : Fin 512) :
    broadcastInDim S4x128x128x512 ![0, 1, 2, 3] bcast_S1x1x1x512_S4x128x128x512_0_1_2_3
      (broadcastInDim S1x1x1x512 ![3] bcast_S512_S1x1x1x512_3 b) (ix4 i h v n) = b (ix1 n) := by
  rw [broadcastInDim_apply _ _ _ (ix4 i h v n) (ix4 (0 : Fin 1) (0 : Fin 1) (0 : Fin 1) n)
    (fun a => by match a with
      | ⟨0, _⟩ => rfl
      | ⟨1, _⟩ => rfl
      | ⟨2, _⟩ => rfl
      | ⟨3, _⟩ => rfl)]
  exact broadcastInDim_apply _ _ _ _ (ix1 n) (fun a => by match a with | ⟨0, _⟩ => rfl)

theorem outFn_apply (x : FVec Ideal S4x128x128x512 .f32) (w : FVec Ideal S512x512 .f32) (b : FVec Ideal S512 .f32)
    (i : Fin 4) (h v : Fin 128) (n : Fin 512) :
    outFn x w b (ix4 i h v n) = (∑ k : Fin 512, x (ix4 i h v k) * w (ix2 k n)) + b (ix1 n) := by
  unfold outFn
  rw [addf_apply, out_dot_apply, out_bias_apply]

end Cert.ReferenceIdeal.RefVal

end
-- ==== Proof.Ref.AttnFn.lean ====
import proofs.«404274_j11819749998707_3_alg».proof.Proof.Gen.ReferenceIdeal
import proofs.«404274_j11819749998707_3_alg».proof.Proof.Spec.Attn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

set_option maxRecDepth 16384

noncomputable section

namespace Cert.ReferenceIdeal.RefVal

open Idealize.ShloMosaic Idealize.ShloMosaic.ValueIdx
open Cert.ReferenceIdeal Cert.ReferenceIdeal.Facts₀ Cert.ReferenceIdeal.Facts

/-! # The reference's attention as one function of its operands, read at an index

The operations `%18` … `%40` and `%66` … `%78` of the reference: rows of queries and keys scaled to unit length, the
queries times the temperature, the batched inner products, plus the bias, a softmax over the last axis, times the
values. At window `g`, head `h` this is the attention head `Cert.Spec.headR` of that window's and head's rows. -/

/-- A [1024, 16, 64, 32] array's rows scaled to unit length (`%18` … `%25`, and again `%26` … `%33`). -/
def l2nFn (q : FVec Ideal S1024x16x64x32 .f32) : FVec Ideal S1024x16x64x32 .f32 :=
  mulf q (broadcastInDim S1024x16x64x32 ![0, 1, 2, 3] bcast_S1024x16x64x1_S1024x16x64x32_0_1_2_3
    (Host.rsqrt (F := Ideal) (maximumf
      (broadcastInDim S1024x16x64x1 ![0, 1, 2] bcast_S1024x16x64_S1024x16x64x1_0_1_2
        (Host.reduceAdd (F := Ideal) (mulf q q) (constant (F := Ideal) S_ .f32 0x00000000#32) reducesTo_S1024x16x64x32_S1024x16x64_d3 h_S_))
      (broadcastInDim S1024x16x64x1 ![] bcast_S_S1024x16x64x1 (constant (F := Ideal) S_ .f32 0x378205FF#32)))))

/-- The logits (`%37` … `%40`, `%66`): unit queries times the temperature, batched inner products with the unit keys,
    plus the bias. -/
def logitFn (q k : FVec Ideal S1024x16x64x32 .f32) (t : FVec Ideal S16x1x1 .f32) (rb : FVec Ideal S1024x16x64x64 .f32) :
    FVec Ideal S1024x16x64x64 .f32 :=
  addf (Host.dotGeneral (F := Ideal) dot_S1024x16x64x32_S1024x16x64x32_S1024x16x64x64_3_3_2_2_01_01 none
      (mulf (l2nFn q) (broadcastInDim S1024x16x64x32 ![0, 1, 2, 3] bcast_S1x16x1x1_S1024x16x64x32_0_1_2_3
        (broadcastInDim S1x16x1x1 ![1, 2, 3] bcast_S16x1x1_S1x16x1x1_1_2_3 t)))
      (l2nFn k)) rb

/-- The softmax over the last axis (`%67` … `%77`). -/
def softmaxFn (z : FVec Ideal S1024x16x64x64 .f32) : FVec Ideal S1024x16x64x64 .f32 :=
  let mx : FVec Ideal S1024x16x64 .f32 :=
    maximumf (broadcastInDim S1024x16x64 ![] bcast_S_S1024x16x64 (constant (F := Ideal) S_ .f32 0xFF800000#32))
      (Host.reduce (FloatOps.maximumf (F := Ideal) (φ := .f32)) z (constant (F := Ideal) S_ .f32 0xFF800000#32) reducesTo_S1024x16x64x64_S1024x16x64_d3 h_S_)
  let e : FVec Ideal S1024x16x64x64 .f32 :=
    Host.exp (F := Ideal) (subf z (broadcastInDim S1024x16x64x64 ![0, 1, 2, 3] bcast_S1024x16x64x1_S1024x16x64x64_0_1_2_3
      (broadcastInDim S1024x16x64x1 ![0, 1, 2] bcast_S1024x16x64_S1024x16x64x1_0_1_2 mx)))
  Host.divf (F := Ideal) e (broadcastInDim S1024x16x64x64 ![0, 1, 2, 3] bcast_S1024x16x64x1_S1024x16x64x64_0_1_2_3
    (broadcastInDim S1024x16x64x1 ![0, 1, 2] bcast_S1024x16x64_S1024x16x64x1_0_1_2
      (Host.reduceAdd (F := Ideal) e (constant (F := Ideal) S_ .f32 0x00000000#32) reducesTo_S1024x16x64x64_S1024x16x64_d3 h_S_)))

/-- The attention output (`%78`). -/
def attnFn (q k v : FVec Ideal S1024x16x64x32 .f32) (t : FVec Ideal S16x1x1 .f32) (rb : FVec Ideal S1024x16x64x64 .f32) :
    FVec Ideal S1024x16x64x32 .f32 :=
  Host.dotGeneral (F := Ideal) dot_S1024x16x64x64_S1024x16x64x32_S1024x16x64x32_3_2_2_3_01_01 none (softmaxFn (logitFn q k t rb)) v

/-! ## The host operations on whole [1024, 16, 64, ·] arrays, read at an index -/

section Ops
variable {α : Type}

/-- A [1024, 16, 64, 1] array broadcast along its last axis to width 32 reads its one column. -/
theorem bcastLast32_apply (hb : S1024x16x64x1.BroadcastsInDim S1024x16x64x32 (![0, 1, 2, 3] : Fin 4 → Fin S1024x16x64x32.rank))
    (x : S1024x16x64x1.Idx → α) (g : Fin 1024) (h : Fin 16) (l : Fin 64) (d : Fin 32) :
    broadcastInDim S1024x16x64x32 ![0, 1, 2, 3] hb x (ix4 g h l d) = x (ix4 g h l 0) := by
  refine broadcastInDim_apply _ hb x _ _ fun a => ?_
  fin_cases a <;> rfl

/-- The same to width 64. -/
theorem bcastLast64_apply (hb : S1024x16x64x1.BroadcastsInDim S1024x16x64x64 (![0, 1, 2, 3] : Fin 4 → Fin S1024x16x64x64.rank))
    (x : S1024x16x64x1.Idx → α) (g : Fin 1024) (h : Fin 16) (l : Fin 64) (j : Fin 64) :
    broadcastInDim S1024x16x64x64 ![0, 1, 2, 3] hb x (ix4 g h l j) = x (ix4 g h l 0) := by
  refine broadcastInDim_apply _ hb x _ _ fun a => ?_
  fin_cases a <;> rfl

/-- A [1024, 16, 64] array given a unit last axis reads the same entry. -/
theorem bcastUnit_apply (hb : S1024x16x64.BroadcastsInDim S1024x16x64x1 (![0, 1, 2] : Fin 3 → Fin S1024x16x64x1.rank))
    (x : S1024x16x64.Idx → α) (g : Fin 1024) (h : Fin 16) (l : Fin 64) (z : Fin 1) :
    broadcastInDim S1024x16x64x1 ![0, 1, 2] hb x (ix4 g h l z) = x (ix3 g h l) := by
  refine broadcastInDim_apply _ hb x _ _ fun a => ?_
  fin_cases a <;> rfl

/-- The per-head [16, 1, 1] array broadcast to [1024, 16, 64, 32] reads the head's entry. -/
theorem bcastHead_apply (hb1 : S16x1x1.BroadcastsInDim S1x16x1x1 (![1, 2, 3] : Fin 3 → Fin S1x16x1x1.rank))
    (hb2 : S1x16x1x1.BroadcastsInDim S1024x16x64x32 (![0, 1, 2, 3] : Fin 4 → Fin S1024x16x64x32.rank))
    (t : S16x1x1.Idx → α) (g : Fin 1024) (h : Fin 16) (l : Fin 64) (d : Fin 32) :
    broadcastInDim S1024x16x64x32 ![0, 1, 2, 3] hb2 (broadcastInDim S1x16x1x1 ![1, 2, 3] hb1 t) (ix4 g h l d) = t (ix3 h 0 0) := by
  refine (broadcastInDim_apply _ hb2 _ _ (ix4 (0 : Fin 1) h (0 : Fin 1) (0 : Fin 1)) fun a => ?_).trans
    (broadcastInDim_apply _ hb1 t _ _ fun a => ?_)
  · fin_cases a <;> rfl
  · fin_cases a <;> rfl

theorem reduces32 : S1024x16x64x32.Reduces [3] S1024x16x64 := by decide
theorem reduces64 : S1024x16x64x64.Reduces [3] S1024x16x64 := by decide

/-- The reduced index (g, h, l) with the last coordinate `e` put back is (g, h, l, e). -/
theorem lift32 (hr : S1024x16x64x32.Reduces [3] S1024x16x64) (g : Fin 1024) (h : Fin 16) (l : Fin 64)
    (e : Fin (S1024x16x64x32.size 3)) : hr.lift (ix3 g h l) e = ix4 g h l (⟨e.val, e.isLt⟩ : Fin 32) := by
  funext c; apply Fin.ext
  fin_cases c <;> rfl

theorem lift64 (hr : S1024x16x64x64.Reduces [3] S1024x16x64) (g : Fin 1024) (h : Fin 16) (l : Fin 64)
    (e : Fin (S1024x16x64x64.size 3)) : hr.lift (ix3 g h l) e = ix4 g h l (⟨e.val, e.isLt⟩ : Fin 64) := by
  funext c; apply Fin.ext
  fin_cases c <;> rfl

/-- The host's sum over the last axis of a [1024, 16, 64, 32] array from the zero word, at (g, h, l): the sum of the row. -/
theorem hostSum32_apply (h' : S1024x16x64x32.ReducesTo [3] S1024x16x64) (hu : 0 < S_.numel)
    (x : FVec Ideal S1024x16x64x32 .f32) (g : Fin 1024) (h : Fin 16) (l : Fin 64) :
    Host.reduceAdd (F := Ideal) x (constant (F := Ideal) S_ .f32 0x00000000#32) h' hu (ix3 g h l)
      = ∑ e : Fin 32, x (ix4 g h l e) := by
  rw [hostReduceAdd_apply, Ideal.hostReduceAdd_single h' reduces32, constant_apply, Ideal.ofBits_zero_f32, zero_add]
  exact Finset.sum_congr rfl fun e _ => congrArg x (lift32 reduces32 g h l e)

/-- The same over a [1024, 16, 64, 64] array. -/
theorem hostSum64_apply (h' : S1024x16x64x64.ReducesTo [3] S1024x16x64) (hu : 0 < S_.numel)
    (x : FVec Ideal S1024x16x64x64 .f32) (g : Fin 1024) (h : Fin 16) (l : Fin 64) :
    Host.reduceAdd (F := Ideal) x (constant (F := Ideal) S_ .f32 0x00000000#32) h' hu (ix3 g h l)
      = ∑ j : Fin 64, x (ix4 g h l j) := by
  rw [hostReduceAdd_apply, Ideal.hostReduceAdd_single h' reduces64, constant_apply, Ideal.ofBits_zero_f32, zero_add]
  exact Finset.sum_congr rfl fun e _ => congrArg x (lift64 reduces64 g h l e)

/-- The host's maximum over the last axis of a [1024, 16, 64, 64] array from a word, at (g, h, l): the fold of `max` from
    that word's value over the row. -/
theorem hostMax64_apply (h' : S1024x16x64x64.ReducesTo [3] S1024x16x64) (hu : 0 < S_.numel) (w : BitVec 32)
    (z : FVec Ideal S1024x16x64x64 .f32) (g : Fin 1024) (h : Fin 16) (l : Fin 64) :
    Host.reduce (FloatOps.maximumf (F := Ideal) (φ := .f32)) z (constant (F := Ideal) S_ .f32 w) h' hu (ix3 g h l)
      = (Finset.univ : Finset (Fin 64)).fold max (Ideal.ofBits .f32 w) (fun j => z (ix4 g h l j)) := by
  rw [Host.reduce_eq_fold_single (FloatOps.maximumf (F := Ideal) (φ := .f32)) z _ h' reduces64 hu]
  have hf : (z ∘ reduces64.lift (ix3 g h l)) = fun j : Fin 64 => z (ix4 g h l j) :=
    funext fun e => congrArg z (lift64 reduces64 g h l e)
  exact congrArg (fun f => Finset.fold max (Ideal.ofBits .f32 w) f (Finset.univ : Finset (Fin 64))) hf

/-- The batched inner products of the rows of two [1024, 16, 64, 32] arrays (batch axes the window and the head, both
    last axes contracted), at (g, h, l, j): the inner product of row `l` of the first with row `j` of the second. -/
theorem dotRows_apply (A B : FVec Ideal S1024x16x64x32 .f32) (g : Fin 1024) (h : Fin 16) (l j : Fin 64) :
    Host.dotGeneral (F := Ideal) Cert.ReferenceIdeal.dot_S1024x16x64x32_S1024x16x64x32_S1024x16x64x64_3_3_2_2_01_01 none A B (ix4 g h l j)
      = ∑ e : Fin 32, A (ix4 g h l e) * B (ix4 g h j e) := by
  show FloatOps.dotGeneral _ none _ A B (ix4 g h l j) = _
  rw [Ideal.dotGeneral_apply,
    ← Equiv.sum_comp (contrEquiv1 Cert.ReferenceIdeal.dot_S1024x16x64x32_S1024x16x64x32_S1024x16x64x64_3_3_2_2_01_01 32 rfl rfl).symm]
  refine Finset.sum_congr rfl fun c _ => ?_
  have c3 := contrEquiv1_symm_val Cert.ReferenceIdeal.dot_S1024x16x64x32_S1024x16x64x32_S1024x16x64x64_3_3_2_2_01_01 32 rfl rfl c
  have l3 : Cert.ReferenceIdeal.dot_S1024x16x64x32_S1024x16x64x32_S1024x16x64x64_3_3_2_2_01_01.lhsIdx (ix4 g h l j)
      ((contrEquiv1 _ 32 rfl rfl).symm c) = ix4 g h l c := by
    funext ax; apply Fin.ext
    match ax with
    | ⟨0, _⟩ => rfl
    | ⟨1, _⟩ => rfl
    | ⟨2, _⟩ => rfl
    | ⟨3, _⟩ => exact (DotDims.lhsIdx_val_of_single _ rfl _ _).trans c3
  have r3 : Cert.ReferenceIdeal.dot_S1024x16x64x32_S1024x16x64x32_S1024x16x64x64_3_3_2_2_01_01.rhsIdx (ix4 g h l j)
      ((contrEquiv1 _ 32 rfl rfl).symm c) = ix4 g h j c := by
    funext ax; apply Fin.ext
    match ax with
    | ⟨0, _⟩ => rfl
    | ⟨1, _⟩ => rfl
    | ⟨2, _⟩ => rfl
    | ⟨3, _⟩ => exact (DotDims.rhsIdx_val_of_single _ rfl _ _).trans c3
  rw [l3, r3]

/-- The batched products of [1024, 16, 64, 64] weights with [1024, 16, 64, 32] values (batch axes the window and the
    head, the weights' last axis contracted with the values' rows), at (g, h, l, d): row `l` of the weights times column
    `d` of the values. -/
theorem dotVals_apply (P : FVec Ideal S1024x16x64x64 .f32) (V : FVec Ideal S1024x16x64x32 .f32) (g : Fin 1024) (h : Fin 16)
    (l : Fin 64) (d : Fin 32) :
    Host.dotGeneral (F := Ideal) Cert.ReferenceIdeal.dot_S1024x16x64x64_S1024x16x64x32_S1024x16x64x32_3_2_2_3_01_01 none P V (ix4 g h l d)
      = ∑ j : Fin 64, P (ix4 g h l j) * V (ix4 g h j d) := by
  show FloatOps.dotGeneral _ none _ P V (ix4 g h l d) = _
  rw [Ideal.dotGeneral_apply,
    ← Equiv.sum_comp (contrEquiv1 Cert.ReferenceIdeal.dot_S1024x16x64x64_S1024x16x64x32_S1024x16x64x32_3_2_2_3_01_01 64 rfl rfl).symm]
  refine Finset.sum_congr rfl fun c _ => ?_
  have c3 := contrEquiv1_symm_val Cert.ReferenceIdeal.dot_S1024x16x64x64_S1024x16x64x32_S1024x16x64x32_3_2_2_3_01_01 64 rfl rfl c
  have l3 : Cert.ReferenceIdeal.dot_S1024x16x64x64_S1024x16x64x32_S1024x16x64x32_3_2_2_3_01_01.lhsIdx (ix4 g h l d)
      ((contrEquiv1 _ 64 rfl rfl).symm c) = ix4 g h l c := by
    funext ax; apply Fin.ext
    match ax with
    | ⟨0, _⟩ => rfl
    | ⟨1, _⟩ => rfl
    | ⟨2, _⟩ => rfl
    | ⟨3, _⟩ => exact (DotDims.lhsIdx_val_of_single _ rfl _ _).trans c3
  have r3 : Cert.ReferenceIdeal.dot_S1024x16x64x64_S1024x16x64x32_S1024x16x64x32_3_2_2_3_01_01.rhsIdx (ix4 g h l d)
      ((contrEquiv1 _ 64 rfl rfl).symm c) = ix4 g h c d := by
    funext ax; apply Fin.ext
    match ax with
    | ⟨0, _⟩ => rfl
    | ⟨1, _⟩ => rfl
    | ⟨2, _⟩ => exact (DotDims.rhsIdx_val_of_single _ rfl _ _).trans c3
    | ⟨3, _⟩ => rfl
  rw [l3, r3]

/-- The host's inverse square root and exponential at an index are the ideal instance's at the element. -/
theorem hostRsqrt_apply {s : Shape} {φ : FTy} (x : FVec Ideal s φ) (i : s.Idx) : Host.rsqrt (F := Ideal) x i = Ideal.rsqrt (x i) := rfl
theorem hostExp_apply {s : Shape} {φ : FTy} (x : FVec Ideal s φ) (i : s.Idx) : Host.exp (F := Ideal) x i = Ideal.exp (x i) := rfl

end Ops

/-! ## The four functions at an index -/

/-- Rows scaled to unit length, at (g, h, l, d): the specification's `l2n` of the window's and head's rows. -/
theorem l2nFn_apply (q : FVec Ideal S1024x16x64x32 .f32) (g : Fin 1024) (h : Fin 16) (l : Fin 64) (d : Fin 32) :
    l2nFn q (ix4 g h l d) = Cert.Spec.l2n (fun l d => q (ix4 g h l d)) l d := by
  unfold l2nFn Cert.Spec.l2n Cert.Spec.eps
  rw [mulf_apply, bcastLast32_apply, hostRsqrt_apply, maximumf_apply, bcastUnit_apply, hostSum32_apply,
    broadcastInDim_scalar_apply, constant_apply]
  rfl

/-- The logits at (g, h, l, j): the specification's `logitR` over the unit rows. -/
theorem logitFn_apply (q k : FVec Ideal S1024x16x64x32 .f32) (t : FVec Ideal S16x1x1 .f32) (rb : FVec Ideal S1024x16x64x64 .f32)
    (g : Fin 1024) (h : Fin 16) (l j : Fin 64) :
    logitFn q k t rb (ix4 g h l j)
      = Cert.Spec.logitR (Cert.Spec.l2n fun l d => q (ix4 g h l d)) (Cert.Spec.l2n fun l d => k (ix4 g h l d))
          (t (ix3 h 0 0)) (fun l j => rb (ix4 g h l j)) l j := by
  unfold logitFn Cert.Spec.logitR
  rw [addf_apply, dotRows_apply]
  refine congrArg (· + rb (ix4 g h l j)) (Finset.sum_congr rfl fun e _ => ?_)
  rw [mulf_apply, bcastHead_apply, l2nFn_apply, l2nFn_apply]

/-- The row maximum as the reference takes it (the fold from the word of −∞, then once more against that word), at
    (g, h, l): the specification's `rowMax` of the row. -/
theorem rowMaxFn_apply (hb : S_.BroadcastsInDim S1024x16x64 (![] : Fin 0 → Fin S1024x16x64.rank))
    (h' : S1024x16x64x64.ReducesTo [3] S1024x16x64) (hu : 0 < S_.numel)
    (z : FVec Ideal S1024x16x64x64 .f32) (g : Fin 1024) (h : Fin 16) (l : Fin 64) :
    maximumf (broadcastInDim S1024x16x64 ![] hb (constant (F := Ideal) S_ .f32 0xFF800000#32))
        (Host.reduce (FloatOps.maximumf (F := Ideal) (φ := .f32)) z (constant (F := Ideal) S_ .f32 0xFF800000#32) h' hu) (ix3 g h l)
      = Cert.Spec.rowMax (fun j => z (ix4 g h l j)) := by
  unfold Cert.Spec.rowMax Cert.Spec.negInf
  rw [maximumf_apply, broadcastInDim_scalar_apply, constant_apply, hostMax64_apply]

/-- The softmax at (g, h, l, j): the specification's `softmaxRow` of the row. -/
theorem softmaxFn_apply (z : FVec Ideal S1024x16x64x64 .f32) (g : Fin 1024) (h : Fin 16) (l j : Fin 64) :
    softmaxFn z (ix4 g h l j) = Cert.Spec.softmaxRow (fun j => z (ix4 g h l j)) j := by
  have he : ∀ (mx : FVec Ideal S1024x16x64 .f32) (j' : Fin 64),
      Host.exp (F := Ideal) (subf z (broadcastInDim S1024x16x64x64 ![0, 1, 2, 3] bcast_S1024x16x64x1_S1024x16x64x64_0_1_2_3
        (broadcastInDim S1024x16x64x1 ![0, 1, 2] bcast_S1024x16x64_S1024x16x64x1_0_1_2 mx))) (ix4 g h l j')
        = Ideal.exp (z (ix4 g h l j') - mx (ix3 g h l)) := fun mx j' => by
    rw [hostExp_apply, subf_apply, bcastLast64_apply, bcastUnit_apply]
  unfold softmaxFn Cert.Spec.softmaxRow
  rw [hostDivf_apply, bcastLast64_apply, bcastUnit_apply, hostSum64_apply, he]
  refine congrArg₂ Ideal.div ?_ (Finset.sum_congr rfl fun j' _ => ?_)
  · rw [rowMaxFn_apply]
  · rw [he, rowMaxFn_apply]

theorem attnFn_apply (q k v : FVec Ideal S1024x16x64x32 .f32) (t : FVec Ideal S16x1x1 .f32) (rb : FVec Ideal S1024x16x64x64 .f32)
    (g : Fin 1024) (h : Fin 16) (l : Fin 64) (d : Fin 32) :
    attnFn q k v t rb (ix4 g h l d)
      = Cert.Spec.headR (fun l d => q (ix4 g h l d)) (fun l d => k (ix4 g h l d)) (fun l d => v (ix4 g h l d))
          (t (ix3 h 0 0)) (fun l j => rb (ix4 g h l j)) l d := by
  unfold attnFn Cert.Spec.headR Cert.Spec.head
  rw [dotVals_apply]
  refine Finset.sum_congr rfl fun j _ => ?_
  rw [softmaxFn_apply]
  refine congrArg (fun f => Cert.Spec.softmaxRow f j * v (ix4 g h j d)) (funext fun j' => ?_)
  exact logitFn_apply q k t rb g h l j'

end Cert.ReferenceIdeal.RefVal

end
-- ==== Proof.Ref.Vals.lean ====
import proofs.«404274_j11819749998707_3_alg».proof.Proof.Ref.Run
import Mathlib.Data.List.Forall2

/-! The reference line's buffers, one operation at a time: at the end of the line each buffer holds its own
    operation's function applied to what its operands hold at the end of the line (a constant: its literal).
    This is sound because every buffer is written by exactly one operation, after the ones writing its
    operands. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## One operation peeled off the fold

Every buffer is written by at most one operation of the line. So the fold at a buffer is its own operation's
result over the fold of the operations before it (no later operation writes the buffer), and the fold of the
operations before it agrees with the whole fold at every operand (an operand is written earlier, or never). -/

/-- Operation by operation, the reference each writes. -/
def WritesAt (os : List (HloOp τ sig (Elt F))) (Wl : List (Ref sig .tc)) : Prop :=
  List.Forall₂ (fun op y => op.writes = {Proc.devRef (τ := τ) .tc y}) os Wl

/-- Two stretches run one after the other. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_app l₁ l₂]

/-- A reference none of the operations writes keeps its contents. -/
theorem kept_of_writesAt : ∀ {os : List (HloOp τ sig (Elt F))} {Wl : List (Ref sig .tc)}, WritesAt os Wl →
    ∀ (V : Valuation τ sig (Elt F)) (r : Ref sig .tc), r ∉ Wl → StableHlo.after os V (Proc.devRef .tc r) = V (Proc.devRef .tc r)
  | _, _, .nil, _, _, _ => rfl
  | _, _, .cons hop h, V, r, hr => by
    rw [after_cons, kept_of_writesAt h _ r (fun hm => hr (List.mem_cons_of_mem _ hm)),
      HloOp.result_of_not_mem _ _ (by
        rw [hop, Finset.mem_singleton]
        exact devRef_ne_of_ne fun e => hr (e ▸ List.mem_cons_self))]

/-- A reference no operation from the `k`-th on writes: the whole fold there is the fold of the first `k`. -/
theorem after_take_eq {os : List (HloOp τ sig (Elt F))} {Wl : List (Ref sig .tc)} (h : WritesAt os Wl) (k : Nat)
    (V : Valuation τ sig (Elt F)) (r : Ref sig .tc) (hr : r ∉ Wl.drop k) :
    StableHlo.after os V (Proc.devRef .tc r) = StableHlo.after (os.take k) V (Proc.devRef .tc r) := by
  conv_lhs => rw [← List.take_append_drop k os, after_app]
  exact kept_of_writesAt (List.forall₂_drop k h) _ r hr

/-- The fold at a reference no operation after the `k`-th writes: the `k`-th operation's result over the fold of
    the first `k`. -/
theorem after_peel {os : List (HloOp τ sig (Elt F))} {Wl : List (Ref sig .tc)} (h : WritesAt os Wl) (k : Nat)
    (op : HloOp τ sig (Elt F)) (hk : os[k]? = some op) (V : Valuation τ sig (Elt F)) (y : Ref sig .tc)
    (hy : y ∉ Wl.drop (k + 1)) :
    StableHlo.after os V (Proc.devRef .tc y) = op.result (StableHlo.after (os.take k) V) (Proc.devRef .tc y) := by
  rw [after_take_eq h (k + 1) V y hy, List.take_succ, hk, after_app]
  rfl

/-- The operations' written references, position by position. -/
theorem ops_at : WritesAt (ops : List (HloOp τ sig (Elt F))) ops_W :=
  .cons (nullary_writes ..) <|
  .cons (nullary_writes ..) <|
  .cons (binary_writes ..) <|
  .cons (nullary_writes ..) <|
  .cons (unary_writes ..) <|
  .cons (nary_writes ..) <|
  .cons (unary_writes ..) <|
  .cons (unary_writes ..) <|
  .cons (binary_writes ..) <|
  .cons (unary_writes ..) <|
  .cons (unary_writes ..) <|
  .cons (unary_writes ..) <|
  .cons (reshape_writes ..) <|
  .cons (unary_writes ..) <|
  .cons (reshape_writes ..) <|
  .cons (reshape_writes ..) <|
  .cons (unary_writes ..) <|
  .cons (reshape_writes ..) <|
  .cons (reshape_writes ..) <|
  .cons (unary_writes ..) <|
  .cons (reshape_writes ..) <|
  .cons (binary_writes ..) <|
  .cons (nullary_writes ..) <|
  .cons (binary_writes ..) <|
  .cons (unary_writes ..) <|
  .cons (nullary_writes ..) <|
  .cons (unary_writes ..) <|
  .cons (binary_writes ..) <|
  .cons (unary_writes ..) <|
  .cons (unary_writes ..) <|
  .cons (binary_writes ..) <|
  .cons (binary_writes ..) <|
  .cons (nullary_writes ..) <|
  .cons (binary_writes ..) <|
  .cons (unary_writes ..) <|
  .cons (nullary_writes ..) <|
  .cons (unary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (unary_writes ..) <|
  .cons (unary_writes ..) <|
  .cons (unary_writes ..) <|
  .cons (binary_writes ..) <|
  .cons (binary_writes ..) <|
  .cons (binary_writes ..) <|
  .cons (unary_writes ..) <|
  .cons (unary_writes ..) <|
  .cons (binary_writes ..) <|
  .cons (nullary_writes ..) <|
  .cons (unary_writes ..) <|
  .cons (binary_writes ..) <|
  .cons (binary_writes ..) <|
  .cons (nullary_writes ..) <|
  .cons (unary_writes ..) <|
  .cons (binary_writes ..) <|
  .cons (nullary_writes ..) <|
  .cons (unary_writes ..) <|
  .cons (binary_writes ..) <|
  .cons (ternary_writes ..) <|
  .cons (unary_writes ..) <|
  .cons (binary_writes ..) <|
  .cons (reshape_writes ..) <|
  .cons (unary_writes ..) <|
  .cons (unary_writes ..) <|
  .cons (unary_writes ..) <|
  .cons (nullary_writes ..) <|
  .cons (unary_writes ..) <|
  .cons (binary_writes ..) <|
  .cons (nullary_writes ..) <|
  .cons (unary_writes ..) <|
  .cons (binary_writes ..) <|
  .cons (unary_writes ..) <|
  .cons (nullary_writes ..) <|
  .cons (unary_writes ..) <|
  .cons (binary_writes ..) <|
  .cons (unary_writes ..) <|
  .cons (binary_writes ..) <|
  .cons (nullary_writes ..) <|
  .cons (binary_writes ..) <|
  .cons (nullary_writes ..) <|
  .cons (unary_writes ..) <|
  .cons (binary_writes ..) <|
  .cons (unary_writes ..) <|
  .cons (unary_writes ..) <|
  .cons (binary_writes ..) <|
  .cons (unary_writes ..) <|
  .cons (nullary_writes ..) <|
  .cons (binary_writes ..) <|
  .cons (unary_writes ..) <|
  .cons (unary_writes ..) <|
  .cons (binary_writes ..) <|
  .cons (binary_writes ..) <|
  .cons (reshape_writes ..) <|
  .cons (unary_writes ..) <|
  .cons (reshape_writes ..) <|
  .cons (binary_writes ..) <|
  .cons (unary_writes ..) <|
  .cons (unary_writes ..) <|
  .cons (binary_writes ..) <| .nil

/-! ## Buffer by buffer -/

/-- `main_cst` is a constant: its literal. -/
theorem cst_eq (V : Valuation τ sig (Elt F)) :
    StableHlo.after ops V (Proc.devRef .tc main_cst)
      = (fun i => FloatOps.ofBits .f32 (lit0 (S225x2.rowMajor i)) : (⟨S225x2, .f32⟩ : BufTy).Contents (Elt F)) := by
  rw [after_peel ops_at 0 _ rfl V main_cst (by decide),
    nullary_result]
  rfl

/-- `main_c` is a constant: its literal. -/
theorem c_eq (V : Valuation τ sig (Elt F)) :
    StableHlo.after ops V (Proc.devRef .tc main_c)
      = (fun i => lit1 (S4096.rowMajor i) : (⟨S4096, .i32⟩ : BufTy).Contents (Elt F)) := by
  rw [after_peel ops_at 1 _ rfl V main_c (by decide),
    nullary_result]
  rfl

/-- `main_v0` at the line's end: its operation over its operands at the line's end. -/
theorem v0_eq (V : Valuation τ sig (Elt F)) :
    StableHlo.after ops V (Proc.devRef .tc main_v0)
      = Host.dotGeneral dot_S4x128x128x512_S512x1536_S4x128x128x1536_3_0_012_1_n_n none (StableHlo.after ops V (Proc.devRef .tc main_arg0)) (StableHlo.after ops V (Proc.devRef .tc main_arg1)) := by
  rw [after_peel ops_at 2 _ rfl V main_v0 (by decide),
    binary_result,
    ← after_take_eq ops_at 2 V main_arg0 (by decide),
    ← after_take_eq ops_at 2 V main_arg1 (by decide)]

/-- `main_cst_0` is a constant: its literal. -/
theorem cst_0_eq (V : Valuation τ sig (Elt F)) :
    StableHlo.after ops V (Proc.devRef .tc main_cst_0)
      = (constant S_ .f32 0x00000000#32 : (⟨S_, .f32⟩ : BufTy).Contents (Elt F)) := by
  rw [after_peel ops_at 3 _ rfl V main_cst_0 (by decide),
    nullary_result]

/-- `main_v1` at the line's end: its operation over its operands at the line's end. -/
theorem v1_eq (V : Valuation τ sig (Elt F)) :
    StableHlo.after ops V (Proc.devRef .tc main_v1)
      = (broadcastInDim S512 ![] bcast_S_S512 : (⟨S_, .f32⟩ : BufTy).Contents (Elt F) → (⟨S512, .f32⟩ : BufTy).Contents (Elt F)) (StableHlo.after ops V (Proc.devRef .tc main_cst_0)) := by
  rw [after_peel ops_at 4 _ rfl V main_v1 (by decide),
    unary_result,
    ← after_take_eq ops_at 4 V main_cst_0 (by decide)]

/-- `main_v2` at the line's end: its operation over its operands at the line's end. -/
theorem v2_eq (V : Valuation τ sig (Elt F)) :
    StableHlo.after ops V (Proc.devRef .tc main_v2)
      = concatenate S1536 0 [⟨S512, StableHlo.after ops V (Proc.devRef .tc main_arg2)⟩, ⟨S512, StableHlo.after ops V (Proc.devRef .tc main_v1)⟩, ⟨S512, StableHlo.after ops V (Proc.devRef .tc main_arg3)⟩] concatenates_S512_S512_S512_S1536_d0 := by
  refine (after_peel ops_at 5 _ rfl V main_v2 (by decide)).trans ((nary_result ..).trans ?_)
  show concatenate S1536 0 [⟨S512, StableHlo.after (List.take 5 ops) V (Proc.devRef .tc main_arg2)⟩, ⟨S512, StableHlo.after (List.take 5 ops) V (Proc.devRef .tc main_v1)⟩, ⟨S512, StableHlo.after (List.take 5 ops) V (Proc.devRef .tc main_arg3)⟩] _ = _
  rw [← after_take_eq ops_at 5 V main_arg2 (by decide), ← after_take_eq ops_at 5 V main_v1 (by decide), ← after_take_eq ops_at 5 V main_arg3 (by decide)]

/-- `main_v3` at the line's end: its operation over its operands at the line's end. -/
theorem v3_eq (V : Valuation τ sig (Elt F)) :
    StableHlo.after ops V (Proc.devRef .tc main_v3)
      = (broadcastInDim S1x1x1x1536 ![3] bcast_S1536_S1x1x1x1536_3 : (⟨S1536, .f32⟩ : BufTy).Contents (Elt F) → (⟨S1x1x1x1536, .f32⟩ : BufTy).Contents (Elt F)) (StableHlo.after ops V (Proc.devRef .tc main_v2)) := by
  rw [after_peel ops_at 6 _ rfl V main_v3 (by decide),
    unary_result,
    ← after_take_eq ops_at 6 V main_v2 (by decide)]

/-- `main_v4` at the line's end: its operation over its operands at the line's end. -/
theorem v4_eq (V : Valuation τ sig (Elt F)) :
    StableHlo.after ops V (Proc.devRef .tc main_v4)
      = (broadcastInDim S4x128x128x1536 ![0, 1, 2, 3] bcast_S1x1x1x1536_S4x128x128x1536_0_1_2_3 : (⟨S1x1x1x1536, .f32⟩ : BufTy).Contents (Elt F) → (⟨S4x128x128x1536, .f32⟩ : BufTy).Contents (Elt F)) (StableHlo.after ops V (Proc.devRef .tc main_v3)) := by
  rw [after_peel ops_at 7 _ rfl V main_v4 (by decide),
    unary_result,
    ← after_take_eq ops_at 7 V main_v3 (by decide)]

/-- `main_v5` at the line's end: its operation over its operands at the line's end. -/
theorem v5_eq (V : Valuation τ sig (Elt F)) :
    StableHlo.after ops V (Proc.devRef .tc main_v5)
      = (addf : (⟨S4x128x128x1536, .f32⟩ : BufTy).Contents (Elt F) → (⟨S4x128x128x1536, .f32⟩ : BufTy).Contents (Elt F) → (⟨S4x128x128x1536, .f32⟩ : BufTy).Contents (Elt F)) (StableHlo.after ops V (Proc.devRef .tc main_v0)) (StableHlo.after ops V (Proc.devRef .tc main_v4)) := by
  rw [after_peel ops_at 8 _ rfl V main_v5 (by decide),
    binary_result,
    ← after_take_eq ops_at 8 V main_v0 (by decide),
    ← after_take_eq ops_at 8 V main_v4 (by decide)]

/-- `main_v6` at the line's end: its operation over its operands at the line's end. -/
theorem v6_eq (V : Valuation τ sig (Elt F)) :
    StableHlo.after ops V (Proc.devRef .tc main_v6)
      = extractStridedSlice S4x128x128x512 ![0, 0, 0, 0] (StableHlo.after ops V (Proc.devRef .tc main_v5)) slices_S4x128x128x1536_S4x128x128x512_0_0_0_0 := by
  rw [after_peel ops_at 9 _ rfl V main_v6 (by decide),
    unary_result,
    ← after_take_eq ops_at 9 V main_v5 (by decide)]

/-- `main_v7` at the line's end: its operation over its operands at the line's end. -/
theorem v7_eq (V : Valuation τ sig (Elt F)) :
    StableHlo.after ops V (Proc.devRef .tc main_v7)
      = extractStridedSlice S4x128x128x512 ![0, 0, 0, 512] (StableHlo.after ops V (Proc.devRef .tc main_v5)) slices_S4x128x128x1536_S4x128x128x512_0_0_0_512 := by
  rw [after_peel ops_at 10 _ rfl V main_v7 (by decide),
    unary_result,
    ← after_take_eq ops_at 10 V main_v5 (by decide)]

/-- `main_v8` at the line's end: its operation over its operands at the line's end. -/
theorem v8_eq (V : Valuation τ sig (Elt F)) :
    StableHlo.after ops V (Proc.devRef .tc main_v8)
      = extractStridedSlice S4x128x128x512 ![0, 0, 0, 1024] (StableHlo.after ops V (Proc.devRef .tc main_v5)) slices_S4x128x128x1536_S4x128x128x512_0_0_0_1024 := by
  rw [after_peel ops_at 11 _ rfl V main_v8 (by decide),
    unary_result,
    ← after_take_eq ops_at 11 V main_v5 (by decide)]

/-- `main_v9` at the line's end: its operation over its operands at the line's end. -/
theorem v9_eq (V : Valuation τ sig (Elt F)) :
    StableHlo.after ops V (Proc.devRef .tc main_v9)
      = shapeCast S4x8x16x8x16x16x32 (StableHlo.after ops V (Proc.devRef .tc main_v6)) shapeCasts_S4x128x128x512_S4x8x16x8x16x16x32 := by
  rw [after_peel ops_at 12 _ rfl V main_v9 (by decide),
    reshape_result,
    ← after_take_eq ops_at 12 V main_v6 (by decide)]
  rfl

/-- `main_v10` at the line's end: its operation over its operands at the line's end. -/
theorem v10_eq (V : Valuation τ sig (Elt F)) :
    StableHlo.after ops V (Proc.devRef .tc main_v10)
      = transpose S4x16x16x16x8x8x32 [0, 2, 4, 5, 1, 3, 6] (StableHlo.after ops V (Proc.devRef .tc main_v9)) transposes_S4x8x16x8x16x16x32_S4x16x16x16x8x8x32_0_2_4_5_1_3_6 := by
  rw [after_peel ops_at 13 _ rfl V main_v10 (by decide),
    unary_result,
    ← after_take_eq ops_at 13 V main_v9 (by decide)]

/-- `main_v11` at the line's end: its operation over its operands at the line's end. -/
theorem v11_eq (V : Valuation τ sig (Elt F)) :
    StableHlo.after ops V (Proc.devRef .tc main_v11)
      = shapeCast S1024x16x64x32 (StableHlo.after ops V (Proc.devRef .tc main_v10)) shapeCasts_S4x16x16x16x8x8x32_S1024x16x64x32 := by
  rw [after_peel ops_at 14 _ rfl V main_v11 (by decide),
    reshape_result,
    ← after_take_eq ops_at 14 V main_v10 (by decide)]
  rfl

/-- `main_v12` at the line's end: its operation over its operands at the line's end. -/
theorem v12_eq (V : Valuation τ sig (Elt F)) :
    StableHlo.after ops V (Proc.devRef .tc main_v12)
      = shapeCast S4x8x16x8x16x16x32 (StableHlo.after ops V (Proc.devRef .tc main_v7)) shapeCasts_S4x128x128x512_S4x8x16x8x16x16x32 := by
  rw [after_peel ops_at 15 _ rfl V main_v12 (by decide),
    reshape_result,
    ← after_take_eq ops_at 15 V main_v7 (by decide)]
  rfl

/-- `main_v13` at the line's end: its operation over its operands at the line's end. -/
theorem v13_eq (V : Valuation τ sig (Elt F)) :
    StableHlo.after ops V (Proc.devRef .tc main_v13)
      = transpose S4x16x16x16x8x8x32 [0, 2, 4, 5, 1, 3, 6] (StableHlo.after ops V (Proc.devRef .tc main_v12)) transposes_S4x8x16x8x16x16x32_S4x16x16x16x8x8x32_0_2_4_5_1_3_6 := by
  rw [after_peel ops_at 16 _ rfl V main_v13 (by decide),
    unary_result,
    ← after_take_eq ops_at 16 V main_v12 (by decide)]

/-- `main_v14` at the line's end: its operation over its operands at the line's end. -/
theorem v14_eq (V : Valuation τ sig (Elt F)) :
    StableHlo.after ops V (Proc.devRef .tc main_v14)
      = shapeCast S1024x16x64x32 (StableHlo.after ops V (Proc.devRef .tc main_v13)) shapeCasts_S4x16x16x16x8x8x32_S1024x16x64x32 := by
  rw [after_peel ops_at 17 _ rfl V main_v14 (by decide),
    reshape_result,
    ← after_take_eq ops_at 17 V main_v13 (by decide)]
  rfl

/-- `main_v15` at the line's end: its operation over its operands at the line's end. -/
theorem v15_eq (V : Valuation τ sig (Elt F)) :
    StableHlo.after ops V (Proc.devRef .tc main_v15)
      = shapeCast S4x8x16x8x16x16x32 (StableHlo.after ops V (Proc.devRef .tc main_v8)) shapeCasts_S4x128x128x512_S4x8x16x8x16x16x32 := by
  rw [after_peel ops_at 18 _ rfl V main_v15 (by decide),
    reshape_result,
    ← after_take_eq ops_at 18 V main_v8 (by decide)]
  rfl

/-- `main_v16` at the line's end: its operation over its operands at the line's end. -/
theorem v16_eq (V : Valuation τ sig (Elt F)) :
    StableHlo.after ops V (Proc.devRef .tc main_v16)
      = transpose S4x16x16x16x8x8x32 [0, 2, 4, 5, 1, 3, 6] (StableHlo.after ops V (Proc.devRef .tc main_v15)) transposes_S4x8x16x8x16x16x32_S4x16x16x16x8x8x32_0_2_4_5_1_3_6 := by
  rw [after_peel ops_at 19 _ rfl V main_v16 (by decide),
    unary_result,
    ← after_take_eq ops_at 19 V main_v15 (by decide)]

/-- `main_v17` at the line's end: its operation over its operands at the line's end. -/
theorem v17_eq (V : Valuation τ sig (Elt F)) :
    StableHlo.after ops V (Proc.devRef .tc main_v17)
      = shapeCast S1024x16x64x32 (StableHlo.after ops V (Proc.devRef .tc main_v16)) shapeCasts_S4x16x16x16x8x8x32_S1024x16x64x32 := by
  rw [after_peel ops_at 20 _ rfl V main_v17 (by decide),
    reshape_result,
    ← after_take_eq ops_at 20 V main_v16 (by decide)]
  rfl

/-- `main_v18` at the line's end: its operation over its operands at the line's end. -/
theorem v18_eq (V : Valuation τ sig (Elt F)) :
    StableHlo.after ops V (Proc.devRef .tc main_v18)
      = (mulf : (⟨S1024x16x64x32, .f32⟩ : BufTy).Contents (Elt F) → (⟨S1024x16x64x32, .f32⟩ : BufTy).Contents (Elt F) → (⟨S1024x16x64x32, .f32⟩ : BufTy).Contents (Elt F)) (StableHlo.after ops V (Proc.devRef .tc main_v11)) (StableHlo.after ops V (Proc.devRef .tc main_v11)) := by
  rw [after_peel ops_at 21 _ rfl V main_v18 (by decide),
    binary_result,
    ← after_take_eq ops_at 21 V main_v11 (by decide)]

/-- `main_cst_1` is a constant: its literal. -/
theorem cst_1_eq (V : Valuation τ sig (Elt F)) :
    StableHlo.after ops V (Proc.devRef .tc main_cst_1)
      = (constant S_ .f32 0x00000000#32 : (⟨S_, .f32⟩ : BufTy).Contents (Elt F)) := by
  rw [after_peel ops_at 22 _ rfl V main_cst_1 (by decide),
    nullary_result]

/-- `main_v19` at the line's end: its operation over its operands at the line's end. -/
theorem v19_eq (V : Valuation τ sig (Elt F)) :
    StableHlo.after ops V (Proc.devRef .tc main_v19)
      = Host.reduceAdd (StableHlo.after ops V (Proc.devRef .tc main_v18)) (StableHlo.after ops V (Proc.devRef .tc main_cst_1)) reducesTo_S1024x16x64x32_S1024x16x64_d3 h_S_ := by
  rw [after_peel ops_at 23 _ rfl V main_v19 (by decide),
    binary_result,
    ← after_take_eq ops_at 23 V main_v18 (by decide),
    ← after_take_eq ops_at 23 V main_cst_1 (by decide)]

/-- `main_v20` at the line's end: its operation over its operands at the line's end. -/
theorem v20_eq (V : Valuation τ sig (Elt F)) :
    StableHlo.after ops V (Proc.devRef .tc main_v20)
      = (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)) (StableHlo.after ops V (Proc.devRef .tc main_v19)) := by
  rw [after_peel ops_at 24 _ rfl V main_v20 (by decide),
    unary_result,
    ← after_take_eq ops_at 24 V main_v19 (by decide)]

/-- `main_cst_2` is a constant: its literal. -/
theorem cst_2_eq (V : Valuation τ sig (Elt F)) :
    StableHlo.after ops V (Proc.devRef .tc main_cst_2)
      = (constant S_ .f32 0x378205FF#32 : (⟨S_, .f32⟩ : BufTy).Contents (Elt F)) := by
  rw [after_peel ops_at 25 _ rfl V main_cst_2 (by decide),
    nullary_result]

/-- `main_v21` at the line's end: its operation over its operands at the line's end. -/
theorem v21_eq (V : Valuation τ sig (Elt F)) :
    StableHlo.after ops V (Proc.devRef .tc main_v21)
      = (broadcastInDim S1024x16x64x1 ![] bcast_S_S1024x16x64x1 : (⟨S_, .f32⟩ : BufTy).Contents (Elt F) → (⟨S1024x16x64x1, .f32⟩ : BufTy).Contents (Elt F)) (StableHlo.after ops V (Proc.devRef .tc main_cst_2)) := by
  rw [after_peel ops_at 26 _ rfl V main_v21 (by decide),
    unary_result,
    ← after_take_eq ops_at 26 V main_cst_2 (by decide)]

/-- `main_v22` at the line's end: its operation over its operands at the line's end. -/
theorem v22_eq (V : Valuation τ sig (Elt F)) :
    StableHlo.after ops V (Proc.devRef .tc main_v22)
      = (maximumf : (⟨S1024x16x64x1, .f32⟩ : BufTy).Contents (Elt F) → (⟨S1024x16x64x1, .f32⟩ : BufTy).Contents (Elt F) → (⟨S1024x16x64x1, .f32⟩ : BufTy).Contents (Elt F)) (StableHlo.after ops V (Proc.devRef .tc main_v20)) (StableHlo.after ops V (Proc.devRef .tc main_v21)) := by
  rw [after_peel ops_at 27 _ rfl V main_v22 (by decide),
    binary_result,
    ← after_take_eq ops_at 27 V main_v20 (by decide),
    ← after_take_eq ops_at 27 V main_v21 (by decide)]

/-- `main_v23` at the line's end: its operation over its operands at the line's end. -/
theorem v23_eq (V : Valuation τ sig (Elt F)) :
    StableHlo.after ops V (Proc.devRef .tc main_v23)
      = (Host.rsqrt : (⟨S1024x16x64x1, .f32⟩ : BufTy).Contents (Elt F) → (⟨S1024x16x64x1, .f32⟩ : BufTy).Contents (Elt F)) (StableHlo.after ops V (Proc.devRef .tc main_v22)) := by
  rw [after_peel ops_at 28 _ rfl V main_v23 (by decide),
    unary_result,
    ← after_take_eq ops_at 28 V main_v22 (by decide)]

/-- `main_v24` at the line's end: its operation over its operands at the line's end. -/
theorem v24_eq (V : Valuation τ sig (Elt F)) :
    StableHlo.after ops V (Proc.devRef .tc main_v24)
      = (broadcastInDim S1024x16x64x32 ![0, 1, 2, 3] bcast_S1024x16x64x1_S1024x16x64x32_0_1_2_3 : (⟨S1024x16x64x1, .f32⟩ : BufTy).Contents (Elt F) → (⟨S1024x16x64x32, .f32⟩ : BufTy).Contents (Elt F)) (StableHlo.after ops V (Proc.devRef .tc main_v23)) := by
  rw [after_peel ops_at 29 _ rfl V main_v24 (by decide),
    unary_result,
    ← after_take_eq ops_at 29 V main_v23 (by decide)]

/-- `main_v25` at the line's end: its operation over its operands at the line's end. -/
theorem v25_eq (V : Valuation τ sig (Elt F)) :
    StableHlo.after ops V (Proc.devRef .tc main_v25)
      = (mulf : (⟨S1024x16x64x32, .f32⟩ : BufTy).Contents (Elt F) → (⟨S1024x16x64x32, .f32⟩ : BufTy).Contents (Elt F) → (⟨S1024x16x64x32, .f32⟩ : BufTy).Contents (Elt F)) (StableHlo.after ops V (Proc.devRef .tc main_v11)) (StableHlo.after ops V (Proc.devRef .tc main_v24)) := by
  rw [after_peel ops_at 30 _ rfl V main_v25 (by decide),
    binary_result,
    ← after_take_eq ops_at 30 V main_v11 (by decide),
    ← after_take_eq ops_at 30 V main_v24 (by decide)]

/-- `main_v26` at the line's end: its operation over its operands at the line's end. -/
theorem v26_eq (V : Valuation τ sig (Elt F)) :
    StableHlo.after ops V (Proc.devRef .tc main_v26)
      = (mulf : (⟨S1024x16x64x32, .f32⟩ : BufTy).Contents (Elt F) → (⟨S1024x16x64x32, .f32⟩ : BufTy).Contents (Elt F) → (⟨S1024x16x64x32, .f32⟩ : BufTy).Contents (Elt F)) (StableHlo.after ops V (Proc.devRef .tc main_v14)) (StableHlo.after ops V (Proc.devRef .tc main_v14)) := by
  rw [after_peel ops_at 31 _ rfl V main_v26 (by decide),
    binary_result,
    ← after_take_eq ops_at 31 V main_v14 (by decide)]

/-- `main_cst_3` is a constant: its literal. -/
theorem cst_3_eq (V : Valuation τ sig (Elt F)) :
    StableHlo.after ops V (Proc.devRef .tc main_cst_3)
      = (constant S_ .f32 0x00000000#32 : (⟨S_, .f32⟩ : BufTy).Contents (Elt F)) := by
  rw [after_peel ops_at 32 _ rfl V main_cst_3 (by decide),
    nullary_result]

/-- `main_v27` at the line's end: its operation over its operands at the line's end. -/
theorem v27_eq (V : Valuation τ sig (Elt F)) :
    StableHlo.after ops V (Proc.devRef .tc main_v27)
      = Host.reduceAdd (StableHlo.after ops V (Proc.devRef .tc main_v26)) (StableHlo.after ops V (Proc.devRef .tc main_cst_3)) reducesTo_S1024x16x64x32_S1024x16x64_d3 h_S_ := by
  rw [after_peel ops_at 33 _ rfl V main_v27 (by decide),
    binary_result,
    ← after_take_eq ops_at 33 V main_v26 (by decide),
    ← after_take_eq ops_at 33 V main_cst_3 (by decide)]

/-- `main_v28` at the line's end: its operation over its operands at the line's end. -/
theorem v28_eq (V : Valuation τ sig (Elt F)) :
    StableHlo.after ops V (Proc.devRef .tc main_v28)
      = (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)) (StableHlo.after ops V (Proc.devRef .tc main_v27)) := by
  rw [after_peel ops_at 34 _ rfl V main_v28 (by decide),
    unary_result,
    ← after_take_eq ops_at 34 V main_v27 (by decide)]

/-- `main_cst_4` is a constant: its literal. -/
theorem cst_4_eq (V : Valuation τ sig (Elt F)) :
    StableHlo.after ops V (Proc.devRef .tc main_cst_4)
      = (constant S_ .f32 0x378205FF#32 : (⟨S_, .f32⟩ : BufTy).Contents (Elt F)) := by
  rw [after_peel ops_at 35 _ rfl V main_cst_4 (by decide),
    nullary_result]

/-- `main_v29` at the line's end: its operation over its operands at the line's end. -/
theorem v29_eq (V : Valuation τ sig (Elt F)) :
    StableHlo.after ops V (Proc.devRef .tc main_v29)
      = (broadcastInDim S1024x16x64x1 ![] bcast_S_S1024x16x64x1 : (⟨S_, .f32⟩ : BufTy).Contents (Elt F) → (⟨S1024x16x64x1, .f32⟩ : BufTy).Contents (Elt F)) (StableHlo.after ops V (Proc.devRef .tc main_cst_4)) := by
  rw [after_peel ops_at 36 _ rfl V main_v29 (by decide),
    unary_result,
    ← after_take_eq ops_at 36 V main_cst_4 (by decide)]

/-- `main_v30` at the line's end: its operation over its operands at the line's end. -/
theorem v30_eq (V : Valuation τ sig (Elt F)) :
    StableHlo.after ops V (Proc.devRef .tc main_v30)
      = (maximumf : (⟨S1024x16x64x1, .f32⟩ : BufTy).Contents (Elt F) → (⟨S1024x16x64x1, .f32⟩ : BufTy).Contents (Elt F) → (⟨S1024x16x64x1, .f32⟩ : BufTy).Contents (Elt F)) (StableHlo.after ops V (Proc.devRef .tc main_v28)) (StableHlo.after ops V (Proc.devRef .tc main_v29)) := by
  rw [after_peel ops_at 37 _ rfl V main_v30 (by decide),
    binary_result,
    ← after_take_eq ops_at 37 V main_v28 (by decide),
    ← after_take_eq ops_at 37 V main_v29 (by decide)]

/-- `main_v31` at the line's end: its operation over its operands at the line's end. -/
theorem v31_eq (V : Valuation τ sig (Elt F)) :
    StableHlo.after ops V (Proc.devRef .tc main_v31)
      = (Host.rsqrt : (⟨S1024x16x64x1, .f32⟩ : BufTy).Contents (Elt F) → (⟨S1024x16x64x1, .f32⟩ : BufTy).Contents (Elt F)) (StableHlo.after ops V (Proc.devRef .tc main_v30)) := by
  rw [after_peel ops_at 38 _ rfl V main_v31 (by decide),
    unary_result,
    ← after_take_eq ops_at 38 V main_v30 (by decide)]

/-- `main_v32` at the line's end: its operation over its operands at the line's end. -/
theorem v32_eq (V : Valuation τ sig (Elt F)) :
    StableHlo.after ops V (Proc.devRef .tc main_v32)
      = (broadcastInDim S1024x16x64x32 ![0, 1, 2, 3] bcast_S1024x16x64x1_S1024x16x64x32_0_1_2_3 : (⟨S1024x16x64x1, .f32⟩ : BufTy).Contents (Elt F) → (⟨S1024x16x64x32, .f32⟩ : BufTy).Contents (Elt F)) (StableHlo.after ops V (Proc.devRef .tc main_v31)) := by
  rw [after_peel ops_at 39 _ rfl V main_v32 (by decide),
    unary_result,
    ← after_take_eq ops_at 39 V main_v31 (by decide)]

/-- `main_v33` at the line's end: its operation over its operands at the line's end. -/
theorem v33_eq (V : Valuation τ sig (Elt F)) :
    StableHlo.after ops V (Proc.devRef .tc main_v33)
      = (mulf : (⟨S1024x16x64x32, .f32⟩ : BufTy).Contents (Elt F) → (⟨S1024x16x64x32, .f32⟩ : BufTy).Contents (Elt F) → (⟨S1024x16x64x32, .f32⟩ : BufTy).Contents (Elt F)) (StableHlo.after ops V (Proc.devRef .tc main_v14)) (StableHlo.after ops V (Proc.devRef .tc main_v32)) := by
  rw [after_peel ops_at 40 _ rfl V main_v33 (by decide),
    binary_result,
    ← after_take_eq ops_at 40 V main_v14 (by decide),
    ← after_take_eq ops_at 40 V main_v32 (by decide)]

/-- `main_cst_5` is a constant: its literal. -/
theorem cst_5_eq (V : Valuation τ sig (Elt F)) :
    StableHlo.after ops V (Proc.devRef .tc main_cst_5)
      = (constant S_ .f32 0x40935D8E#32 : (⟨S_, .f32⟩ : BufTy).Contents (Elt F)) := by
  rw [after_peel ops_at 41 _ rfl V main_cst_5 (by decide),
    nullary_result]

/-- `main_v34` at the line's end: its operation over its operands at the line's end. -/
theorem v34_eq (V : Valuation τ sig (Elt F)) :
    StableHlo.after ops V (Proc.devRef .tc main_v34)
      = (broadcastInDim S16x1x1 ![] bcast_S_S16x1x1 : (⟨S_, .f32⟩ : BufTy).Contents (Elt F) → (⟨S16x1x1, .f32⟩ : BufTy).Contents (Elt F)) (StableHlo.after ops V (Proc.devRef .tc main_cst_5)) := by
  rw [after_peel ops_at 42 _ rfl V main_v34 (by decide),
    unary_result,
    ← after_take_eq ops_at 42 V main_cst_5 (by decide)]

/-- `main_v35` at the line's end: its operation over its operands at the line's end. -/
theorem v35_eq (V : Valuation τ sig (Elt F)) :
    StableHlo.after ops V (Proc.devRef .tc main_v35)
      = (minimumf : (⟨S16x1x1, .f32⟩ : BufTy).Contents (Elt F) → (⟨S16x1x1, .f32⟩ : BufTy).Contents (Elt F) → (⟨S16x1x1, .f32⟩ : BufTy).Contents (Elt F)) (StableHlo.after ops V (Proc.devRef .tc main_arg4)) (StableHlo.after ops V (Proc.devRef .tc main_v34)) := by
  rw [after_peel ops_at 43 _ rfl V main_v35 (by decide),
    binary_result,
    ← after_take_eq ops_at 43 V main_arg4 (by decide),
    ← after_take_eq ops_at 43 V main_v34 (by decide)]

/-- `main_v36` at the line's end: its operation over its operands at the line's end. -/
theorem v36_eq (V : Valuation τ sig (Elt F)) :
    StableHlo.after ops V (Proc.devRef .tc main_v36)
      = (Host.exp : (⟨S16x1x1, .f32⟩ : BufTy).Contents (Elt F) → (⟨S16x1x1, .f32⟩ : BufTy).Contents (Elt F)) (StableHlo.after ops V (Proc.devRef .tc main_v35)) := by
  rw [after_peel ops_at 44 _ rfl V main_v36 (by decide),
    unary_result,
    ← after_take_eq ops_at 44 V main_v35 (by decide)]

/-- `main_v37` at the line's end: its operation over its operands at the line's end. -/
theorem v37_eq (V : Valuation τ sig (Elt F)) :
    StableHlo.after ops V (Proc.devRef .tc main_v37)
      = (broadcastInDim S1x16x1x1 ![1, 2, 3] bcast_S16x1x1_S1x16x1x1_1_2_3 : (⟨S16x1x1, .f32⟩ : BufTy).Contents (Elt F) → (⟨S1x16x1x1, .f32⟩ : BufTy).Contents (Elt F)) (StableHlo.after ops V (Proc.devRef .tc main_v36)) := by
  rw [after_peel ops_at 45 _ rfl V main_v37 (by decide),
    unary_result,
    ← after_take_eq ops_at 45 V main_v36 (by decide)]

/-- `main_v38` at the line's end: its operation over its operands at the line's end. -/
theorem v38_eq (V : Valuation τ sig (Elt F)) :
    StableHlo.after ops V (Proc.devRef .tc main_v38)
      = (broadcastInDim S1024x16x64x32 ![0, 1, 2, 3] bcast_S1x16x1x1_S1024x16x64x32_0_1_2_3 : (⟨S1x16x1x1, .f32⟩ : BufTy).Contents (Elt F) → (⟨S1024x16x64x32, .f32⟩ : BufTy).Contents (Elt F)) (StableHlo.after ops V (Proc.devRef .tc main_v37)) := by
  rw [after_peel ops_at 46 _ rfl V main_v38 (by decide),
    unary_result,
    ← after_take_eq ops_at 46 V main_v37 (by decide)]

/-- `main_v39` at the line's end: its operation over its operands at the line's end. -/
theorem v39_eq (V : Valuation τ sig (Elt F)) :
    StableHlo.after ops V (Proc.devRef .tc main_v39)
      = (mulf : (⟨S1024x16x64x32, .f32⟩ : BufTy).Contents (Elt F) → (⟨S1024x16x64x32, .f32⟩ : BufTy).Contents (Elt F) → (⟨S1024x16x64x32, .f32⟩ : BufTy).Contents (Elt F)) (StableHlo.after ops V (Proc.devRef .tc main_v25)) (StableHlo.after ops V (Proc.devRef .tc main_v38)) := by
  rw [after_peel ops_at 47 _ rfl V main_v39 (by decide),
    binary_result,
    ← after_take_eq ops_at 47 V main_v25 (by decide),
    ← after_take_eq ops_at 47 V main_v38 (by decide)]

/-- `main_v40` at the line's end: its operation over its operands at the line's end. -/
theorem v40_eq (V : Valuation τ sig (Elt F)) :
    StableHlo.after ops V (Proc.devRef .tc main_v40)
      = Host.dotGeneral dot_S1024x16x64x32_S1024x16x64x32_S1024x16x64x64_3_3_2_2_01_01 none (StableHlo.after ops V (Proc.devRef .tc main_v39)) (StableHlo.after ops V (Proc.devRef .tc main_v33)) := by
  rw [after_peel ops_at 48 _ rfl V main_v40 (by decide),
    binary_result,
    ← after_take_eq ops_at 48 V main_v39 (by decide),
    ← after_take_eq ops_at 48 V main_v33 (by decide)]

/-- `main_v41` at the line's end: its operation over its operands at the line's end. -/
theorem v41_eq (V : Valuation τ sig (Elt F)) :
    StableHlo.after ops V (Proc.devRef .tc main_v41)
      = Host.dotGeneral dot_S225x2_S2x512_S225x512_1_0_0_1_n_n none (StableHlo.after ops V (Proc.devRef .tc main_cst)) (StableHlo.after ops V (Proc.devRef .tc main_arg5)) := by
  rw [after_peel ops_at 49 _ rfl V main_v41 (by decide),
    binary_result,
    ← after_take_eq ops_at 49 V main_cst (by decide),
    ← after_take_eq ops_at 49 V main_arg5 (by decide)]

/-- `main_v42` at the line's end: its operation over its operands at the line's end. -/
theorem v42_eq (V : Valuation τ sig (Elt F)) :
    StableHlo.after ops V (Proc.devRef .tc main_v42)
      = (broadcastInDim S1x512 ![1] bcast_S512_S1x512_1 : (⟨S512, .f32⟩ : BufTy).Contents (Elt F) → (⟨S1x512, .f32⟩ : BufTy).Contents (Elt F)) (StableHlo.after ops V (Proc.devRef .tc main_arg6)) := by
  rw [after_peel ops_at 50 _ rfl V main_v42 (by decide),
    unary_result,
    ← after_take_eq ops_at 50 V main_arg6 (by decide)]

/-- `main_v43` at the line's end: its operation over its operands at the line's end. -/
theorem v43_eq (V : Valuation τ sig (Elt F)) :
    StableHlo.after ops V (Proc.devRef .tc main_v43)
      = (broadcastInDim S225x512 ![0, 1] bcast_S1x512_S225x512_0_1 : (⟨S1x512, .f32⟩ : BufTy).Contents (Elt F) → (⟨S225x512, .f32⟩ : BufTy).Contents (Elt F)) (StableHlo.after ops V (Proc.devRef .tc main_v42)) := by
  rw [after_peel ops_at 51 _ rfl V main_v43 (by decide),
    unary_result,
    ← after_take_eq ops_at 51 V main_v42 (by decide)]

/-- `main_v44` at the line's end: its operation over its operands at the line's end. -/
theorem v44_eq (V : Valuation τ sig (Elt F)) :
    StableHlo.after ops V (Proc.devRef .tc main_v44)
      = (addf : (⟨S225x512, .f32⟩ : BufTy).Contents (Elt F) → (⟨S225x512, .f32⟩ : BufTy).Contents (Elt F) → (⟨S225x512, .f32⟩ : BufTy).Contents (Elt F)) (StableHlo.after ops V (Proc.devRef .tc main_v41)) (StableHlo.after ops V (Proc.devRef .tc main_v43)) := by
  rw [after_peel ops_at 52 _ rfl V main_v44 (by decide),
    binary_result,
    ← after_take_eq ops_at 52 V main_v41 (by decide),
    ← after_take_eq ops_at 52 V main_v43 (by decide)]

/-- `main_call0_cst` is a constant: its literal. -/
theorem call0_cst_eq (V : Valuation τ sig (Elt F)) :
    StableHlo.after ops V (Proc.devRef .tc main_call0_cst)
      = (constant S_ .f32 0x00000000#32 : (⟨S_, .f32⟩ : BufTy).Contents (Elt F)) := by
  rw [after_peel ops_at 53 _ rfl V main_call0_cst (by decide),
    nullary_result]

/-- `main_call0_v0` at the line's end: its operation over its operands at the line's end. -/
theorem call0_v0_eq (V : Valuation τ sig (Elt F)) :
    StableHlo.after ops V (Proc.devRef .tc main_call0_v0)
      = (broadcastInDim S225x512 ![] bcast_S_S225x512 : (⟨S_, .f32⟩ : BufTy).Contents (Elt F) → (⟨S225x512, .f32⟩ : BufTy).Contents (Elt F)) (StableHlo.after ops V (Proc.devRef .tc main_call0_cst)) := by
  rw [after_peel ops_at 54 _ rfl V main_call0_v0 (by decide),
    unary_result,
    ← after_take_eq ops_at 54 V main_call0_cst (by decide)]

/-- `main_v45` at the line's end: its operation over its operands at the line's end. -/
theorem v45_eq (V : Valuation τ sig (Elt F)) :
    StableHlo.after ops V (Proc.devRef .tc main_v45)
      = (maximumf : (⟨S225x512, .f32⟩ : BufTy).Contents (Elt F) → (⟨S225x512, .f32⟩ : BufTy).Contents (Elt F) → (⟨S225x512, .f32⟩ : BufTy).Contents (Elt F)) (StableHlo.after ops V (Proc.devRef .tc main_v44)) (StableHlo.after ops V (Proc.devRef .tc main_call0_v0)) := by
  rw [after_peel ops_at 55 _ rfl V main_v45 (by decide),
    binary_result,
    ← after_take_eq ops_at 55 V main_v44 (by decide),
    ← after_take_eq ops_at 55 V main_call0_v0 (by decide)]

/-- `main_v46` at the line's end: its operation over its operands at the line's end. -/
theorem v46_eq (V : Valuation τ sig (Elt F)) :
    StableHlo.after ops V (Proc.devRef .tc main_v46)
      = Host.dotGeneral dot_S225x512_S512x16_S225x16_1_0_0_1_n_n none (StableHlo.after ops V (Proc.devRef .tc main_v45)) (StableHlo.after ops V (Proc.devRef .tc main_arg7)) := by
  rw [after_peel ops_at 56 _ rfl V main_v46 (by decide),
    binary_result,
    ← after_take_eq ops_at 56 V main_v45 (by decide),
    ← after_take_eq ops_at 56 V main_arg7 (by decide)]

/-- `main_c_6` is a constant: its literal. -/
theorem c_6_eq (V : Valuation τ sig (Elt F)) :
    StableHlo.after ops V (Proc.devRef .tc main_c_6)
      = (constantI S_ 32 0#32 : (⟨S_, .i32⟩ : BufTy).Contents (Elt F)) := by
  rw [after_peel ops_at 57 _ rfl V main_c_6 (by decide),
    nullary_result]

/-- `main_v47` at the line's end: its operation over its operands at the line's end. -/
theorem v47_eq (V : Valuation τ sig (Elt F)) :
    StableHlo.after ops V (Proc.devRef .tc main_v47)
      = (broadcastInDim S4096 ![] bcast_S_S4096 : (⟨S_, .i32⟩ : BufTy).Contents (Elt F) → (⟨S4096, .i32⟩ : BufTy).Contents (Elt F)) (StableHlo.after ops V (Proc.devRef .tc main_c_6)) := by
  rw [after_peel ops_at 58 _ rfl V main_v47 (by decide),
    unary_result,
    ← after_take_eq ops_at 58 V main_c_6 (by decide)]

/-- `main_v48` at the line's end: its operation over its operands at the line's end. -/
theorem v48_eq (V : Valuation τ sig (Elt F)) :
    StableHlo.after ops V (Proc.devRef .tc main_v48)
      = (cmpi .slt : (⟨S4096, .i32⟩ : BufTy).Contents (Elt F) → (⟨S4096, .i32⟩ : BufTy).Contents (Elt F) → (⟨S4096, .i1⟩ : BufTy).Contents (Elt F)) (StableHlo.after ops V (Proc.devRef .tc main_c)) (StableHlo.after ops V (Proc.devRef .tc main_v47)) := by
  rw [after_peel ops_at 59 _ rfl V main_v48 (by decide),
    binary_result,
    ← after_take_eq ops_at 59 V main_c (by decide),
    ← after_take_eq ops_at 59 V main_v47 (by decide)]

/-- `main_c_7` is a constant: its literal. -/
theorem c_7_eq (V : Valuation τ sig (Elt F)) :
    StableHlo.after ops V (Proc.devRef .tc main_c_7)
      = (constantI S_ 32 225#32 : (⟨S_, .i32⟩ : BufTy).Contents (Elt F)) := by
  rw [after_peel ops_at 60 _ rfl V main_c_7 (by decide),
    nullary_result]

/-- `main_v49` at the line's end: its operation over its operands at the line's end. -/
theorem v49_eq (V : Valuation τ sig (Elt F)) :
    StableHlo.after ops V (Proc.devRef .tc main_v49)
      = (broadcastInDim S4096 ![] bcast_S_S4096 : (⟨S_, .i32⟩ : BufTy).Contents (Elt F) → (⟨S4096, .i32⟩ : BufTy).Contents (Elt F)) (StableHlo.after ops V (Proc.devRef .tc main_c_7)) := by
  rw [after_peel ops_at 61 _ rfl V main_v49 (by decide),
    unary_result,
    ← after_take_eq ops_at 61 V main_c_7 (by decide)]

/-- `main_v50` at the line's end: its operation over its operands at the line's end. -/
theorem v50_eq (V : Valuation τ sig (Elt F)) :
    StableHlo.after ops V (Proc.devRef .tc main_v50)
      = (addi : (⟨S4096, .i32⟩ : BufTy).Contents (Elt F) → (⟨S4096, .i32⟩ : BufTy).Contents (Elt F) → (⟨S4096, .i32⟩ : BufTy).Contents (Elt F)) (StableHlo.after ops V (Proc.devRef .tc main_c)) (StableHlo.after ops V (Proc.devRef .tc main_v49)) := by
  rw [after_peel ops_at 62 _ rfl V main_v50 (by decide),
    binary_result,
    ← after_take_eq ops_at 62 V main_c (by decide),
    ← after_take_eq ops_at 62 V main_v49 (by decide)]

/-- `main_v51` at the line's end: its operation over its operands at the line's end. -/
theorem v51_eq (V : Valuation τ sig (Elt F)) :
    StableHlo.after ops V (Proc.devRef .tc main_v51)
      = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (StableHlo.after ops V (Proc.devRef .tc main_v48)) (StableHlo.after ops V (Proc.devRef .tc main_v50)) (StableHlo.after ops V (Proc.devRef .tc main_c)) := by
  rw [after_peel ops_at 63 _ rfl V main_v51 (by decide),
    ternary_result,
    ← after_take_eq ops_at 63 V main_v48 (by decide),
    ← after_take_eq ops_at 63 V main_v50 (by decide),
    ← after_take_eq ops_at 63 V main_c (by decide)]

/-- `main_v52` at the line's end: its operation over its operands at the line's end. -/
theorem v52_eq (V : Valuation τ sig (Elt F)) :
    StableHlo.after ops V (Proc.devRef .tc main_v52)
      = (broadcastInDim S4096x1 ![0] bcast_S4096_S4096x1_0 : (⟨S4096, .i32⟩ : BufTy).Contents (Elt F) → (⟨S4096x1, .i32⟩ : BufTy).Contents (Elt F)) (StableHlo.after ops V (Proc.devRef .tc main_v51)) := by
  rw [after_peel ops_at 64 _ rfl V main_v52 (by decide),
    unary_result,
    ← after_take_eq ops_at 64 V main_v51 (by decide)]

/-- `main_v53` at the line's end: its operation over its operands at the line's end. -/
theorem v53_eq (V : Valuation τ sig (Elt F)) :
    StableHlo.after ops V (Proc.devRef .tc main_v53)
      = Host.gather gather_S225x16_S4096x1_S4096x16_1_0_n_n_0_1_116 (StableHlo.after ops V (Proc.devRef .tc main_v46)) (StableHlo.after ops V (Proc.devRef .tc main_v52)) := by
  rw [after_peel ops_at 65 _ rfl V main_v53 (by decide),
    binary_result,
    ← after_take_eq ops_at 65 V main_v46 (by decide),
    ← after_take_eq ops_at 65 V main_v52 (by decide)]

/-- `main_v54` at the line's end: its operation over its operands at the line's end. -/
theorem v54_eq (V : Valuation τ sig (Elt F)) :
    StableHlo.after ops V (Proc.devRef .tc main_v54)
      = shapeCast S64x64x16 (StableHlo.after ops V (Proc.devRef .tc main_v53)) shapeCasts_S4096x16_S64x64x16 := by
  rw [after_peel ops_at 66 _ rfl V main_v54 (by decide),
    reshape_result,
    ← after_take_eq ops_at 66 V main_v53 (by decide)]
  rfl

/-- `main_v55` at the line's end: its operation over its operands at the line's end. -/
theorem v55_eq (V : Valuation τ sig (Elt F)) :
    StableHlo.after ops V (Proc.devRef .tc main_v55)
      = transpose S16x64x64 [2, 0, 1] (StableHlo.after ops V (Proc.devRef .tc main_v54)) transposes_S64x64x16_S16x64x64_2_0_1 := by
  rw [after_peel ops_at 67 _ rfl V main_v55 (by decide),
    unary_result,
    ← after_take_eq ops_at 67 V main_v54 (by decide)]

/-- `main_v56` at the line's end: its operation over its operands at the line's end. -/
theorem v56_eq (V : Valuation τ sig (Elt F)) :
    StableHlo.after ops V (Proc.devRef .tc main_v56)
      = (Host.negf : (⟨S16x64x64, .f32⟩ : BufTy).Contents (Elt F) → (⟨S16x64x64, .f32⟩ : BufTy).Contents (Elt F)) (StableHlo.after ops V (Proc.devRef .tc main_v55)) := by
  rw [after_peel ops_at 68 _ rfl V main_v56 (by decide),
    unary_result,
    ← after_take_eq ops_at 68 V main_v55 (by decide)]

/-- `main_v57` at the line's end: its operation over its operands at the line's end. -/
theorem v57_eq (V : Valuation τ sig (Elt F)) :
    StableHlo.after ops V (Proc.devRef .tc main_v57)
      = (Host.exp : (⟨S16x64x64, .f32⟩ : BufTy).Contents (Elt F) → (⟨S16x64x64, .f32⟩ : BufTy).Contents (Elt F)) (StableHlo.after ops V (Proc.devRef .tc main_v56)) := by
  rw [after_peel ops_at 69 _ rfl V main_v57 (by decide),
    unary_result,
    ← after_take_eq ops_at 69 V main_v56 (by decide)]

/-- `main_cst_8` is a constant: its literal. -/
theorem cst_8_eq (V : Valuation τ sig (Elt F)) :
    StableHlo.after ops V (Proc.devRef .tc main_cst_8)
      = (constant S_ .f32 0x3F800000#32 : (⟨S_, .f32⟩ : BufTy).Contents (Elt F)) := by
  rw [after_peel ops_at 70 _ rfl V main_cst_8 (by decide),
    nullary_result]

/-- `main_v58` at the line's end: its operation over its operands at the line's end. -/
theorem v58_eq (V : Valuation τ sig (Elt F)) :
    StableHlo.after ops V (Proc.devRef .tc main_v58)
      = (broadcastInDim S16x64x64 ![] bcast_S_S16x64x64 : (⟨S_, .f32⟩ : BufTy).Contents (Elt F) → (⟨S16x64x64, .f32⟩ : BufTy).Contents (Elt F)) (StableHlo.after ops V (Proc.devRef .tc main_cst_8)) := by
  rw [after_peel ops_at 71 _ rfl V main_v58 (by decide),
    unary_result,
    ← after_take_eq ops_at 71 V main_cst_8 (by decide)]

/-- `main_v59` at the line's end: its operation over its operands at the line's end. -/
theorem v59_eq (V : Valuation τ sig (Elt F)) :
    StableHlo.after ops V (Proc.devRef .tc main_v59)
      = (addf : (⟨S16x64x64, .f32⟩ : BufTy).Contents (Elt F) → (⟨S16x64x64, .f32⟩ : BufTy).Contents (Elt F) → (⟨S16x64x64, .f32⟩ : BufTy).Contents (Elt F)) (StableHlo.after ops V (Proc.devRef .tc main_v58)) (StableHlo.after ops V (Proc.devRef .tc main_v57)) := by
  rw [after_peel ops_at 72 _ rfl V main_v59 (by decide),
    binary_result,
    ← after_take_eq ops_at 72 V main_v58 (by decide),
    ← after_take_eq ops_at 72 V main_v57 (by decide)]

/-- `main_cst_9` is a constant: its literal. -/
theorem cst_9_eq (V : Valuation τ sig (Elt F)) :
    StableHlo.after ops V (Proc.devRef .tc main_cst_9)
      = (constant S_ .f32 0x3F800000#32 : (⟨S_, .f32⟩ : BufTy).Contents (Elt F)) := by
  rw [after_peel ops_at 73 _ rfl V main_cst_9 (by decide),
    nullary_result]

/-- `main_v60` at the line's end: its operation over its operands at the line's end. -/
theorem v60_eq (V : Valuation τ sig (Elt F)) :
    StableHlo.after ops V (Proc.devRef .tc main_v60)
      = (broadcastInDim S16x64x64 ![] bcast_S_S16x64x64 : (⟨S_, .f32⟩ : BufTy).Contents (Elt F) → (⟨S16x64x64, .f32⟩ : BufTy).Contents (Elt F)) (StableHlo.after ops V (Proc.devRef .tc main_cst_9)) := by
  rw [after_peel ops_at 74 _ rfl V main_v60 (by decide),
    unary_result,
    ← after_take_eq ops_at 74 V main_cst_9 (by decide)]

/-- `main_v61` at the line's end: its operation over its operands at the line's end. -/
theorem v61_eq (V : Valuation τ sig (Elt F)) :
    StableHlo.after ops V (Proc.devRef .tc main_v61)
      = (Host.divf : (⟨S16x64x64, .f32⟩ : BufTy).Contents (Elt F) → (⟨S16x64x64, .f32⟩ : BufTy).Contents (Elt F) → (⟨S16x64x64, .f32⟩ : BufTy).Contents (Elt F)) (StableHlo.after ops V (Proc.devRef .tc main_v60)) (StableHlo.after ops V (Proc.devRef .tc main_v59)) := by
  rw [after_peel ops_at 75 _ rfl V main_v61 (by decide),
    binary_result,
    ← after_take_eq ops_at 75 V main_v60 (by decide),
    ← after_take_eq ops_at 75 V main_v59 (by decide)]

/-- `main_v62` at the line's end: its operation over its operands at the line's end. -/
theorem v62_eq (V : Valuation τ sig (Elt F)) :
    StableHlo.after ops V (Proc.devRef .tc main_v62)
      = (broadcastInDim S1x16x64x64 ![1, 2, 3] bcast_S16x64x64_S1x16x64x64_1_2_3 : (⟨S16x64x64, .f32⟩ : BufTy).Contents (Elt F) → (⟨S1x16x64x64, .f32⟩ : BufTy).Contents (Elt F)) (StableHlo.after ops V (Proc.devRef .tc main_v61)) := by
  rw [after_peel ops_at 76 _ rfl V main_v62 (by decide),
    unary_result,
    ← after_take_eq ops_at 76 V main_v61 (by decide)]

/-- `main_cst_10` is a constant: its literal. -/
theorem cst_10_eq (V : Valuation τ sig (Elt F)) :
    StableHlo.after ops V (Proc.devRef .tc main_cst_10)
      = (constant S_ .f32 0x41800000#32 : (⟨S_, .f32⟩ : BufTy).Contents (Elt F)) := by
  rw [after_peel ops_at 77 _ rfl V main_cst_10 (by decide),
    nullary_result]

/-- `main_v63` at the line's end: its operation over its operands at the line's end. -/
theorem v63_eq (V : Valuation τ sig (Elt F)) :
    StableHlo.after ops V (Proc.devRef .tc main_v63)
      = (broadcastInDim S1x16x64x64 ![] bcast_S_S1x16x64x64 : (⟨S_, .f32⟩ : BufTy).Contents (Elt F) → (⟨S1x16x64x64, .f32⟩ : BufTy).Contents (Elt F)) (StableHlo.after ops V (Proc.devRef .tc main_cst_10)) := by
  rw [after_peel ops_at 78 _ rfl V main_v63 (by decide),
    unary_result,
    ← after_take_eq ops_at 78 V main_cst_10 (by decide)]

/-- `main_v64` at the line's end: its operation over its operands at the line's end. -/
theorem v64_eq (V : Valuation τ sig (Elt F)) :
    StableHlo.after ops V (Proc.devRef .tc main_v64)
      = (mulf : (⟨S1x16x64x64, .f32⟩ : BufTy).Contents (Elt F) → (⟨S1x16x64x64, .f32⟩ : BufTy).Contents (Elt F) → (⟨S1x16x64x64, .f32⟩ : BufTy).Contents (Elt F)) (StableHlo.after ops V (Proc.devRef .tc main_v63)) (StableHlo.after ops V (Proc.devRef .tc main_v62)) := by
  rw [after_peel ops_at 79 _ rfl V main_v64 (by decide),
    binary_result,
    ← after_take_eq ops_at 79 V main_v63 (by decide),
    ← after_take_eq ops_at 79 V main_v62 (by decide)]

/-- `main_v65` at the line's end: its operation over its operands at the line's end. -/
theorem v65_eq (V : Valuation τ sig (Elt F)) :
    StableHlo.after ops V (Proc.devRef .tc main_v65)
      = (broadcastInDim S1024x16x64x64 ![0, 1, 2, 3] bcast_S1x16x64x64_S1024x16x64x64_0_1_2_3 : (⟨S1x16x64x64, .f32⟩ : BufTy).Contents (Elt F) → (⟨S1024x16x64x64, .f32⟩ : BufTy).Contents (Elt F)) (StableHlo.after ops V (Proc.devRef .tc main_v64)) := by
  rw [after_peel ops_at 80 _ rfl V main_v65 (by decide),
    unary_result,
    ← after_take_eq ops_at 80 V main_v64 (by decide)]

/-- `main_v66` at the line's end: its operation over its operands at the line's end. -/
theorem v66_eq (V : Valuation τ sig (Elt F)) :
    StableHlo.after ops V (Proc.devRef .tc main_v66)
      = (addf : (⟨S1024x16x64x64, .f32⟩ : BufTy).Contents (Elt F) → (⟨S1024x16x64x64, .f32⟩ : BufTy).Contents (Elt F) → (⟨S1024x16x64x64, .f32⟩ : BufTy).Contents (Elt F)) (StableHlo.after ops V (Proc.devRef .tc main_v40)) (StableHlo.after ops V (Proc.devRef .tc main_v65)) := by
  rw [after_peel ops_at 81 _ rfl V main_v66 (by decide),
    binary_result,
    ← after_take_eq ops_at 81 V main_v40 (by decide),
    ← after_take_eq ops_at 81 V main_v65 (by decide)]

/-- `main_cst_11` is a constant: its literal. -/
theorem cst_11_eq (V : Valuation τ sig (Elt F)) :
    StableHlo.after ops V (Proc.devRef .tc main_cst_11)
      = (constant S_ .f32 0xFF800000#32 : (⟨S_, .f32⟩ : BufTy).Contents (Elt F)) := by
  rw [after_peel ops_at 82 _ rfl V main_cst_11 (by decide),
    nullary_result]

/-- `main_v67` at the line's end: its operation over its operands at the line's end. -/
theorem v67_eq (V : Valuation τ sig (Elt F)) :
    StableHlo.after ops V (Proc.devRef .tc main_v67)
      = Host.reduce FloatOps.maximumf (StableHlo.after ops V (Proc.devRef .tc main_v66)) (StableHlo.after ops V (Proc.devRef .tc main_cst_11)) reducesTo_S1024x16x64x64_S1024x16x64_d3 h_S_ := by
  rw [after_peel ops_at 83 _ rfl V main_v67 (by decide),
    binary_result,
    ← after_take_eq ops_at 83 V main_v66 (by decide),
    ← after_take_eq ops_at 83 V main_cst_11 (by decide)]

/-- `main_cst_12` is a constant: its literal. -/
theorem cst_12_eq (V : Valuation τ sig (Elt F)) :
    StableHlo.after ops V (Proc.devRef .tc main_cst_12)
      = (constant S_ .f32 0xFF800000#32 : (⟨S_, .f32⟩ : BufTy).Contents (Elt F)) := by
  rw [after_peel ops_at 84 _ rfl V main_cst_12 (by decide),
    nullary_result]

/-- `main_v68` at the line's end: its operation over its operands at the line's end. -/
theorem v68_eq (V : Valuation τ sig (Elt F)) :
    StableHlo.after ops V (Proc.devRef .tc main_v68)
      = (broadcastInDim S1024x16x64 ![] bcast_S_S1024x16x64 : (⟨S_, .f32⟩ : BufTy).Contents (Elt F) → (⟨S1024x16x64, .f32⟩ : BufTy).Contents (Elt F)) (StableHlo.after ops V (Proc.devRef .tc main_cst_12)) := by
  rw [after_peel ops_at 85 _ rfl V main_v68 (by decide),
    unary_result,
    ← after_take_eq ops_at 85 V main_cst_12 (by decide)]

/-- `main_v69` at the line's end: its operation over its operands at the line's end. -/
theorem v69_eq (V : Valuation τ sig (Elt F)) :
    StableHlo.after ops V (Proc.devRef .tc main_v69)
      = (maximumf : (⟨S1024x16x64, .f32⟩ : BufTy).Contents (Elt F) → (⟨S1024x16x64, .f32⟩ : BufTy).Contents (Elt F) → (⟨S1024x16x64, .f32⟩ : BufTy).Contents (Elt F)) (StableHlo.after ops V (Proc.devRef .tc main_v68)) (StableHlo.after ops V (Proc.devRef .tc main_v67)) := by
  rw [after_peel ops_at 86 _ rfl V main_v69 (by decide),
    binary_result,
    ← after_take_eq ops_at 86 V main_v68 (by decide),
    ← after_take_eq ops_at 86 V main_v67 (by decide)]

/-- `main_v70` at the line's end: its operation over its operands at the line's end. -/
theorem v70_eq (V : Valuation τ sig (Elt F)) :
    StableHlo.after ops V (Proc.devRef .tc main_v70)
      = (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)) (StableHlo.after ops V (Proc.devRef .tc main_v69)) := by
  rw [after_peel ops_at 87 _ rfl V main_v70 (by decide),
    unary_result,
    ← after_take_eq ops_at 87 V main_v69 (by decide)]

/-- `main_v71` at the line's end: its operation over its operands at the line's end. -/
theorem v71_eq (V : Valuation τ sig (Elt F)) :
    StableHlo.after ops V (Proc.devRef .tc main_v71)
      = (broadcastInDim S1024x16x64x64 ![0, 1, 2, 3] bcast_S1024x16x64x1_S1024x16x64x64_0_1_2_3 : (⟨S1024x16x64x1, .f32⟩ : BufTy).Contents (Elt F) → (⟨S1024x16x64x64, .f32⟩ : BufTy).Contents (Elt F)) (StableHlo.after ops V (Proc.devRef .tc main_v70)) := by
  rw [after_peel ops_at 88 _ rfl V main_v71 (by decide),
    unary_result,
    ← after_take_eq ops_at 88 V main_v70 (by decide)]

/-- `main_v72` at the line's end: its operation over its operands at the line's end. -/
theorem v72_eq (V : Valuation τ sig (Elt F)) :
    StableHlo.after ops V (Proc.devRef .tc main_v72)
      = (subf : (⟨S1024x16x64x64, .f32⟩ : BufTy).Contents (Elt F) → (⟨S1024x16x64x64, .f32⟩ : BufTy).Contents (Elt F) → (⟨S1024x16x64x64, .f32⟩ : BufTy).Contents (Elt F)) (StableHlo.after ops V (Proc.devRef .tc main_v66)) (StableHlo.after ops V (Proc.devRef .tc main_v71)) := by
  rw [after_peel ops_at 89 _ rfl V main_v72 (by decide),
    binary_result,
    ← after_take_eq ops_at 89 V main_v66 (by decide),
    ← after_take_eq ops_at 89 V main_v71 (by decide)]

/-- `main_v73` at the line's end: its operation over its operands at the line's end. -/
theorem v73_eq (V : Valuation τ sig (Elt F)) :
    StableHlo.after ops V (Proc.devRef .tc main_v73)
      = (Host.exp : (⟨S1024x16x64x64, .f32⟩ : BufTy).Contents (Elt F) → (⟨S1024x16x64x64, .f32⟩ : BufTy).Contents (Elt F)) (StableHlo.after ops V (Proc.devRef .tc main_v72)) := by
  rw [after_peel ops_at 90 _ rfl V main_v73 (by decide),
    unary_result,
    ← after_take_eq ops_at 90 V main_v72 (by decide)]

/-- `main_cst_13` is a constant: its literal. -/
theorem cst_13_eq (V : Valuation τ sig (Elt F)) :
    StableHlo.after ops V (Proc.devRef .tc main_cst_13)
      = (constant S_ .f32 0x00000000#32 : (⟨S_, .f32⟩ : BufTy).Contents (Elt F)) := by
  rw [after_peel ops_at 91 _ rfl V main_cst_13 (by decide),
    nullary_result]

/-- `main_v74` at the line's end: its operation over its operands at the line's end. -/
theorem v74_eq (V : Valuation τ sig (Elt F)) :
    StableHlo.after ops V (Proc.devRef .tc main_v74)
      = Host.reduceAdd (StableHlo.after ops V (Proc.devRef .tc main_v73)) (StableHlo.after ops V (Proc.devRef .tc main_cst_13)) reducesTo_S1024x16x64x64_S1024x16x64_d3 h_S_ := by
  rw [after_peel ops_at 92 _ rfl V main_v74 (by decide),
    binary_result,
    ← after_take_eq ops_at 92 V main_v73 (by decide),
    ← after_take_eq ops_at 92 V main_cst_13 (by decide)]

/-- `main_v75` at the line's end: its operation over its operands at the line's end. -/
theorem v75_eq (V : Valuation τ sig (Elt F)) :
    StableHlo.after ops V (Proc.devRef .tc main_v75)
      = (broadcastInDim S1024x16x64x1 ![0, 1, 2] bcast_S1024x16x64_S1024x16x64x1_0_1_2 : (⟨S1024x16x64, .f32⟩ : BufTy).Contents (Elt F) → (⟨S1024x16x64x1, .f32⟩ : BufTy).Contents (Elt F)) (StableHlo.after ops V (Proc.devRef .tc main_v74)) := by
  rw [after_peel ops_at 93 _ rfl V main_v75 (by decide),
    unary_result,
    ← after_take_eq ops_at 93 V main_v74 (by decide)]

/-- `main_v76` at the line's end: its operation over its operands at the line's end. -/
theorem v76_eq (V : Valuation τ sig (Elt F)) :
    StableHlo.after ops V (Proc.devRef .tc main_v76)
      = (broadcastInDim S1024x16x64x64 ![0, 1, 2, 3] bcast_S1024x16x64x1_S1024x16x64x64_0_1_2_3 : (⟨S1024x16x64x1, .f32⟩ : BufTy).Contents (Elt F) → (⟨S1024x16x64x64, .f32⟩ : BufTy).Contents (Elt F)) (StableHlo.after ops V (Proc.devRef .tc main_v75)) := by
  rw [after_peel ops_at 94 _ rfl V main_v76 (by decide),
    unary_result,
    ← after_take_eq ops_at 94 V main_v75 (by decide)]

/-- `main_v77` at the line's end: its operation over its operands at the line's end. -/
theorem v77_eq (V : Valuation τ sig (Elt F)) :
    StableHlo.after ops V (Proc.devRef .tc main_v77)
      = (Host.divf : (⟨S1024x16x64x64, .f32⟩ : BufTy).Contents (Elt F) → (⟨S1024x16x64x64, .f32⟩ : BufTy).Contents (Elt F) → (⟨S1024x16x64x64, .f32⟩ : BufTy).Contents (Elt F)) (StableHlo.after ops V (Proc.devRef .tc main_v73)) (StableHlo.after ops V (Proc.devRef .tc main_v76)) := by
  rw [after_peel ops_at 95 _ rfl V main_v77 (by decide),
    binary_result,
    ← after_take_eq ops_at 95 V main_v73 (by decide),
    ← after_take_eq ops_at 95 V main_v76 (by decide)]

/-- `main_v78` at the line's end: its operation over its operands at the line's end. -/
theorem v78_eq (V : Valuation τ sig (Elt F)) :
    StableHlo.after ops V (Proc.devRef .tc main_v78)
      = Host.dotGeneral dot_S1024x16x64x64_S1024x16x64x32_S1024x16x64x32_3_2_2_3_01_01 none (StableHlo.after ops V (Proc.devRef .tc main_v77)) (StableHlo.after ops V (Proc.devRef .tc main_v17)) := by
  rw [after_peel ops_at 96 _ rfl V main_v78 (by decide),
    binary_result,
    ← after_take_eq ops_at 96 V main_v77 (by decide),
    ← after_take_eq ops_at 96 V main_v17 (by decide)]

/-- `main_v79` at the line's end: its operation over its operands at the line's end. -/
theorem v79_eq (V : Valuation τ sig (Elt F)) :
    StableHlo.after ops V (Proc.devRef .tc main_v79)
      = shapeCast S4x16x16x16x8x8x32 (StableHlo.after ops V (Proc.devRef .tc main_v78)) shapeCasts_S1024x16x64x32_S4x16x16x16x8x8x32 := by
  rw [after_peel ops_at 97 _ rfl V main_v79 (by decide),
    reshape_result,
    ← after_take_eq ops_at 97 V main_v78 (by decide)]
  rfl

/-- `main_v80` at the line's end: its operation over its operands at the line's end. -/
theorem v80_eq (V : Valuation τ sig (Elt F)) :
    StableHlo.after ops V (Proc.devRef .tc main_v80)
      = transpose S4x8x16x8x16x16x32 [0, 4, 1, 5, 2, 3, 6] (StableHlo.after ops V (Proc.devRef .tc main_v79)) transposes_S4x16x16x16x8x8x32_S4x8x16x8x16x16x32_0_4_1_5_2_3_6 := by
  rw [after_peel ops_at 98 _ rfl V main_v80 (by decide),
    unary_result,
    ← after_take_eq ops_at 98 V main_v79 (by decide)]

/-- `main_v81` at the line's end: its operation over its operands at the line's end. -/
theorem v81_eq (V : Valuation τ sig (Elt F)) :
    StableHlo.after ops V (Proc.devRef .tc main_v81)
      = shapeCast S4x128x128x512 (StableHlo.after ops V (Proc.devRef .tc main_v80)) shapeCasts_S4x8x16x8x16x16x32_S4x128x128x512 := by
  rw [after_peel ops_at 99 _ rfl V main_v81 (by decide),
    reshape_result,
    ← after_take_eq ops_at 99 V main_v80 (by decide)]
  rfl

/-- `main_v82` at the line's end: its operation over its operands at the line's end. -/
theorem v82_eq (V : Valuation τ sig (Elt F)) :
    StableHlo.after ops V (Proc.devRef .tc main_v82)
      = Host.dotGeneral dot_S4x128x128x512_S512x512_S4x128x128x512_3_0_012_1_n_n none (StableHlo.after ops V (Proc.devRef .tc main_v81)) (StableHlo.after ops V (Proc.devRef .tc main_arg8)) := by
  rw [after_peel ops_at 100 _ rfl V main_v82 (by decide),
    binary_result,
    ← after_take_eq ops_at 100 V main_v81 (by decide),
    ← after_take_eq ops_at 100 V main_arg8 (by decide)]

/-- `main_v83` at the line's end: its operation over its operands at the line's end. -/
theorem v83_eq (V : Valuation τ sig (Elt F)) :
    StableHlo.after ops V (Proc.devRef .tc main_v83)
      = (broadcastInDim S1x1x1x512 ![3] bcast_S512_S1x1x1x512_3 : (⟨S512, .f32⟩ : BufTy).Contents (Elt F) → (⟨S1x1x1x512, .f32⟩ : BufTy).Contents (Elt F)) (StableHlo.after ops V (Proc.devRef .tc main_arg9)) := by
  rw [after_peel ops_at 101 _ rfl V main_v83 (by decide),
    unary_result,
    ← after_take_eq ops_at 101 V main_arg9 (by decide)]

/-- `main_v84` at the line's end: its operation over its operands at the line's end. -/
theorem v84_eq (V : Valuation τ sig (Elt F)) :
    StableHlo.after ops V (Proc.devRef .tc main_v84)
      = (broadcastInDim S4x128x128x512 ![0, 1, 2, 3] bcast_S1x1x1x512_S4x128x128x512_0_1_2_3 : (⟨S1x1x1x512, .f32⟩ : BufTy).Contents (Elt F) → (⟨S4x128x128x512, .f32⟩ : BufTy).Contents (Elt F)) (StableHlo.after ops V (Proc.devRef .tc main_v83)) := by
  rw [after_peel ops_at 102 _ rfl V main_v84 (by decide),
    unary_result,
    ← after_take_eq ops_at 102 V main_v83 (by decide)]

/-- `main_v85` at the line's end: its operation over its operands at the line's end. -/
theorem v85_eq (V : Valuation τ sig (Elt F)) :
    StableHlo.after ops V (Proc.devRef .tc main_v85)
      = (addf : (⟨S4x128x128x512, .f32⟩ : BufTy).Contents (Elt F) → (⟨S4x128x128x512, .f32⟩ : BufTy).Contents (Elt F) → (⟨S4x128x128x512, .f32⟩ : BufTy).Contents (Elt F)) (StableHlo.after ops V (Proc.devRef .tc main_v82)) (StableHlo.after ops V (Proc.devRef .tc main_v84)) := by
  rw [after_peel ops_at 103 _ rfl V main_v85 (by decide),
    binary_result,
    ← after_take_eq ops_at 103 V main_v82 (by decide),
    ← after_take_eq ops_at 103 V main_v84 (by decide)]

end Cert.ReferenceIdeal.RefRun

end
-- ==== Proof.Ref.Compose.lean ====
import proofs.«404274_j11819749998707_3_alg».proof.Proof.Ref.ProjFn
import proofs.«404274_j11819749998707_3_alg».proof.Proof.Ref.AttnFn
import proofs.«404274_j11819749998707_3_alg».proof.Proof.Ref.Run
import proofs.«404274_j11819749998707_3_alg».proof.Proof.Ref.Vals

noncomputable section

namespace Cert.ReferenceIdeal.RefVal

open Idealize.ShloMosaic Idealize.ShloMosaic.ValueIdx
open Cert.ReferenceIdeal Cert.ReferenceIdeal.Facts₀ Cert.ReferenceIdeal.Facts

/-! # The reference's result as one function of its ten arguments

The reference is a line of operations, each writing its own buffer from buffers written earlier. Read stage by
stage it is: the qkv projection of the input (with the bias `[q bias, zeros, v bias]`); the three slices of its last
axis, each regrouped into windows and heads; the attention of every window and head, with a temperature made from a
parameter and a position bias made from two constant tables and a small two-layer network; the windows put back in
place; the output projection. Each stage below is the composition of that stage's operations, and the buffer a stage
ends in holds the stage's function of the buffers it starts from. -/

/-- What buffer `b` holds at the end of the line started from contents `V`, and what it held at the start. -/
local notation:max "RV[" V ", " b "]" => StableHlo.after (RefRun.ops (F := Ideal)) V (Proc.devRef Proc.tc b)
local notation:max "AV[" V ", " b "]" => V (Proc.devRef Proc.tc b)

/-! ## The stages as functions -/

/-- The qkv bias (`%1`, `%2`): the query bias, 512 zeros where the keys have none, the value bias. -/
def concatFn (qb vb : FVec Ideal S512 .f32) : FVec Ideal S1536 .f32 :=
  concatenate S1536 0 [⟨S512, qb⟩, ⟨S512, broadcastInDim S512 ![] bcast_S_S512 (constant (F := Ideal) S_ .f32 0x00000000#32)⟩, ⟨S512, vb⟩]
    concatenates_S512_S512_S512_S1536_d0

/-- The three thirds of the projection's last axis (`%6`, `%7`, `%8`): queries, keys, values. -/
def sliceQ (x : FVec Ideal S4x128x128x1536 .f32) : FVec Ideal S4x128x128x512 .f32 :=
  extractStridedSlice S4x128x128x512 ![0, 0, 0, 0] x slices_S4x128x128x1536_S4x128x128x512_0_0_0_0
def sliceK (x : FVec Ideal S4x128x128x1536 .f32) : FVec Ideal S4x128x128x512 .f32 :=
  extractStridedSlice S4x128x128x512 ![0, 0, 0, 512] x slices_S4x128x128x1536_S4x128x128x512_0_0_0_512
def sliceV (x : FVec Ideal S4x128x128x1536 .f32) : FVec Ideal S4x128x128x512 .f32 :=
  extractStridedSlice S4x128x128x512 ![0, 0, 0, 1024] x slices_S4x128x128x1536_S4x128x128x512_0_0_0_1024

/-- An image regrouped into windows and heads (`%9` … `%11`, and the same three operations for `%12` … `%14` and
    `%15` … `%17`): split each spatial axis in two and the channels into heads, bring the window axes forward, merge. -/
def partFn (x : FVec Ideal S4x128x128x512 .f32) : FVec Ideal S1024x16x64x32 .f32 :=
  shapeCast S1024x16x64x32
    (transpose S4x16x16x16x8x8x32 [0, 2, 4, 5, 1, 3, 6]
      (shapeCast S4x8x16x8x16x16x32 x shapeCasts_S4x128x128x512_S4x8x16x8x16x16x32)
      transposes_S4x8x16x8x16x16x32_S4x16x16x16x8x8x32_0_2_4_5_1_3_6)
    shapeCasts_S4x16x16x16x8x8x32_S1024x16x64x32

/-- The windows and heads put back into an image (`%79` … `%81`): the regrouping undone. -/
def revFn (x : FVec Ideal S1024x16x64x32 .f32) : FVec Ideal S4x128x128x512 .f32 :=
  shapeCast S4x128x128x512
    (transpose S4x8x16x8x16x16x32 [0, 4, 1, 5, 2, 3, 6]
      (shapeCast S4x16x16x16x8x8x32 x shapeCasts_S1024x16x64x32_S4x16x16x16x8x8x32)
      transposes_S4x16x16x16x8x8x32_S4x8x16x8x16x16x32_0_4_1_5_2_3_6)
    shapeCasts_S4x8x16x8x16x16x32_S4x128x128x512

/-- The temperature (`%34` … `%36`): the exponential of the parameter capped at a constant. -/
def tempFn (s : FVec Ideal S16x1x1 .f32) : FVec Ideal S16x1x1 .f32 :=
  Host.exp (F := Ideal) (minimumf s (broadcastInDim S16x1x1 ![] bcast_S_S16x1x1 (constant (F := Ideal) S_ .f32 0x40935D8E#32)))

/-- The table of relative positions (`%cst`): 225 rows of two floats. -/
def tableF : FVec Ideal S225x2 .f32 := fun i => FloatOps.ofBits .f32 (lit0 (S225x2.rowMajor i))

/-- The relative position of every pair of tokens of a window, as a row of the table (`%c`). -/
def tableI : IVec S4096 32 := fun i => lit1 (S4096.rowMajor i)

/-- The two-layer network on the table (`%41` … `%46`): a linear layer with bias, the maximum with zero, a second
    linear layer giving one value per head for each of the 225 relative positions. -/
def mlpFn (w1 : FVec Ideal S2x512 .f32) (b1 : FVec Ideal S512 .f32) (w2 : FVec Ideal S512x16 .f32) : FVec Ideal S225x16 .f32 :=
  Host.dotGeneral (F := Ideal) dot_S225x512_S512x16_S225x16_1_0_0_1_n_n none
    (maximumf
      (addf (Host.dotGeneral (F := Ideal) dot_S225x2_S2x512_S225x512_1_0_0_1_n_n none tableF w1)
        (broadcastInDim S225x512 ![0, 1] bcast_S1x512_S225x512_0_1 (broadcastInDim S1x512 ![1] bcast_S512_S1x512_1 b1)))
      (broadcastInDim S225x512 ![] bcast_S_S225x512 (constant (F := Ideal) S_ .f32 0x00000000#32)))
    w2

/-- The row to read for every pair of tokens (`%47` … `%52`): the index, wrapped around by 225 where it is negative,
    with a trailing unit axis. -/
def idxFn : IVec S4096x1 32 :=
  broadcastInDim S4096x1 ![0] bcast_S4096_S4096x1_0
    (select (cmpi .slt tableI (broadcastInDim S4096 ![] bcast_S_S4096 (constantI S_ 32 0#32)))
      (addi tableI (broadcastInDim S4096 ![] bcast_S_S4096 (constantI S_ 32 225#32)))
      tableI)

/-- The position bias before scaling (`%41` … `%61`): the network's rows gathered at every pair of tokens, heads brought
    forward, then `1 / (1 + exp (-·))`. -/
def sigFn (w1 : FVec Ideal S2x512 .f32) (b1 : FVec Ideal S512 .f32) (w2 : FVec Ideal S512x16 .f32) : FVec Ideal S16x64x64 .f32 :=
  Host.divf (F := Ideal) (broadcastInDim S16x64x64 ![] bcast_S_S16x64x64 (constant (F := Ideal) S_ .f32 0x3F800000#32))
    (addf (broadcastInDim S16x64x64 ![] bcast_S_S16x64x64 (constant (F := Ideal) S_ .f32 0x3F800000#32))
      (Host.exp (F := Ideal) (Host.negf (F := Ideal)
        (transpose S16x64x64 [2, 0, 1]
          (shapeCast S64x64x16 (Host.gather gather_S225x16_S4096x1_S4096x16_1_0_n_n_0_1_116 (mlpFn w1 b1 w2) idxFn)
            shapeCasts_S4096x16_S64x64x16)
          transposes_S64x64x16_S16x64x64_2_0_1))))

/-- The position bias as the logits take it (`%62` … `%65`): times 16, the same for every window. -/
def biasFn (s : FVec Ideal S16x64x64 .f32) : FVec Ideal S1024x16x64x64 .f32 :=
  broadcastInDim S1024x16x64x64 ![0, 1, 2, 3] bcast_S1x16x64x64_S1024x16x64x64_0_1_2_3
    (mulf (broadcastInDim S1x16x64x64 ![] bcast_S_S1x16x64x64 (constant (F := Ideal) S_ .f32 0x41800000#32))
      (broadcastInDim S1x16x64x64 ![1, 2, 3] bcast_S16x64x64_S1x16x64x64_1_2_3 s))

/-- The qkv projection of the arguments. -/
def qFn (V : Valuation τ sig (Elt Ideal)) : FVec Ideal S4x128x128x1536 .f32 :=
  qkvFn AV[V, main_arg0] AV[V, main_arg1] (concatFn AV[V, main_arg2] AV[V, main_arg3])

/-! ## The arguments are not written

No operation of the line writes an argument's buffer, so each ends holding what it held at the start. -/

theorem arg0_end (V : Valuation τ sig (Elt Ideal)) : RV[V, main_arg0] = AV[V, main_arg0] := RefRun.kept V main_arg0 (by decide)
theorem arg1_end (V : Valuation τ sig (Elt Ideal)) : RV[V, main_arg1] = AV[V, main_arg1] := RefRun.kept V main_arg1 (by decide)
theorem arg2_end (V : Valuation τ sig (Elt Ideal)) : RV[V, main_arg2] = AV[V, main_arg2] := RefRun.kept V main_arg2 (by decide)
theorem arg3_end (V : Valuation τ sig (Elt Ideal)) : RV[V, main_arg3] = AV[V, main_arg3] := RefRun.kept V main_arg3 (by decide)
theorem arg4_end (V : Valuation τ sig (Elt Ideal)) : RV[V, main_arg4] = AV[V, main_arg4] := RefRun.kept V main_arg4 (by decide)
theorem arg5_end (V : Valuation τ sig (Elt Ideal)) : RV[V, main_arg5] = AV[V, main_arg5] := RefRun.kept V main_arg5 (by decide)
theorem arg6_end (V : Valuation τ sig (Elt Ideal)) : RV[V, main_arg6] = AV[V, main_arg6] := RefRun.kept V main_arg6 (by decide)
theorem arg7_end (V : Valuation τ sig (Elt Ideal)) : RV[V, main_arg7] = AV[V, main_arg7] := RefRun.kept V main_arg7 (by decide)
theorem arg8_end (V : Valuation τ sig (Elt Ideal)) : RV[V, main_arg8] = AV[V, main_arg8] := RefRun.kept V main_arg8 (by decide)
theorem arg9_end (V : Valuation τ sig (Elt Ideal)) : RV[V, main_arg9] = AV[V, main_arg9] := RefRun.kept V main_arg9 (by decide)

/-! ## Stage by stage

Each buffer holds its operation's function of its operands' buffers. Followed back from a stage's last buffer to the
buffers the stage starts from, the operations met are the stage's function, in the same order; the buffers the stage
starts from are then treated as unknowns, and the two sides are the same composition. -/

/-- The bias vector of the qkv projection. -/
theorem v2_stage (V : Valuation τ sig (Elt Ideal)) :
    RV[V, main_v2] = concatFn AV[V, main_arg2] AV[V, main_arg3] := by
  rw [RefRun.v2_eq, RefRun.v1_eq, RefRun.cst_0_eq, arg2_end, arg3_end]
  rfl

/-- The qkv projection. -/
theorem v5_stage (V : Valuation τ sig (Elt Ideal)) :
    RV[V, main_v5] = qFn V := by
  rw [RefRun.v5_eq, RefRun.v4_eq, RefRun.v3_eq, RefRun.v0_eq, v2_stage, arg0_end, arg1_end]
  rfl

/-- Queries, keys and values, by window and head. -/
theorem v11_stage (V : Valuation τ sig (Elt Ideal)) :
    RV[V, main_v11] = partFn (sliceQ RV[V, main_v5]) := by
  rw [RefRun.v11_eq, RefRun.v10_eq, RefRun.v9_eq, RefRun.v6_eq]
  generalize RV[V, main_v5] = X0
  rfl

theorem v14_stage (V : Valuation τ sig (Elt Ideal)) :
    RV[V, main_v14] = partFn (sliceK RV[V, main_v5]) := by
  rw [RefRun.v14_eq, RefRun.v13_eq, RefRun.v12_eq, RefRun.v7_eq]
  generalize RV[V, main_v5] = X0
  rfl

theorem v17_stage (V : Valuation τ sig (Elt Ideal)) :
    RV[V, main_v17] = partFn (sliceV RV[V, main_v5]) := by
  rw [RefRun.v17_eq, RefRun.v16_eq, RefRun.v15_eq, RefRun.v8_eq]
  generalize RV[V, main_v5] = X0
  rfl

/-- The temperature. -/
theorem v36_stage (V : Valuation τ sig (Elt Ideal)) :
    RV[V, main_v36] = tempFn AV[V, main_arg4] := by
  rw [RefRun.v36_eq, RefRun.v35_eq, RefRun.v34_eq, RefRun.cst_5_eq, arg4_end]
  rfl

/-- The network on the table of relative positions. -/
theorem v46_stage (V : Valuation τ sig (Elt Ideal)) :
    RV[V, main_v46] = mlpFn AV[V, main_arg5] AV[V, main_arg6] AV[V, main_arg7] := by
  rw [RefRun.v46_eq, RefRun.v45_eq, RefRun.call0_v0_eq, RefRun.call0_cst_eq, RefRun.v44_eq, RefRun.v43_eq, RefRun.v42_eq, RefRun.v41_eq, RefRun.cst_eq, arg5_end, arg6_end, arg7_end]
  rfl

/-- The rows the gather reads. -/
theorem v52_stage (V : Valuation τ sig (Elt Ideal)) :
    RV[V, main_v52] = idxFn := by
  rw [RefRun.v52_eq, RefRun.v51_eq, RefRun.v50_eq, RefRun.v49_eq, RefRun.c_7_eq, RefRun.v48_eq, RefRun.v47_eq, RefRun.c_6_eq, RefRun.c_eq]
  rfl

/-- The position bias before scaling. -/
theorem v61_stage (V : Valuation τ sig (Elt Ideal)) :
    RV[V, main_v61] = sigFn AV[V, main_arg5] AV[V, main_arg6] AV[V, main_arg7] := by
  rw [RefRun.v61_eq, RefRun.v60_eq, RefRun.cst_9_eq, RefRun.v59_eq, RefRun.v58_eq, RefRun.cst_8_eq, RefRun.v57_eq, RefRun.v56_eq, RefRun.v55_eq, RefRun.v54_eq, RefRun.v53_eq, v46_stage, v52_stage]
  rfl

/-- The position bias as the logits take it. -/
theorem v65_stage (V : Valuation τ sig (Elt Ideal)) :
    RV[V, main_v65] = biasFn RV[V, main_v61] := by
  rw [RefRun.v65_eq, RefRun.v64_eq, RefRun.v63_eq, RefRun.cst_10_eq, RefRun.v62_eq]
  generalize RV[V, main_v61] = X0
  rfl

/-- A buffer of rows scaled to unit length: the queries' and the keys'. -/
theorem v25_stage (V : Valuation τ sig (Elt Ideal)) :
    RV[V, main_v25] = l2nFn RV[V, main_v11] := by
  rw [RefRun.v25_eq, RefRun.v24_eq, RefRun.v23_eq, RefRun.v22_eq, RefRun.v21_eq, RefRun.cst_2_eq, RefRun.v20_eq, RefRun.v19_eq, RefRun.cst_1_eq, RefRun.v18_eq]
  generalize RV[V, main_v11] = X0
  rfl

theorem v33_stage (V : Valuation τ sig (Elt Ideal)) :
    RV[V, main_v33] = l2nFn RV[V, main_v14] := by
  rw [RefRun.v33_eq, RefRun.v32_eq, RefRun.v31_eq, RefRun.v30_eq, RefRun.v29_eq, RefRun.cst_4_eq, RefRun.v28_eq, RefRun.v27_eq, RefRun.cst_3_eq, RefRun.v26_eq]
  generalize RV[V, main_v14] = X0
  rfl

/-- The logits. -/
theorem v66_stage (V : Valuation τ sig (Elt Ideal)) :
    RV[V, main_v66] = logitFn RV[V, main_v11] RV[V, main_v14] RV[V, main_v36] RV[V, main_v65] := by
  rw [RefRun.v66_eq, RefRun.v40_eq, RefRun.v39_eq, RefRun.v38_eq, RefRun.v37_eq, v25_stage, v33_stage]
  generalize RV[V, main_v11] = X0
  generalize RV[V, main_v14] = X1
  generalize RV[V, main_v36] = X2
  generalize RV[V, main_v65] = X3
  rfl

/-- The softmax of the logits. -/
theorem v77_stage (V : Valuation τ sig (Elt Ideal)) :
    RV[V, main_v77] = softmaxFn RV[V, main_v66] := by
  rw [RefRun.v77_eq, RefRun.v76_eq, RefRun.v75_eq, RefRun.v74_eq, RefRun.cst_13_eq, RefRun.v73_eq, RefRun.v72_eq, RefRun.v71_eq, RefRun.v70_eq, RefRun.v69_eq, RefRun.v68_eq, RefRun.cst_12_eq, RefRun.v67_eq, RefRun.cst_11_eq]
  generalize RV[V, main_v66] = X0
  rfl

/-- The attention of every window and head. -/
theorem v78_stage (V : Valuation τ sig (Elt Ideal)) :
    RV[V, main_v78] = attnFn RV[V, main_v11] RV[V, main_v14] RV[V, main_v17] RV[V, main_v36] RV[V, main_v65] := by
  rw [RefRun.v78_eq, v77_stage, v66_stage]
  generalize RV[V, main_v11] = X0
  generalize RV[V, main_v14] = X1
  generalize RV[V, main_v17] = X2
  generalize RV[V, main_v36] = X3
  generalize RV[V, main_v65] = X4
  rfl

/-- The windows put back in place. -/
theorem v81_stage (V : Valuation τ sig (Elt Ideal)) :
    RV[V, main_v81] = revFn RV[V, main_v78] := by
  rw [RefRun.v81_eq, RefRun.v80_eq, RefRun.v79_eq]
  generalize RV[V, main_v78] = X0
  rfl

/-- The output projection. -/
theorem v85_stage (V : Valuation τ sig (Elt Ideal)) :
    RV[V, main_v85] = outFn RV[V, main_v81] AV[V, main_arg8] AV[V, main_arg9] := by
  rw [RefRun.v85_eq, RefRun.v84_eq, RefRun.v83_eq, RefRun.v82_eq, arg8_end, arg9_end]
  generalize RV[V, main_v81] = X0
  rfl

/-! ## The result -/

/-- The result buffer as one function of the ten arguments: the stages composed. -/
theorem res_eq (V : Valuation τ sig (Elt Ideal)) :
    RV[V, main_v85]
      = outFn (revFn (attnFn (partFn (sliceQ (qFn V))) (partFn (sliceK (qFn V))) (partFn (sliceV (qFn V)))
                        (tempFn AV[V, main_arg4])
                        (biasFn (sigFn AV[V, main_arg5] AV[V, main_arg6] AV[V, main_arg7]))))
          AV[V, main_arg8] AV[V, main_arg9] := by
  rw [v85_stage, v81_stage, v78_stage, v11_stage, v14_stage, v17_stage, v36_stage, v65_stage, v61_stage, v5_stage]

end Cert.ReferenceIdeal.RefVal

end
-- ==== Proof.Bridge.Reshape.lean ====
import Idealize.ShloMosaic.PureOps.Ideal
import Idealize.ShloMosaic.Lib.Pipeline.Value
import Idealize.ShloMosaic.Lib.ValueIdx

namespace Cert.Bridge

open Idealize.ShloMosaic Idealize.ShloMosaic.ValueIdx

/-! # The reshape between `[65536, C]` and `[4, 128, 128, C]`, read at an index

Both shapes list the same elements in row-major order. Pixel `(b, h, w)` of the rank-4 array is row
`b * 16384 + h * 128 + w` of the rank-2 one, and the channel coordinate is the same on both sides. -/

/-- The flat row of pixel `(b, h, w)`: row-major over batch, height and width. -/
def rowOf (b : Fin 4) (h w : Fin 128) : Fin 65536 :=
  ⟨b.val * 16384 + h.val * 128 + w.val, by have := b.isLt; have := h.isLt; have := w.isLt; omega⟩

theorem rowOf_val (b : Fin 4) (h w : Fin 128) : (rowOf b h w).val = b.val * 16384 + h.val * 128 + w.val := rfl

/-- The two nestings of the row number agree: `(b * 128 + h) * 128 + w` is the flat row. -/
theorem rowOf_val_nested (b : Fin 4) (h w : Fin 128) : (rowOf b h w).val = (b.val * 128 + h.val) * 128 + w.val := by
  rw [rowOf_val]; omega

/-- Every row is the row of some pixel: divide by `16384`, then by `128`. -/
theorem exists_rowOf (r : Fin 65536) : ∃ b h w, r = rowOf b h w := by
  have hr := r.isLt
  refine ⟨⟨r.val / 16384, by omega⟩, ⟨r.val / 128 % 128, by omega⟩, ⟨r.val % 128, by omega⟩, Fin.ext ?_⟩
  show r.val = r.val / 16384 * 16384 + r.val / 128 % 128 * 128 + r.val % 128
  omega

/-- The row-major position of `(rowOf b h w, n)` in `[65536, C]` is that of `(b, h, w, n)` in `[4, 128, 128, C]`. -/
theorem rowMajor_flat_eq {C : Nat} (b : Fin 4) (h w : Fin 128) (n : Fin C) :
    ((⟨2, ![65536, C]⟩ : Shape).rowMajor (ix2 (rowOf b h w) n)).val
      = ((⟨4, ![4, 128, 128, C]⟩ : Shape).rowMajor (ix4 b h w n)).val := by
  rw [Shape.rowMajor_val_two, Shape.rowMajor_val_four]
  show (rowOf b h w).val * C + n.val = ((b.val * 128 + h.val) * 128 + w.val) * C + n.val
  rw [rowOf_val_nested]

/-- Flat to nested: the rank-4 view at `(b, h, w, n)` is the rank-2 array at `(rowOf b h w, n)`. -/
theorem flat_apply {C : Nat} {α : Type} (f : (⟨2, ![65536, C]⟩ : Shape).Idx → α)
    (hc : (⟨2, ![65536, C]⟩ : Shape).ShapeCasts ⟨4, ![4, 128, 128, C]⟩) (b : Fin 4) (h w : Fin 128) (n : Fin C) :
    shapeCast ⟨4, ![4, 128, 128, C]⟩ f hc (ix4 b h w n) = f (ix2 (rowOf b h w) n) :=
  shapeCast_apply f hc (ix4 b h w n) (ix2 (rowOf b h w) n) (rowMajor_flat_eq b h w n)

/-- Nested to flat: the rank-2 view at `(rowOf b h w, k)` is the rank-4 array at `(b, h, w, k)`. -/
theorem unflat_apply {C : Nat} {α : Type} (g : (⟨4, ![4, 128, 128, C]⟩ : Shape).Idx → α)
    (hc : (⟨4, ![4, 128, 128, C]⟩ : Shape).ShapeCasts ⟨2, ![65536, C]⟩) (b : Fin 4) (h w : Fin 128) (k : Fin C) :
    shapeCast ⟨2, ![65536, C]⟩ g hc (ix2 (rowOf b h w) k) = g (ix4 b h w k) :=
  shapeCast_apply g hc (ix2 (rowOf b h w) k) (ix4 b h w k) (rowMajor_flat_eq b h w k).symm

/-! ## At the three widths the programs use -/

theorem flat_apply_1536 {α : Type} (f : (⟨2, ![65536, 1536]⟩ : Shape).Idx → α)
    (hc : (⟨2, ![65536, 1536]⟩ : Shape).ShapeCasts ⟨4, ![4, 128, 128, 1536]⟩) (b : Fin 4) (h w : Fin 128) (n : Fin 1536) :
    shapeCast ⟨4, ![4, 128, 128, 1536]⟩ f hc (ix4 b h w n) = f (ix2 (rowOf b h w) n) :=
  flat_apply f hc b h w n

theorem flat_apply_512 {α : Type} (f : (⟨2, ![65536, 512]⟩ : Shape).Idx → α)
    (hc : (⟨2, ![65536, 512]⟩ : Shape).ShapeCasts ⟨4, ![4, 128, 128, 512]⟩) (b : Fin 4) (h w : Fin 128) (n : Fin 512) :
    shapeCast ⟨4, ![4, 128, 128, 512]⟩ f hc (ix4 b h w n) = f (ix2 (rowOf b h w) n) :=
  flat_apply f hc b h w n

theorem unflat_apply_512 {α : Type} (g : (⟨4, ![4, 128, 128, 512]⟩ : Shape).Idx → α)
    (hc : (⟨4, ![4, 128, 128, 512]⟩ : Shape).ShapeCasts ⟨2, ![65536, 512]⟩) (b : Fin 4) (h w : Fin 128) (k : Fin 512) :
    shapeCast ⟨2, ![65536, 512]⟩ g hc (ix2 (rowOf b h w) k) = g (ix4 b h w k) :=
  unflat_apply g hc b h w k

end Cert.Bridge
-- ==== Proof.Bridge.Tables.lean ====
import proofs.«404274_j11819749998707_3_alg».proof.KernelIdeal
import proofs.«404274_j11819749998707_3_alg».proof.ReferenceIdeal

namespace Cert.Bridge

/-! # The two programs' literal tables are the same tables

Each program states the relative-position table (225 rows of two floats, as 450 words in row-major order) and the
relative-position index (4096 words) as a case tree on the index: the first directly on the index, the second on its
two base-128 digits (the high digit chooses a block of 128 entries, the low digit the entry in it, and an index past
the table reads `0`). The two programs' trees split on the same digits and carry the same entry at every leaf, so
each pair of tables unfolds to one and the same tree. -/

/-- The relative-position table: the same 450 words in both programs. -/
theorem lit0_eq : Cert.KernelIdeal.lit0 = Cert.ReferenceIdeal.lit0 := rfl

/-- One block of 128 entries of the relative-position index, as a function of the whole index: the same in both
    programs. (The first block; the others unfold the same way inside `lit1_eq`.) -/
theorem lit1t0_0_eq : Cert.KernelIdeal.lit1t0_0 = Cert.ReferenceIdeal.lit1t0_0 := rfl

/-- The index's digit tree over all natural numbers: the same in both programs. -/
theorem lit1t_eq : Cert.KernelIdeal.lit1t = Cert.ReferenceIdeal.lit1t := rfl

/-- The relative-position index: the same 4096 words in both programs. -/
theorem lit1_eq : Cert.KernelIdeal.lit1 = Cert.ReferenceIdeal.lit1 := rfl

/-- The tables agree entry by entry. -/
theorem lit0_apply (i : Fin 450) : Cert.KernelIdeal.lit0 i = Cert.ReferenceIdeal.lit0 i := congrFun lit0_eq i
theorem lit1_apply (i : Fin 4096) : Cert.KernelIdeal.lit1 i = Cert.ReferenceIdeal.lit1 i := congrFun lit1_eq i

end Cert.Bridge
-- ==== Proof.Bridge.Bias.lean ====
import proofs.«404274_j11819749998707_3_alg».proof.Proof.Gen.KernelIdeal
import proofs.«404274_j11819749998707_3_alg».proof.Proof.Gen.ReferenceIdeal
import Idealize.ShloMosaic.Lib.Pipeline.Value
import Idealize.ShloMosaic.Lib.ValueIdx
import Idealize.ShloMosaic.PureOps.Ideal.Laws

/-!
# The position bias scaled by a constant, read at an index

Both programs multiply the position bias by the same scalar constant broadcast to the bias's shape. The reference
first gives the bias a leading unit axis, multiplies there, and then broadcasts the product along that axis to every
window; the kernel multiplies the [16, 64, 64] array directly. Read at an index, each is the constant times the bias
at the head and the two token coordinates.
-/

noncomputable section

namespace Cert.Bridge

open Idealize.ShloMosaic Idealize.ShloMosaic.ValueIdx

/-- The reference's scaled bias: the scalar broadcast to [1, 16, 64, 64] times the bias broadcast to the same shape
    (a new leading unit axis), the product then broadcast along the unit axis to all 1024 windows. At window `g`, head
    `h`, tokens `l`, `j` it is the constant times the bias at `(h, l, j)`: the outer broadcast reads the unit axis at
    `0`, the scalar's broadcast reads the scalar, the bias's broadcast drops the unit axis. -/
theorem biasR_apply (s : FVec Ideal Cert.ReferenceIdeal.S16x64x64 .f32) (g : Fin 1024) (h : Fin 16) (l j : Fin 64) :
    (broadcastInDim Cert.ReferenceIdeal.S1024x16x64x64 ![0, 1, 2, 3] Cert.ReferenceIdeal.Facts₀.bcast_S1x16x64x64_S1024x16x64x64_0_1_2_3
      (mulf (broadcastInDim Cert.ReferenceIdeal.S1x16x64x64 ![] Cert.ReferenceIdeal.Facts₀.bcast_S_S1x16x64x64 (constant (F := Ideal) Cert.ReferenceIdeal.S_ .f32 0x41800000#32))
            (broadcastInDim Cert.ReferenceIdeal.S1x16x64x64 ![1, 2, 3] Cert.ReferenceIdeal.Facts₀.bcast_S16x64x64_S1x16x64x64_1_2_3 s))) (ix4 g h l j)
      = Ideal.ofBits .f32 0x41800000#32 * s (ix3 h l j) := by
  rw [broadcastInDim_apply _ _ _ (ix4 g h l j) (ix4 (0 : Fin 1) h l j)
    (fun a => by match a with
      | ⟨0, _⟩ => rfl
      | ⟨1, _⟩ => rfl
      | ⟨2, _⟩ => rfl
      | ⟨3, _⟩ => rfl)]
  rw [mulf_apply]
  refine congrArg₂ (· * ·) ?_ ?_
  · exact (broadcastInDim_apply _ _ _ _ ix0 (fun a => a.elim0)).trans (constant_apply _ _)
  · exact broadcastInDim_apply _ _ _ _ (ix3 h l j)
      (fun a => by match a with
        | ⟨0, _⟩ => rfl
        | ⟨1, _⟩ => rfl
        | ⟨2, _⟩ => rfl)

/-- The kernel's scaled bias: the scalar broadcast to [16, 64, 64] times the bias. At `(h, l, j)` it is the constant
    times the bias there. -/
theorem biasK_apply (s : FVec Ideal Cert.KernelIdeal.S16x64x64 .f32) (h : Fin 16) (l j : Fin 64) :
    (mulf (broadcastInDim Cert.KernelIdeal.S16x64x64 ![] Cert.KernelIdeal.Facts₀.bcast_S_S16x64x64 (constant (F := Ideal) Cert.KernelIdeal.S_ .f32 0x41800000#32)) s) (ix3 h l j)
      = Ideal.ofBits .f32 0x41800000#32 * s (ix3 h l j) := by
  rw [mulf_apply]
  refine congrArg (· * s (ix3 h l j)) ?_
  exact (broadcastInDim_apply _ _ _ _ ix0 (fun a => a.elim0)).trans (constant_apply _ _)

end Cert.Bridge

end
-- ==== Proof.Bridge.Temp.lean ====
import proofs.«404274_j11819749998707_3_alg».proof.Proof.Gen.ReferenceIdeal
import proofs.«404274_j11819749998707_3_alg».proof.Proof.Spec.Attn
import Idealize.ShloMosaic.Lib.Pipeline.Value
import Idealize.ShloMosaic.Lib.ValueIdx
import Idealize.ShloMosaic.Lib.IdealHost
import Idealize.ShloMosaic.PureOps.Ideal.Laws

/-!
# The per-head temperature

The temperature of head `h` is the exponential of the head's scale capped from above by a constant. The cap is a
finite real, so the capped scale is below `⊤` and the temperature is a nonnegative extended real below `⊤`: the two
facts under which multiplication by it distributes over sums.
-/

noncomputable section

namespace Cert.Bridge

open Idealize.ShloMosaic Idealize.ShloMosaic.ValueIdx

/-- The cap on a head's scale: the value of the f32 word the reference prints. -/
def tempCap : EReal := Ideal.ofBits .f32 0x40935D8E#32

/-- The cap is finite: its exponent field is neither all ones nor zero, so the word denotes a real number. -/
theorem tempCap_ne_top : tempCap ≠ ⊤ := by
  simp [tempCap, Ideal.ofBits, Ideal.ieee, -EReal.coe_mul]

/-- The temperature is nonnegative: it is an exponential. -/
theorem temp_nonneg (x : EReal) : 0 ≤ Ideal.exp (min x tempCap) := Cert.Spec.exp_nonneg _

/-- The temperature is below `⊤`: the capped scale is at most the cap, which is finite. -/
theorem temp_ne_top (x : EReal) : Ideal.exp (min x tempCap) ≠ ⊤ :=
  Cert.Spec.exp_ne_top (ne_top_of_le_ne_top tempCap_ne_top (min_le_right x tempCap))

/-- The reference's temperature array — the exponential of the minimum of the scales and the cap broadcast to their
    shape — read at head `h`. -/
theorem tempR_apply (s : FVec Ideal Cert.ReferenceIdeal.S16x1x1 .f32) (h : Fin 16) :
    (Host.exp (F := Ideal) (minimumf s (broadcastInDim Cert.ReferenceIdeal.S16x1x1 ![] Cert.ReferenceIdeal.Facts₀.bcast_S_S16x1x1 (constant (F := Ideal) Cert.ReferenceIdeal.S_ .f32 0x40935D8E#32)))) (ix3 h 0 0)
      = Ideal.exp (min (s (ix3 h 0 0)) tempCap) := by
  show Ideal.exp (minimumf s _ (ix3 h 0 0)) = _
  rw [minimumf_apply, broadcastInDim_scalar_apply, constant_apply]
  rfl

end Cert.Bridge

end
-- ==== Proof.Bridge.Final.lean ====
import proofs.«404274_j11819749998707_3_alg».proof.Defs
import proofs.«404274_j11819749998707_3_alg».proof.Proof.Gen.Pre_finite_inputs
import proofs.«404274_j11819749998707_3_alg».proof.Proof.KI.Plumb
import proofs.«404274_j11819749998707_3_alg».proof.Proof.KI.Value0
import proofs.«404274_j11819749998707_3_alg».proof.Proof.KI.Value1
import proofs.«404274_j11819749998707_3_alg».proof.Proof.KI.Value2
import proofs.«404274_j11819749998707_3_alg».proof.Proof.Ref.Compose
import proofs.«404274_j11819749998707_3_alg».proof.Proof.Bridge.Reshape
import proofs.«404274_j11819749998707_3_alg».proof.Proof.Bridge.Tables
import proofs.«404274_j11819749998707_3_alg».proof.Proof.Bridge.Bias
import proofs.«404274_j11819749998707_3_alg».proof.Proof.Bridge.Temp

/-!
# The two results agree on the extended reals

Stage by stage. The kernel's flattened projection, un-flattened, is the reference's 4-D contraction plus the
broadcast bias (a row of the flattened array is a position of the 4-D one). The slices and the window partition are
the same layout operations in both programs, so the queries, keys and values agree as arrays. The temperature and
the position bias are the same host chain of the same arguments and the same two tables. Head by head the kernel's
attention is the reference's, because the temperature — an exponential of a number capped below `⊤`, so
nonnegative and finite — distributes over the inner product's sum. The reverse partition is again one layout
operation, and the output projection is the first stage once more.
-/

set_option maxRecDepth 16384

noncomputable section

namespace Cert.Bridge

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The ten argument arrays, as the kernel's program holds them at launch. -/
abbrev a0 : FVec Ideal Cert.KernelIdeal.S4x128x128x512 .f32 := m ((c : Thread Cert.KernelIdeal.nD Cert.KernelIdeal.τ).loc Cert.KernelIdeal.main_arg0)
abbrev a1 : FVec Ideal Cert.KernelIdeal.S512x1536 .f32 := m ((c : Thread Cert.KernelIdeal.nD Cert.KernelIdeal.τ).loc Cert.KernelIdeal.main_arg1)
abbrev a2 : FVec Ideal Cert.KernelIdeal.S512 .f32 := m ((c : Thread Cert.KernelIdeal.nD Cert.KernelIdeal.τ).loc Cert.KernelIdeal.main_arg2)
abbrev a3 : FVec Ideal Cert.KernelIdeal.S512 .f32 := m ((c : Thread Cert.KernelIdeal.nD Cert.KernelIdeal.τ).loc Cert.KernelIdeal.main_arg3)
abbrev a4 : FVec Ideal Cert.KernelIdeal.S16x1x1 .f32 := m ((c : Thread Cert.KernelIdeal.nD Cert.KernelIdeal.τ).loc Cert.KernelIdeal.main_arg4)
abbrev a5 : FVec Ideal Cert.KernelIdeal.S2x512 .f32 := m ((c : Thread Cert.KernelIdeal.nD Cert.KernelIdeal.τ).loc Cert.KernelIdeal.main_arg5)
abbrev a6 : FVec Ideal Cert.KernelIdeal.S512 .f32 := m ((c : Thread Cert.KernelIdeal.nD Cert.KernelIdeal.τ).loc Cert.KernelIdeal.main_arg6)
abbrev a7 : FVec Ideal Cert.KernelIdeal.S512x16 .f32 := m ((c : Thread Cert.KernelIdeal.nD Cert.KernelIdeal.τ).loc Cert.KernelIdeal.main_arg7)
abbrev a8 : FVec Ideal Cert.KernelIdeal.S512x512 .f32 := m ((c : Thread Cert.KernelIdeal.nD Cert.KernelIdeal.τ).loc Cert.KernelIdeal.main_arg8)
abbrev a9 : FVec Ideal Cert.KernelIdeal.S512 .f32 := m ((c : Thread Cert.KernelIdeal.nD Cert.KernelIdeal.τ).loc Cert.KernelIdeal.main_arg9)

/-! ## The stage functions of the two programs are the same functions -/

theorem concat_eq (qb vb : FVec Ideal Cert.KernelIdeal.S512 .f32) :
    @Eq (FVec Ideal Cert.KernelIdeal.S1536 .f32) (Cert.KernelIdeal.Fr.concatFn qb vb) (Cert.ReferenceIdeal.RefVal.concatFn qb vb) := rfl

theorem partQ_eq (x : FVec Ideal Cert.KernelIdeal.S4x128x128x1536 .bf16) :
    @Eq (FVec Ideal Cert.KernelIdeal.S1024x16x64x32 .bf16) (Cert.KernelIdeal.Fr.partFn (Cert.KernelIdeal.Fr.sliceQ x))
      (Cert.ReferenceIdeal.RefVal.partFn (Cert.ReferenceIdeal.RefVal.sliceQ x)) := rfl
theorem partK_eq (x : FVec Ideal Cert.KernelIdeal.S4x128x128x1536 .bf16) :
    @Eq (FVec Ideal Cert.KernelIdeal.S1024x16x64x32 .bf16) (Cert.KernelIdeal.Fr.partFn (Cert.KernelIdeal.Fr.sliceK x))
      (Cert.ReferenceIdeal.RefVal.partFn (Cert.ReferenceIdeal.RefVal.sliceK x)) := rfl
theorem partV_eq (x : FVec Ideal Cert.KernelIdeal.S4x128x128x1536 .bf16) :
    @Eq (FVec Ideal Cert.KernelIdeal.S1024x16x64x32 .bf16) (Cert.KernelIdeal.Fr.partFn (Cert.KernelIdeal.Fr.sliceV x))
      (Cert.ReferenceIdeal.RefVal.partFn (Cert.ReferenceIdeal.RefVal.sliceV x)) := rfl

theorem rev_eq (x : FVec Ideal Cert.KernelIdeal.S1024x16x64x32 .bf16) :
    @Eq (FVec Ideal Cert.KernelIdeal.S4x128x128x512 .bf16) (Cert.KernelIdeal.Fr.revFn x) (Cert.ReferenceIdeal.RefVal.revFn x) := rfl

theorem temp_eq (s : FVec Ideal Cert.KernelIdeal.S16x1x1 .f32) :
    @Eq (FVec Ideal Cert.KernelIdeal.S16x1x1 .f32) (Cert.KernelIdeal.Fr.tempFn s) (Cert.ReferenceIdeal.RefVal.tempFn s) := rfl

/-- The two programs print the same table of relative positions, -/
theorem tableF_eq : @Eq (FVec Ideal Cert.KernelIdeal.S225x2 .f32) Cert.KernelIdeal.Fr.tableF Cert.ReferenceIdeal.RefVal.tableF := by
  unfold Cert.KernelIdeal.Fr.tableF Cert.ReferenceIdeal.RefVal.tableF
  rw [lit0_eq]

/-- and the same table of pairs of tokens. -/
theorem tableI_eq : @Eq (IVec Cert.KernelIdeal.S4096 32) Cert.KernelIdeal.Fr.tableI Cert.ReferenceIdeal.RefVal.tableI := by
  unfold Cert.KernelIdeal.Fr.tableI Cert.ReferenceIdeal.RefVal.tableI
  rw [lit1_eq]

/-- So the position bias before scaling is one function of the three network parameters in both programs. -/
theorem sig_eq (w1 : FVec Ideal Cert.KernelIdeal.S2x512 .f32) (b1 : FVec Ideal Cert.KernelIdeal.S512 .f32)
    (w2 : FVec Ideal Cert.KernelIdeal.S512x16 .f32) :
    @Eq (FVec Ideal Cert.KernelIdeal.S16x64x64 .f32) (Cert.KernelIdeal.Fr.sigFn w1 b1 w2) (Cert.ReferenceIdeal.RefVal.sigFn w1 b1 w2) := by
  unfold Cert.KernelIdeal.Fr.sigFn Cert.ReferenceIdeal.RefVal.sigFn Cert.ReferenceIdeal.RefVal.mlpFn Cert.ReferenceIdeal.RefVal.idxFn
  rw [tableF_eq, tableI_eq]
  rfl

/-! ## The qkv projection -/

/-- The kernel's flattened projection, un-flattened, at a position and a channel: the reference's. -/
theorem qkv_at (b : Fin 4) (h w : Fin 128) (n : Fin 1536) :
    shapeCast Cert.KernelIdeal.S4x128x128x1536 (Cert.KernelIdeal.Fr.W2 m ρ c (Proc.devRef .tc Cert.KernelIdeal.main_v4))
        Cert.KernelIdeal.Gen.shapeCasts_S65536x1536_S4x128x128x1536 (ix4 b h w n)
      = Cert.ReferenceIdeal.RefVal.qkvFn (a0 m c) (a1 m c) (Cert.ReferenceIdeal.RefVal.concatFn (a2 m c) (a3 m c)) (ix4 b h w n) := by
  refine (flat_apply_1536 _ _ b h w n).trans ?_
  rw [Cert.KernelIdeal.Fr.W2_v4, Cert.KernelIdeal.Fr.final0 (Cert.KernelIdeal.Fr.V1 m ρ) c (rowOf b h w) n,
    Cert.ReferenceIdeal.RefVal.qkvFn_apply]
  unfold Cert.Spec.mmb
  rw [Cert.KernelIdeal.Fr.V1_v0, Cert.KernelIdeal.Fr.V1_v3, Cert.KernelIdeal.Fr.V1_v2]
  refine congrArg₂ (· + ·) (Finset.sum_congr rfl fun k _ => ?_) rfl
  rw [unflat_apply_512]
  rfl

/-- The reference's qkv projection of the kernel's arguments. -/
abbrev QR : FVec Ideal Cert.ReferenceIdeal.S4x128x128x1536 .f32 :=
  Cert.ReferenceIdeal.RefVal.qkvFn (a0 m c) (a1 m c) (Cert.ReferenceIdeal.RefVal.concatFn (a2 m c) (a3 m c))

/-- As arrays. -/
theorem qkv_eq :
    @Eq (FVec Ideal Cert.KernelIdeal.S4x128x128x1536 .bf16)
      (shapeCast Cert.KernelIdeal.S4x128x128x1536 (Cert.KernelIdeal.Fr.W2 m ρ c (Proc.devRef .tc Cert.KernelIdeal.main_v4))
        Cert.KernelIdeal.Gen.shapeCasts_S65536x1536_S4x128x128x1536)
      (QR m c) := by
  funext j
  obtain ⟨b, h, w, n, rfl⟩ : ∃ (b : Fin 4) (h w : Fin 128) (n : Fin 1536), j = ix4 b h w n := ⟨j 0, j 1, j 2, j 3, eq_ix4 j⟩
  exact qkv_at m ρ c b h w n

/-! ## Queries, keys, values, temperature, bias: what the attention region finds -/

theorem q_eq : @Eq (FVec Ideal Cert.KernelIdeal.S1024x16x64x32 .bf16) (Cert.KernelIdeal.Fr.V5 m ρ c Cert.KernelIdeal.main_v11)
    (Cert.ReferenceIdeal.RefVal.partFn (Cert.ReferenceIdeal.RefVal.sliceQ (QR m c))) := by
  rw [Cert.KernelIdeal.Fr.V5_v11, qkv_eq]; exact partQ_eq _
theorem k_eq : @Eq (FVec Ideal Cert.KernelIdeal.S1024x16x64x32 .bf16) (Cert.KernelIdeal.Fr.V5 m ρ c Cert.KernelIdeal.main_v14)
    (Cert.ReferenceIdeal.RefVal.partFn (Cert.ReferenceIdeal.RefVal.sliceK (QR m c))) := by
  rw [Cert.KernelIdeal.Fr.V5_v14, qkv_eq]; exact partK_eq _
theorem v_eq : @Eq (FVec Ideal Cert.KernelIdeal.S1024x16x64x32 .bf16) (Cert.KernelIdeal.Fr.V5 m ρ c Cert.KernelIdeal.main_v17)
    (Cert.ReferenceIdeal.RefVal.partFn (Cert.ReferenceIdeal.RefVal.sliceV (QR m c))) := by
  rw [Cert.KernelIdeal.Fr.V5_v17, qkv_eq]; exact partV_eq _

theorem t_eq : @Eq (FVec Ideal Cert.KernelIdeal.S16x1x1 .f32) (Cert.KernelIdeal.Fr.V5 m ρ c Cert.KernelIdeal.main_v20)
    (Cert.ReferenceIdeal.RefVal.tempFn (a4 m c)) :=
  (Cert.KernelIdeal.Fr.V5_v20 m ρ c).trans (temp_eq _)

/-- The kernel holds the bias once, per head; the reference broadcasts it over the windows. -/
theorem bias_at (g : Fin 1024) (h : Fin 16) (l j : Fin 64) :
    (Cert.KernelIdeal.Fr.V5 m ρ c Cert.KernelIdeal.main_v43 : FVec Ideal Cert.KernelIdeal.S16x64x64 .f32) (ix3 h l j)
      = Cert.ReferenceIdeal.RefVal.biasFn (Cert.ReferenceIdeal.RefVal.sigFn (a5 m c) (a6 m c) (a7 m c)) (ix4 g h l j) := by
  rw [Cert.KernelIdeal.Fr.V5_v43]
  refine (biasK_apply _ h l j).trans ?_
  rw [sig_eq]
  exact (biasR_apply _ g h l j).symm

/-! ## The attention -/

/-- The reference's attention of the kernel's arguments. -/
abbrev ATT : FVec Ideal Cert.ReferenceIdeal.S1024x16x64x32 .f32 :=
  Cert.ReferenceIdeal.RefVal.attnFn (Cert.ReferenceIdeal.RefVal.partFn (Cert.ReferenceIdeal.RefVal.sliceQ (QR m c)))
    (Cert.ReferenceIdeal.RefVal.partFn (Cert.ReferenceIdeal.RefVal.sliceK (QR m c)))
    (Cert.ReferenceIdeal.RefVal.partFn (Cert.ReferenceIdeal.RefVal.sliceV (QR m c)))
    (Cert.ReferenceIdeal.RefVal.tempFn (a4 m c))
    (Cert.ReferenceIdeal.RefVal.biasFn (Cert.ReferenceIdeal.RefVal.sigFn (a5 m c) (a6 m c) (a7 m c)))

/-- Head by head: the temperature is nonnegative and below `⊤`, so it leaves the inner product's sum. -/
theorem attn_at (g : Fin 1024) (h : Fin 16) (l : Fin 64) (d : Fin 32) :
    Cert.KernelIdeal.Fr.W6 m ρ c (Proc.devRef .tc Cert.KernelIdeal.main_v44) (ix4 g h l d) = ATT m c (ix4 g h l d) := by
  rw [Cert.KernelIdeal.Fr.W6_v44, Cert.KernelIdeal.Fr.final1 (Cert.KernelIdeal.Fr.V5 m ρ) c g h l d]
  unfold ATT
  rw [Cert.ReferenceIdeal.RefVal.attnFn_apply, q_eq, k_eq, v_eq, t_eq]
  simp only [bias_at m ρ c g h]
  rw [show Cert.ReferenceIdeal.RefVal.tempFn (a4 m c) (ix3 h 0 0) = Ideal.exp (min (a4 m c (ix3 h 0 0)) tempCap) from tempR_apply _ h]
  exact congrFun (congrFun (Cert.Spec.headK_eq_headR _ _ _ (temp_nonneg _) (temp_ne_top _) _) l) d

theorem attn_eq : @Eq (FVec Ideal Cert.KernelIdeal.S1024x16x64x32 .bf16)
    (Cert.KernelIdeal.Fr.W6 m ρ c (Proc.devRef .tc Cert.KernelIdeal.main_v44)) (ATT m c) := by
  funext i
  obtain ⟨g, h, l, d, rfl⟩ : ∃ (g : Fin 1024) (h : Fin 16) (l : Fin 64) (d : Fin 32), i = ix4 g h l d := ⟨i 0, i 1, i 2, i 3, eq_ix4 i⟩
  exact attn_at m ρ c g h l d

/-! ## The output projection -/

theorem res_at (b : Fin 4) (h w : Fin 128) (n : Fin 512) :
    (Cert.KernelIdeal.Fr.W9 m ρ c (Proc.devRef .tc Cert.KernelIdeal.main_v51) : FVec Ideal Cert.KernelIdeal.S4x128x128x512 .f32) (ix4 b h w n)
      = Cert.ReferenceIdeal.RefVal.outFn (Cert.ReferenceIdeal.RefVal.revFn (ATT m c)) (a8 m c) (a9 m c) (ix4 b h w n) := by
  rw [Cert.KernelIdeal.Fr.W9_v51]
  refine (flat_apply_512 _ _ b h w n).trans ?_
  rw [Cert.KernelIdeal.Fr.W8_v50, Cert.KernelIdeal.Fr.final2 (Cert.KernelIdeal.Fr.V7 m ρ) c (rowOf b h w) n,
    Cert.ReferenceIdeal.RefVal.outFn_apply]
  unfold Cert.Spec.mmb
  rw [Cert.KernelIdeal.Fr.V7_v48, Cert.KernelIdeal.Fr.V7_v49, Cert.KernelIdeal.Fr.V7_arg9, attn_eq, rev_eq]
  refine congrArg₂ (· + ·) (Finset.sum_congr rfl fun k _ => ?_) rfl
  rw [unflat_apply_512]
  rfl

theorem res_eq_fn : @Eq (FVec Ideal Cert.KernelIdeal.S4x128x128x512 .f32)
    (Cert.KernelIdeal.Fr.W9 m ρ c (Proc.devRef .tc Cert.KernelIdeal.main_v51))
    (Cert.ReferenceIdeal.RefVal.outFn (Cert.ReferenceIdeal.RefVal.revFn (ATT m c)) (a8 m c) (a9 m c)) := by
  funext i
  obtain ⟨b, h, w, n, rfl⟩ : ∃ (b : Fin 4) (h w : Fin 128) (n : Fin 512), i = ix4 b h w n := ⟨i 0, i 1, i 2, i 3, eq_ix4 i⟩
  exact res_at m ρ c b h w n

/-! ## The two runs -/

/-- From memories agreeing on the arguments, the reference's result buffer ends holding what the kernel's does. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    StableHlo.after (Cert.ReferenceIdeal.RefRun.ops (F := Ideal)) (StableHlo.launchContents m' c) (Proc.devRef .tc Cert.ReferenceIdeal.main_v85)
      = Cert.KernelIdeal.Fr.W9 m ρ c (Proc.devRef .tc Cert.KernelIdeal.main_v51) := by
  rw [Cert.ReferenceIdeal.RefVal.res_eq]
  unfold Cert.ReferenceIdeal.RefVal.qFn
  dsimp only [StableHlo.launchContents]
  rw [show m' (c, Proc.devRef .tc Cert.ReferenceIdeal.main_arg0) = m ((c.tc : Thread Cert.KernelIdeal.nD Cert.KernelIdeal.τ).loc Cert.KernelIdeal.main_arg0) from h0,
    show m' (c, Proc.devRef .tc Cert.ReferenceIdeal.main_arg1) = m ((c.tc : Thread Cert.KernelIdeal.nD Cert.KernelIdeal.τ).loc Cert.KernelIdeal.main_arg1) from h1,
    show m' (c, Proc.devRef .tc Cert.ReferenceIdeal.main_arg2) = m ((c.tc : Thread Cert.KernelIdeal.nD Cert.KernelIdeal.τ).loc Cert.KernelIdeal.main_arg2) from h2,
    show m' (c, Proc.devRef .tc Cert.ReferenceIdeal.main_arg3) = m ((c.tc : Thread Cert.KernelIdeal.nD Cert.KernelIdeal.τ).loc Cert.KernelIdeal.main_arg3) from h3,
    show m' (c, Proc.devRef .tc Cert.ReferenceIdeal.main_arg4) = m ((c.tc : Thread Cert.KernelIdeal.nD Cert.KernelIdeal.τ).loc Cert.KernelIdeal.main_arg4) from h4,
    show m' (c, Proc.devRef .tc Cert.ReferenceIdeal.main_arg5) = m ((c.tc : Thread Cert.KernelIdeal.nD Cert.KernelIdeal.τ).loc Cert.KernelIdeal.main_arg5) from h5,
    show m' (c, Proc.devRef .tc Cert.ReferenceIdeal.main_arg6) = m ((c.tc : Thread Cert.KernelIdeal.nD Cert.KernelIdeal.τ).loc Cert.KernelIdeal.main_arg6) from h6,
    show m' (c, Proc.devRef .tc Cert.ReferenceIdeal.main_arg7) = m ((c.tc : Thread Cert.KernelIdeal.nD Cert.KernelIdeal.τ).loc Cert.KernelIdeal.main_arg7) from h7,
    show m' (c, Proc.devRef .tc Cert.ReferenceIdeal.main_arg8) = m ((c.tc : Thread Cert.KernelIdeal.nD Cert.KernelIdeal.τ).loc Cert.KernelIdeal.main_arg8) from h8,
    show m' (c, Proc.devRef .tc Cert.ReferenceIdeal.main_arg9) = m ((c.tc : Thread Cert.KernelIdeal.nD Cert.KernelIdeal.τ).loc Cert.KernelIdeal.main_arg9) from h9]
  exact (res_eq_fn m ρ c).symm

/-- Both programs run, end with equal results on the extended reals, and leave their arguments in place. -/
theorem algebraic : Cert.algebraic_KernelIdeal_ReferenceIdeal := by
  intro m ρ m' ρ' _ hagree
  refine ⟨fun c => Cert.KernelIdeal.Fr.W9 m ρ c (Proc.devRef .tc Cert.KernelIdeal.main_v51), ?_, ?_⟩
  · refine (θ_run (Cert.KernelIdeal.defs (F := Ideal)) _ _).mono (fun r h c => ?_) (Cert.KernelIdeal.Fr.run_all (F := Ideal) m ρ)
    exact ⟨h c _ (Cert.KernelIdeal.Fr.mem_uc Cert.KernelIdeal.main_v51 (by decide)),
      (h c _ (Cert.KernelIdeal.Fr.mem_uc Cert.KernelIdeal.main_arg0 (by decide))).trans (Cert.KernelIdeal.Fr.W9_main_arg0 m ρ c),
      (h c _ (Cert.KernelIdeal.Fr.mem_uc Cert.KernelIdeal.main_arg1 (by decide))).trans (Cert.KernelIdeal.Fr.W9_main_arg1 m ρ c),
      (h c _ (Cert.KernelIdeal.Fr.mem_uc Cert.KernelIdeal.main_arg2 (by decide))).trans (Cert.KernelIdeal.Fr.W9_main_arg2 m ρ c),
      (h c _ (Cert.KernelIdeal.Fr.mem_uc Cert.KernelIdeal.main_arg3 (by decide))).trans (Cert.KernelIdeal.Fr.W9_main_arg3 m ρ c),
      (h c _ (Cert.KernelIdeal.Fr.mem_uc Cert.KernelIdeal.main_arg4 (by decide))).trans (Cert.KernelIdeal.Fr.W9_main_arg4 m ρ c),
      (h c _ (Cert.KernelIdeal.Fr.mem_uc Cert.KernelIdeal.main_arg5 (by decide))).trans (Cert.KernelIdeal.Fr.W9_main_arg5 m ρ c),
      (h c _ (Cert.KernelIdeal.Fr.mem_uc Cert.KernelIdeal.main_arg6 (by decide))).trans (Cert.KernelIdeal.Fr.W9_main_arg6 m ρ c),
      (h c _ (Cert.KernelIdeal.Fr.mem_uc Cert.KernelIdeal.main_arg7 (by decide))).trans (Cert.KernelIdeal.Fr.W9_main_arg7 m ρ c),
      (h c _ (Cert.KernelIdeal.Fr.mem_uc Cert.KernelIdeal.main_arg8 (by decide))).trans (Cert.KernelIdeal.Fr.W9_main_arg8 m ρ c),
      (h c _ (Cert.KernelIdeal.Fr.mem_uc Cert.KernelIdeal.main_arg9 (by decide))).trans (Cert.KernelIdeal.Fr.W9_main_arg9 m ρ c)⟩
  · refine (θ_run (Cert.ReferenceIdeal.defs (F := Ideal)) _ _).mono (fun r h c => ?_) (Cert.ReferenceIdeal.RefRun.run_all (F := Ideal) m' ρ')
    obtain ⟨h0, h1, h2, h3, h4, h5, h6, h7, h8, h9⟩ := hagree c
    exact ⟨(h c Cert.ReferenceIdeal.main_v85).trans (result_eq m ρ c m' h0 h1 h2 h3 h4 h5 h6 h7 h8 h9),
      (h c Cert.ReferenceIdeal.main_arg0).trans (Cert.ReferenceIdeal.RefRun.arg0_kept m' c),
      (h c Cert.ReferenceIdeal.main_arg1).trans (Cert.ReferenceIdeal.RefRun.arg1_kept m' c),
      (h c Cert.ReferenceIdeal.main_arg2).trans (Cert.ReferenceIdeal.RefRun.arg2_kept m' c),
      (h c Cert.ReferenceIdeal.main_arg3).trans (Cert.ReferenceIdeal.RefRun.arg3_kept m' c),
      (h c Cert.ReferenceIdeal.main_arg4).trans (Cert.ReferenceIdeal.RefRun.arg4_kept m' c),
      (h c Cert.ReferenceIdeal.main_arg5).trans (Cert.ReferenceIdeal.RefRun.arg5_kept m' c),
      (h c Cert.ReferenceIdeal.main_arg6).trans (Cert.ReferenceIdeal.RefRun.arg6_kept m' c),
      (h c Cert.ReferenceIdeal.main_arg7).trans (Cert.ReferenceIdeal.RefRun.arg7_kept m' c),
      (h c Cert.ReferenceIdeal.main_arg8).trans (Cert.ReferenceIdeal.RefRun.arg8_kept m' c),
      (h c Cert.ReferenceIdeal.main_arg9).trans (Cert.ReferenceIdeal.RefRun.arg9_kept m' c)⟩

end Cert.Bridge

end
-- ==== Proof.lean ====
/-
  The certificate of a windowed cosine-attention block (a qkv projection, 1024 windows of 16 heads over 64 tokens
  with a learned position bias and temperature, an output projection) against its plain reference.

  The kernel's program is three grid-pipelined regions among stretches of host operations. Each region's frame —
  it runs to the end, faults nowhere, leaves its operands in place — comes from its body's run at a grid point,
  and the program's from the regions' in sequence; the same text serves the word-level program and its reading on
  the extended reals. The reference is a straight line of host operations, run as a fold. On the extended reals the
  two results agree index by index: a row of a flattened matrix product is the row of the unflattened one; each
  attention head of the kernel applies the temperature to a whole inner product where the reference applies it to
  every query entry, and a nonnegative finite factor distributes over any sum of extended reals.
-/
import proofs.«404274_j11819749998707_3_alg».proof.Defs
import proofs.«404274_j11819749998707_3_alg».proof.Proof.Gen.Kernel
import proofs.«404274_j11819749998707_3_alg».proof.Proof.Gen.KernelIdeal
import proofs.«404274_j11819749998707_3_alg».proof.Proof.Gen.ReferenceIdeal
import proofs.«404274_j11819749998707_3_alg».proof.Proof.Gen.Pre_finite_inputs
import proofs.«404274_j11819749998707_3_alg».proof.Proof.KB.Run
import proofs.«404274_j11819749998707_3_alg».proof.Proof.KI.Run
import proofs.«404274_j11819749998707_3_alg».proof.Proof.Ref.Run
import proofs.«404274_j11819749998707_3_alg».proof.Proof.Bridge.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    fun m ρ _ => Cert.ReferenceIdeal.RefRun.frame m ρ,
    trivial,
    Cert.Bridge.algebraic⟩

end Cert.Proof

end
